-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  main_v3
-- ==== Kernel.lean ====
abbrev S512x256 : Shape := ⟨2, ![512, 256]⟩
abbrev S1x256 : Shape := ⟨2, ![1, 256]⟩
abbrev S4x1x256 : Shape := ⟨3, ![4, 1, 256]⟩
abbrev S4 : Shape := ⟨1, ![4]⟩
abbrev S_ : Shape := ⟨0, ![]⟩
abbrev S256 : Shape := ⟨1, ![256]⟩
abbrev S1x1x256 : Shape := ⟨3, ![1, 1, 256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S4x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v50 : BitVec 32 := Scalar.addi v2 c1_i32_32
  let c4_i32_33 : BitVec 32 := 4#32
  let c0_i32_34 : BitVec 32 := 0#32
  let v51 : BitVec 1 := Scalar.cmpi .eq c4_i32_33 c0_i32_34
  let c1_i32_35 : BitVec 32 := 1#32
  let v52 : BitVec 32 := Scalar.select v51 c1_i32_35 c4_i32_33
  let v53 : BitVec 32 := Scalar.remsi v50 v52
  let c0_i32_37 : BitVec 32 := 0#32
  let v55 : BitVec 1 := Scalar.cmpi .slt v53 c0_i32_37
  let c0_i32_38 : BitVec 32 := 0#32
  let v56 : BitVec 1 := Scalar.cmpi .slt v52 c0_i32_38
  let v57 : BitVec 1 := Scalar.xori v55 v56
  let c0_i32_36 : BitVec 32 := 0#32
  let v54 : BitVec 1 := Scalar.cmpi .ne v53 c0_i32_36
  let v58 : BitVec 1 := Scalar.andi v57 v54
  let v59 : BitVec 32 := Scalar.addi v53 v52
  let v60 : BitVec 32 := Scalar.select v58 v59 v53
  let c1_i32_43 : BitVec 32 := 1#32
  let v61 : BitVec 32 := Scalar.muli v60 c1_i32_43
  let v62 : BitVec 32 := Scalar.addi c0_i32_44 v61
  v62.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_49 : BitVec 32 := 2#32
  let v71 : BitVec 32 := Scalar.addi v2 c2_i32_49
  let c4_i32_50 : BitVec 32 := 4#32
  let c0_i32_51 : BitVec 32 := 0#32
  let v72 : BitVec 1 := Scalar.cmpi .eq c4_i32_50 c0_i32_51
  let c1_i32_52 : BitVec 32 := 1#32
  let v73 : BitVec 32 := Scalar.select v72 c1_i32_52 c4_i32_50
  let v74 : BitVec 32 := Scalar.remsi v71 v73
  let c0_i32_54 : BitVec 32 := 0#32
  let v76 : BitVec 1 := Scalar.cmpi .slt v74 c0_i32_54
  let c0_i32_55 : BitVec 32 := 0#32
  let v77 : BitVec 1 := Scalar.cmpi .slt v73 c0_i32_55
  let v78 : BitVec 1 := Scalar.xori v76 v77
  let c0_i32_53 : BitVec 32 := 0#32
  let v75 : BitVec 1 := Scalar.cmpi .ne v74 c0_i32_53
  let v79 : BitVec 1 := Scalar.andi v78 v75
  let v80 : BitVec 32 := Scalar.addi v74 v73
  let v81 : BitVec 32 := Scalar.select v79 v80 v74
  let c1_i32_60 : BitVec 32 := 1#32
  let v82 : BitVec 32 := Scalar.muli v81 c1_i32_60
  let v83 : BitVec 32 := Scalar.addi c0_i32_61 v82
  v83.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_66 : BitVec 32 := 3#32
  let v92 : BitVec 32 := Scalar.addi v2 c3_i32_66
  let c4_i32_67 : BitVec 32 := 4#32
  let c0_i32_68 : BitVec 32 := 0#32
  let v93 : BitVec 1 := Scalar.cmpi .eq c4_i32_67 c0_i32_68
  let c1_i32_69 : BitVec 32 := 1#32
  let v94 : BitVec 32 := Scalar.select v93 c1_i32_69 c4_i32_67
  let v95 : BitVec 32 := Scalar.remsi v92 v94
  let c0_i32_71 : BitVec 32 := 0#32
  let v97 : BitVec 1 := Scalar.cmpi .slt v95 c0_i32_71
  let c0_i32_72 : BitVec 32 := 0#32
  let v98 : BitVec 1 := Scalar.cmpi .slt v94 c0_i32_72
  let v99 : BitVec 1 := Scalar.xori v97 v98
  let c0_i32_70 : BitVec 32 := 0#32
  let v96 : BitVec 1 := Scalar.cmpi .ne v95 c0_i32_70
  let v100 : BitVec 1 := Scalar.andi v99 v96
  let v101 : BitVec 32 := Scalar.addi v95 v94
  let v102 : BitVec 32 := Scalar.select v100 v101 v95
  let c1_i32_77 : BitVec 32 := 1#32
  let v103 : BitVec 32 := Scalar.muli v102 c1_i32_77
  let v104 : BitVec 32 := Scalar.addi c0_i32_78 v103
  v104.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S4x1x256_S1x1x256_0_0_0 : ∀ a, (![0, 0, 0] : Fin 3 → Nat) a + S1x1x256.size a ≤ S4x1x256.size a
  h_S1x1x256 : 0 < S1x1x256.numel
  shapeCasts_S1x1x256_S1x256 : S1x1x256.ShapeCasts S1x256
  shapeCasts_S1x256_S1x1x256 : S1x256.ShapeCasts S1x1x256
  hamt_3 : (3#32 : BitVec 32).msb = false
  inb_S4_S1_1 : ∀ a, (![1] : Fin 1 → Nat) a + S1.size a ≤ S4.size a
  squeezes_S1_S_ : S1.Squeezes S_
  inb_S4x1x256_S1x1x256_1_0_0 : ∀ a, (![1, 0, 0] : Fin 3 → Nat) a + S1x1x256.size a ≤ S4x1x256.size a
  squeezes_S1x1x256_S1x256 : S1x1x256.Squeezes S1x256
  inb_S4_S1_2 : ∀ a, (![2] : Fin 1 → Nat) a + S1.size a ≤ S4.size a
  inb_S4x1x256_S1x1x256_2_0_0 : ∀ a, (![2, 0, 0] : Fin 3 → Nat) a + S1x1x256.size a ≤ S4x1x256.size a
  inb_S4_S1_3 : ∀ a, (![3] : Fin 1 → Nat) a + S1.size a ≤ S4.size a
  inb_S4x1x256_S1x1x256_3_0_0 : ∀ a, (![3, 0, 0] : Fin 3 → Nat) a + S1x1x256.size a ≤ S4x1x256.size a
  inb_S1x256_S1x256_0_0 : ∀ a, (![0, 0] : Fin 2 → Nat) a + S1x256.size a ≤ S1x256.size a
  h_S1x256 : 0 < S1x256.numel
  hcc0_scratch1 : 2 + S4.numel ≤ 10
  hcc0_scratch2 : 6 + S4.numel ≤ 10
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch1 : DmaSems sig S4 := SemArray.consecutive 2 S4 hcc0_scratch1
abbrev cc0_scratch2 : DmaSems sig S4 := SemArray.consecutive 6 S4 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x256 : Shape := ⟨2, ![2048, 256]⟩
abbrev S_ : Shape := ⟨0, ![]⟩
abbrev S256 : Shape := ⟨1, ![256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S_, .f32⟩
  | .hbm, ⟨2, _⟩ => ⟨S256, .f32⟩
  | .hbm, ⟨3, _⟩ => ⟨S1x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2048x256_S256_d0 : S2048x256.ReducesTo [0] S256
  h_S_ : 0 < S_.numel
  bcast_S256_S1x256_1 : S256.BroadcastsInDim S1x256 (![1] : Fin 1 → Fin S1x256.rank)

variable [Facts₀]

class Facts : Prop extends Facts₀ where

variable [Facts]
-- ==== Proof.Coll.lean ====
import Idealize.ShloMosaic.Signature.Static

/-! The ring of four devices: the device a given number of places after, or before, a device. -/

namespace Cert.Coll

open Idealize.ShloMosaic

/-- The device `r` places after `c` on the ring of four. -/
def fwd (c : Dev 4) (r : Fin 4) : Dev 4 := ⟨(c.val + r.val) % 4, Nat.mod_lt _ (by decide)⟩

/-- The device `r` places before `c` on the ring of four. -/
def bwd (c : Dev 4) (r : Fin 4) : Dev 4 := ⟨(c.val + (4 - r.val)) % 4, Nat.mod_lt _ (by decide)⟩

theorem bwd_fwd (c : Dev 4) (r : Fin 4) : bwd (fwd c r) r = c := by revert c r; decide
theorem fwd_bwd (c : Dev 4) (r : Fin 4) : fwd (bwd c r) r = c := by revert c r; decide
theorem fwd_zero (c : Dev 4) : fwd c 0 = c := by revert c; decide
theorem bwd_zero (c : Dev 4) : bwd c 0 = c := by revert c; decide
theorem fwd_inj (c : Dev 4) {r r' : Fin 4} (h : fwd c r = fwd c r') : r = r' := by revert c r r'; decide
theorem bwd_inj (c : Dev 4) {r r' : Fin 4} (h : bwd c r = bwd c r') : r = r' := by revert c r r'; decide
theorem fwd_left_inj (r : Fin 4) {c c' : Dev 4} (h : fwd c r = fwd c' r) : c = c' := by revert c c' r; decide
theorem bwd_left_inj (r : Fin 4) {c c' : Dev 4} (h : bwd c r = bwd c' r) : c = c' := by revert c c' r; decide
/-- Going `r` places forward is going `4 - r` places back. -/
theorem fwd_eq_bwd (c : Dev 4) (r : Fin 4) : fwd c r = bwd c ⟨(4 - r.val) % 4, Nat.mod_lt _ (by decide)⟩ := by revert c r; decide

/-- Stepping forward by `r` is a permutation of the ring. -/
def fwdEquiv (r : Fin 4) : Dev 4 ≃ Dev 4 := ⟨fun c => fwd c r, fun c => bwd c r, fun c => bwd_fwd c r, fun c => fwd_bwd c r⟩
/-- For a fixed device, the devices at the four distances before it are all four devices. -/
def bwdAt (c : Dev 4) : Fin 4 ≃ Dev 4 :=
  ⟨fun r => bwd c r, fun d => ⟨(c.val + (4 - d.val)) % 4, Nat.mod_lt _ (by decide)⟩, by revert c; decide, by revert c; decide⟩

end Cert.Coll
-- ==== Proof.Slots.lean ====
import proofs.«901091_g7700000000001092_dist_sum_ax0_shard0_i_m512_n256_v7x_i4_bf16_1_alg».proof.Proof.Coll
import proofs.«901091_g7700000000001092_dist_sum_ax0_shard0_i_m512_n256_v7x_i4_bf16_1_alg».proof.Proof.Gen.KernelIdeal
import proofs.«901091_g7700000000001092_dist_sum_ax0_shard0_i_m512_n256_v7x_i4_bf16_1_alg».proof.Proof.Gen.KernelIdeal.Skeleton
import proofs.«901091_g7700000000001092_dist_sum_ax0_shard0_i_m512_n256_v7x_i4_bf16_1_alg».proof.Proof.Gen.KernelIdeal.Launch
import proofs.«901091_g7700000000001092_dist_sum_ax0_shard0_i_m512_n256_v7x_i4_bf16_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Sum4

open Cert.KernelIdeal Cert.KernelIdeal.Gen Cert.Coll
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The scratch buffer's four rows: index sets, contents, and what a read or a copy of a row gives

Device `c`'s scratch buffer has four rows of 256 words. Row 0 is written by the device itself with the column sums of its own
block; row `k` (k = 1, 2, 3) is written by the device `k` places before it on the ring with that device's column sums. -/

variable (m : (ℓ : Loc nD τ sig) → Buf (Elt F) ℓ)

/-! ## The devices the body addresses -/

theorem dev1_eq (c : Dev nD) : (⟨k0_dev1 c, k0_dev1_lt c⟩ : Dev nD) = fwd c 1 := Fin.ext (by revert c; decide +kernel)
theorem dev2_eq (c : Dev nD) : (⟨k0_dev2 c, k0_dev2_lt c⟩ : Dev nD) = fwd c 2 := Fin.ext (by revert c; decide +kernel)
theorem dev3_eq (c : Dev nD) : (⟨k0_dev3 c, k0_dev3_lt c⟩ : Dev nD) = fwd c 3 := Fin.ext (by revert c; decide +kernel)
theorem dev4_eq (c : Dev nD) : (⟨k0_dev4 c, k0_dev4_lt c⟩ : Dev nD) = fwd c 1 := Fin.ext (by revert c; decide +kernel)
theorem dev5_eq (c : Dev nD) : (⟨k0_dev5 c, k0_dev5_lt c⟩ : Dev nD) = fwd c 2 := Fin.ext (by revert c; decide +kernel)
theorem dev6_eq (c : Dev nD) : (⟨k0_dev6 c, k0_dev6_lt c⟩ : Dev nD) = fwd c 3 := Fin.ext (by revert c; decide +kernel)

/-! ## Memrefs, rows and semaphores -/

abbrev xM : Memref sig .tc .vmem S512x256 .f32 := Memref.whole cc0_stg0_0
abbrev oM : Memref sig .tc .vmem S1x256 .f32 := Memref.whole cc0_stg1_0
abbrev scrM : Memref sig .tc .vmem S4x1x256 .f32 := Memref.whole cc0_scratch0

theorem slot_inb (k : Fin 4) : ∀ a, (![k.val, 0, 0] : Fin 3 → Nat) a + S1x1x256.size a ≤ S4x1x256.size a := by revert k; decide
theorem sem_inb (k : Fin 4) : ∀ a, (![k.val] : Fin 1 → Nat) a + S1.size a ≤ S4.size a := by revert k; decide

/-- Row `k` of the scratch buffer, as a rectangle of it; -/
abbrev slotRect (k : Fin 4) : Rect S4x1x256 := Rect.unit (s := S4x1x256) ![k.val, 0, 0] S1x1x256.size (slot_inb k)
/-- as the 1 × 256 memref a copy goes through; -/
abbrev slotM (k : Fin 4) : Memref sig .tc .vmem S1x256 .f32 :=
  (scrM.slice (slotRect k) (fun _ => rfl)).squeeze S1x256 squeezes_S1x1x256_S1x256
/-- and as a set of the buffer's indices. -/
def slotSet (k : Fin 4) : Finset S4x1x256.Idx := (slotRect k).set

/-- The send and the receive semaphore of the copy into row `k`. -/
abbrev sendS (k : Fin 4) : DmaSem sig := ((cc0_scratch1.slice (Rect.unit (s := S4) ![k.val] S1.size (sem_inb k))).squeeze S_ squeezes_S1_S_).sem
abbrev recvS (k : Fin 4) : DmaSem sig := ((cc0_scratch2.slice (Rect.unit (s := S4) ![k.val] S1.size (sem_inb k))).squeeze S_ squeezes_S1_S_).sem
abbrev barS : Sem sig := (SemArray.scalar (sig.barrier 0 rfl) : Sems sig S_).sem

theorem sendS_val (k : Fin 4) : (sendS k).val = 2 + k.val := by revert k; decide
theorem recvS_val (k : Fin 4) : (recvS k).val = 6 + k.val := by revert k; decide

theorem slotM_set (k : Fin 4) : (slotM k).view.set = slotSet k := by
  unfold slotSet
  exact (View.set_reshape _ _).trans (View.set_slice_whole cc0_scratch0 (slotRect k))

theorem slotSet_disjoint {k k' : Fin 4} (h : k ≠ k') : Disjoint (slotSet k) (slotSet k') := by
  unfold slotSet
  refine Rect.unit_disjoint (0 : Fin 3) ?_
  show k.val + 1 ≤ k'.val ∨ k'.val + 1 ≤ k.val
  have : k.val ≠ k'.val := fun e => h (Fin.ext e)
  omega

theorem mem_slotSet {k : Fin 4} {i : S4x1x256.Idx} : i ∈ slotSet k ↔ (i 0).val = k.val := by
  unfold slotSet
  rw [Rect.mem_set_unit]
  constructor
  · intro h; have := h 0; simp only [Matrix.cons_val_zero] at this; have h2 : S1x1x256.size 0 = 1 := rfl; omega
  · intro h a
    fin_cases a
    · simp only [Matrix.cons_val_zero]; have h2 : S1x1x256.size 0 = 1 := rfl; constructor <;> [exact le_of_eq h.symm; skip]; show (i 0).val < k.val + 1; omega
    · exact ⟨Nat.zero_le _, by have h3 : (i 1).val < 1 := (i 1).isLt; show (i 1).val < 0 + 1; omega⟩
    · exact ⟨Nat.zero_le _, by have h3 : (i 2).val < 256 := (i 2).isLt; show (i 2).val < 0 + 256; omega⟩

theorem slotSet_cover : (Finset.univ : Finset (Fin 4)).biUnion slotSet = Finset.univ := by
  ext i
  simp only [Finset.mem_biUnion, Finset.mem_univ, true_and, iff_true]
  exact ⟨⟨(i 0).val, (i 0).isLt⟩, mem_slotSet.mpr rfl⟩

/-! ## Contents -/

/-- The position inside a row of an index of the scratch buffer. -/
def col (i : S4x1x256.Idx) : S1x1x256.Idx := fun a => match a with
  | ⟨0, _⟩ => ⟨0, Nat.one_pos⟩
  | ⟨1, _⟩ => ⟨0, Nat.one_pos⟩
  | ⟨2, _⟩ => ⟨(i 2).val, (i 2).isLt⟩

/-- Device `c`'s block of the argument array, as its staging buffer holds it. -/
def xstg (c : Dev nD) : (cc0_stg0_0 : Ref sig .tc).ty.Contents (Elt F) :=
  (win0_0.blk (0 : Fin 1)).view.read (Elt F) (m ((c : Thread nD τ).loc main_arg0))
/-- The column sums of device `d`'s block: the row it computes and sends around. -/
def part (d : Dev nD) : Vec F S1x1x256 .f32 := k0_pay1 (xstg m d)
/-- The scratch buffer of device `c` once every row has arrived: row `k` holds the column sums of the device `k` places before `c`. -/
def scr (c : Dev nD) : S4x1x256.Idx → Elt F .f32 := fun i => part m (bwd c ⟨(i 0).val, (i 0).isLt⟩) (col i)
/-- The result on device `c`: the four rows added up. -/
def outAt (c : Dev nD) : Vec F S1x256 .f32 := k0_pay2 (part m (bwd c 0)) (part m (bwd c 1)) (part m (bwd c 2)) (part m (bwd c 3))

omit [FloatOps F] in
theorem xstg_eq (c : Dev nD) : xstg m c = m ((c : Thread nD τ).loc main_arg0) := by
  unfold xstg
  funext x
  rw [View.read_apply, cast_eq]
  refine congrArg _ (funext fun a => Fin.ext ?_)
  show (win0_0.index (0 : Fin 1) a * win0_0.size a + 1 * (x a : Nat)) = (x a : Nat)
  have h0 : win0_0.index (0 : Fin 1) a = 0 := rfl
  rw [h0]; omega

/-- Row `k` of the final scratch contents is the row of the device `k` places before. -/
theorem scr_emb (c : Dev nD) (k : Fin 4) (j : S1x1x256.Idx) : scr m c ((slotRect k).emb j) = part m (bwd c k) j := by
  unfold scr
  have h0 : (⟨((slotRect k).emb j 0).val, ((slotRect k).emb j 0).isLt⟩ : Fin 4) = k := Fin.ext (by
    show ((slotRect k).emb j 0 : Nat) = k.val
    rw [Rect.emb_apply]; have : (j 0).val < 1 := (j 0).isLt; show k.val + 1 * (j 0).val = k.val; omega)
  have h1 : col ((slotRect k).emb j) = j := funext fun a => by
    match a with
    | ⟨0, _⟩ => exact Fin.ext (by have : (j 0).val < 1 := (j 0).isLt; show 0 = (j 0).val; omega)
    | ⟨1, _⟩ => exact Fin.ext (by have : (j 1).val < 1 := (j 1).isLt; show 0 = (j 1).val; omega)
    | ⟨2, _⟩ => exact Fin.ext (by show ((slotRect k).emb j 2 : Nat) = (j 2).val; rw [Rect.emb_apply]; show 0 + 1 * (j 2).val = (j 2).val; omega)
  rw [h0, h1]

/-- A load of row `k` of the final contents reads that row. -/
theorem read_slot (c : Dev nD) (k : Fin 4) :
    (scrM : Memref sig .tc .vmem S4x1x256 .f32).view.readAt (Elt F) (slotRect k).toLoadRect (scr m c) = part m (bwd c k) :=
  funext fun j => scr_emb m c k j

omit [FloatOps F] in
theorem load_sub (k : Fin 4) : (scrM : Memref sig .tc .vmem S4x1x256 .f32).view.setOn (slotRect k).toLoadRect.set ⊆ slotSet k := by
  intro i hi
  obtain ⟨x, hx, rfl⟩ := Finset.mem_map.mp hi
  exact hx

omit [FloatOps F] in
theorem access_set (k : Fin 4) : ((scrM : Memref sig .tc .vmem S4x1x256 .f32).access (slotRect k) : View sig .tc _ _ _).set = slotSet k :=
  View.set_slice_whole cc0_scratch0 (slotRect k)

omit [FloatOps F] in
theorem store_sub (k : Fin 4) : ((scrM : Memref sig .tc .vmem S4x1x256 .f32).access (slotRect k) : View sig .tc _ _ _).setOn Finset.univ ⊆ slotSet k :=
  le_of_eq (access_set k)

/-- The device's own row, stored whole, is row 0 of the final contents. -/
theorem write_slot0 (c : Dev nD) (f : S4x1x256.Idx → Elt F .f32) (i : S4x1x256.Idx) (hi : i ∈ slotSet 0) :
    ((scrM : Memref sig .tc .vmem S4x1x256 .f32).access (slotRect 0) : View sig .tc _ _ _).write (Elt F) f (part m c) Finset.univ i = scr m c i := by
  obtain ⟨y, rfl⟩ := View.exists_emb_of_mem_set ((scrM : Memref sig .tc .vmem S4x1x256 .f32).access (slotRect 0) : View sig .tc _ _ _) (by rw [access_set]; exact hi)
  rw [View.write_emb_of_mem _ _ (Finset.mem_univ y)]
  show _root_.cast _ (part m c y) = scr m c ((slotRect 0).emb y)
  rw [scr_emb, bwd_zero, cast_eq]

/-- What a copy of row 0 of device `c` leaves in row `r` of the device `r` places after it is that row of that device's final contents. -/
theorem copy_val (c : Dev nD) (r : Fin 4) (fd : S4x1x256.Idx → Elt F .f32) (i : S4x1x256.Idx) (hi : i ∈ slotSet r) :
    (slotM r).view.write (Elt F) fd ((slotM 0).view.read (Elt F) (scr m c)) Finset.univ i = scr m (fwd c r) i := by
  obtain ⟨y, rfl⟩ := View.exists_emb_of_mem_set (slotM r).view (by rw [slotM_set]; exact hi)
  rw [View.write_emb_of_mem _ _ (Finset.mem_univ y), View.read_apply]
  show _root_.cast _ (_root_.cast _ (scr m c ((slotRect 0).emb (Shape.reshapeEquiv _ y)))) = scr m (fwd c r) ((slotRect r).emb (Shape.reshapeEquiv _ y))
  rw [scr_emb, scr_emb, bwd_zero, bwd_fwd, cast_cast, cast_eq]

end Cert.KernelIdeal.Sum4

end
-- ==== Proof.Proto.lean ====
import proofs.«901091_g7700000000001092_dist_sum_ax0_shard0_i_m512_n256_v7x_i4_bf16_1_alg».proof.Proof.Coll
import proofs.«901091_g7700000000001092_dist_sum_ax0_shard0_i_m512_n256_v7x_i4_bf16_1_alg».proof.Proof.Gen.KernelIdeal
import proofs.«901091_g7700000000001092_dist_sum_ax0_shard0_i_m512_n256_v7x_i4_bf16_1_alg».proof.Proof.Gen.KernelIdeal.Skeleton
import proofs.«901091_g7700000000001092_dist_sum_ax0_shard0_i_m512_n256_v7x_i4_bf16_1_alg».proof.Proof.Gen.KernelIdeal.Launch
import proofs.«901091_g7700000000001092_dist_sum_ax0_shard0_i_m512_n256_v7x_i4_bf16_1_alg».proof.Proof.Gen.KernelIdeal.Points
import proofs.«901091_g7700000000001092_dist_sum_ax0_shard0_i_m512_n256_v7x_i4_bf16_1_alg».proof.Proof.Slots
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Sum4

open Cert.KernelIdeal Cert.KernelIdeal.Gen Cert.Coll
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The protocol: cells, the one round of each, who pays what, and what each payment hands over

Every device signals the barrier semaphore of each of the three others, waits for its own three signals, then copies its row of
column sums into a row of each of the others' scratch buffers, waits for the three rows sent to it, adds the four rows, and
waits for its three copies to have been read. Per device there are seven cells: the barrier semaphore, three send semaphores
and three receive semaphores. A duty of the barrier cell of device `t` is named by the row `r` that `t` will write on the
device `r` places after it: that device pays it, handing over the row. -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st₀ : MemSt nD τ sig (Elt F) := ⟨m, fun _ => 0, ρ⟩

/-! ## Cells -/

abbrev barCell (c : Dev nD) : GSem nD τ sig := ((c : Thread nD τ), .reg barS)
abbrev sendCell (c : Dev nD) (k : Fin 4) : GSem nD τ sig := ((c : Thread nD τ), .dma (sendS k))
abbrev recvCell (c : Dev nD) (k : Fin 4) : GSem nD τ sig := ((c : Thread nD τ), .dma (recvS k))

abbrev N : ℕ := (slotM 0).view.dmaCredit
theorem N_pos : 0 < N := View.dmaCredit_pos _ (by decide)

/-- The share of its own row a device lends the copy into row `k`; the last eighth it keeps to read the row itself. -/
def shr : Fin 4 → PosShare TreeShare
  | 0 => fullShare.right.right.right
  | 1 => fullShare.left
  | 2 => fullShare.right.left
  | 3 => fullShare.right.right.left

/-- Row `k` of device `c`'s scratch buffer at share `q`, the buffer's contents `f`. -/
def slotPts (c : Dev nD) (k : Fin 4) (q : PosShare TreeShare) (f : S4x1x256.Idx → Elt F .f32) : sProp 𝕄 :=
  ((c : Thread nD τ).loc cc0_scratch0) ↦[slotSet k]{q} f

omit [FloatOps F] in
instance slotPts_storable (c : Dev nD) (k : Fin 4) (q) (f) : BI.Storable (upEmb : UEmb _ 𝕄) (slotPts (F := F) c k q f) := by unfold slotPts; infer_instance

/-! ## The schedule -/

/-- What the device `r` places after `t` hands `t` with its barrier signal: its row `r`, and that its receive cell for that row is at round 0. -/
def barPay (t : Dev nD) (r : Fin 4) : sProp 𝕄 := iprop((∃ f, slotPts (fwd t r) r fullShare f) ∗ reached ER (recvCell (fwd t r) r) 0)
/-- What lands with the copy into row `k` of device `c`: the row at its final contents. -/
def recvPay (c : Dev nD) (k : Fin 4) : sProp 𝕄 := slotPts c k fullShare (scr m c)
/-- What comes back when the copy into row `k` has read its source: the lent share of the device's own row. -/
def sendPay (c : Dev nD) (k : Fin 4) : sProp 𝕄 := slotPts c 0 (shr k) (scr m c)

/-- Which row's send (receive) cell a DMA semaphore is, if any. -/
def sendIx (s : SemLoc sig) : Option (Fin 4) := if s = .dma (sendS 1) then some 1 else if s = .dma (sendS 2) then some 2 else if s = .dma (sendS 3) then some 3 else none
def recvIx (s : SemLoc sig) : Option (Fin 4) := if s = .dma (recvS 1) then some 1 else if s = .dma (recvS 2) then some 2 else if s = .dma (recvS 3) then some 3 else none

/-- One round, round 0: a barrier cell has the three duties 1, 2, 3 of one unit each; a send or receive cell the duty 0 of the row's credit. -/
def ringRd : Rounds.Schedule (GSem nD τ sig) (Fin 4) 𝕄 where
  duties g r :=
    if r = 0 ∧ g.1.2 = .tc then
      (if g.2 = .reg barS then {1, 2, 3} else if (sendIx g.2).isSome ∨ (recvIx g.2).isSome then {0} else ∅)
    else ∅
  unitless _ := False
  amount g _ _ := if g.2 = .reg barS then 1 else N
  payload g _ d :=
    if g.2 = .reg barS then barPay g.1.1 d
    else match recvIx g.2 with
      | some k => recvPay m g.1.1 k
      | none => match sendIx g.2 with
        | some k => sendPay m g.1.1 k
        | none => iprop(emp)
  amount_pos g _ _ _ := by
    by_cases h : g.2 = .reg barS
    · rw [if_pos h]; exact Nat.one_pos
    · rw [if_neg h]; exact N_pos

instance ringRd_payload_storable (g : GSem nD τ sig) (r : ℕ) (d : Fin 4) :
    BI.Storable (upEmb : UEmb _ 𝕄) ((ringRd (F := F) m).payload g r d) := by
  show BI.Storable upEmb (if g.2 = .reg barS then barPay g.1.1 d
    else match recvIx g.2 with
      | some k => recvPay m g.1.1 k
      | none => match sendIx g.2 with
        | some k => sendPay m g.1.1 k
        | none => iprop(emp))
  unfold barPay recvPay sendPay
  (repeat' split) <;> infer_instance

section Sched
variable (c : Dev nD)

omit [FloatOps F] in
theorem send_ne_bar (k : Fin 4) : (SemLoc.dma (sendS k) : SemLoc sig) ≠ .reg barS := fun h => by cases h
omit [FloatOps F] in
theorem recv_ne_bar (k : Fin 4) : (SemLoc.dma (recvS k) : SemLoc sig) ≠ .reg barS := fun h => by cases h

omit [FloatOps F] in
theorem sendIx_send {k : Fin 4} (hk : k ≠ 0) : sendIx (.dma (sendS k)) = some k := by revert k; decide
omit [FloatOps F] in
theorem recvIx_recv {k : Fin 4} (hk : k ≠ 0) : recvIx (.dma (recvS k)) = some k := by revert k; decide
omit [FloatOps F] in
theorem recvIx_send (k : Fin 4) : recvIx (.dma (sendS k)) = none := by revert k; decide
omit [FloatOps F] in
theorem sendIx_bar : sendIx (.reg barS) = none := by decide
omit [FloatOps F] in
theorem recvIx_bar : recvIx (.reg barS) = none := by decide

theorem duties_bar : (ringRd (F := F) m).duties (barCell c) 0 = {1, 2, 3} := by
  dsimp only [ringRd]; rw [if_pos ⟨rfl, rfl⟩, if_pos rfl]
theorem duties_send {k : Fin 4} (hk : k ≠ 0) : (ringRd (F := F) m).duties (sendCell c k) 0 = {0} := by
  dsimp only [ringRd]; rw [if_pos ⟨rfl, rfl⟩, if_neg (send_ne_bar k), if_pos (Or.inl (by rw [sendIx_send hk]; rfl))]
theorem duties_recv {k : Fin 4} (hk : k ≠ 0) : (ringRd (F := F) m).duties (recvCell c k) 0 = {0} := by
  dsimp only [ringRd]; rw [if_pos ⟨rfl, rfl⟩, if_neg (recv_ne_bar k), if_pos (Or.inr (by rw [recvIx_recv hk]; rfl))]
theorem duties_later (g : GSem nD τ sig) : ∀ r, 1 ≤ r → (ringRd (F := F) m).duties g r = ∅ :=
  fun r hr => by dsimp only [ringRd]; rw [if_neg fun h => by omega]

theorem amount_bar (d : Fin 4) : (ringRd (F := F) m).amount (barCell c) 0 d = 1 := by dsimp only [ringRd]; exact if_pos rfl
theorem amount_send (k d : Fin 4) : (ringRd (F := F) m).amount (sendCell c k) 0 d = N := by dsimp only [ringRd]; exact if_neg (send_ne_bar k)
theorem amount_recv (k d : Fin 4) : (ringRd (F := F) m).amount (recvCell c k) 0 d = N := by dsimp only [ringRd]; exact if_neg (recv_ne_bar k)

theorem expect_bar : (ringRd (F := F) m).expect (barCell c) 0 = 3 := by
  unfold Schedule.expect Schedule.amountOf
  rw [duties_bar, Finset.sum_congr rfl fun d _ => amount_bar m c d, Finset.sum_const, smul_eq_mul]; rfl
theorem expect_send {k : Fin 4} (hk : k ≠ 0) : (ringRd (F := F) m).expect (sendCell c k) 0 = N := by
  unfold Schedule.expect Schedule.amountOf; rw [duties_send m c hk, Finset.sum_singleton, amount_send]
theorem expect_recv {k : Fin 4} (hk : k ≠ 0) : (ringRd (F := F) m).expect (recvCell c k) 0 = N := by
  unfold Schedule.expect Schedule.amountOf; rw [duties_recv m c hk, Finset.sum_singleton, amount_recv]

theorem payload_bar (d : Fin 4) : (ringRd (F := F) m).payload (barCell c) 0 d = barPay c d := by dsimp only [ringRd]; rw [if_pos rfl]
theorem payload_send {k : Fin 4} (hk : k ≠ 0) (d : Fin 4) : (ringRd (F := F) m).payload (sendCell c k) 0 d = sendPay m c k := by
  dsimp only [ringRd]; rw [if_neg (send_ne_bar k), recvIx_send, sendIx_send hk]
theorem payload_recv {k : Fin 4} (hk : k ≠ 0) (d : Fin 4) : (ringRd (F := F) m).payload (recvCell c k) 0 d = recvPay m c k := by
  dsimp only [ringRd]; rw [if_neg (recv_ne_bar k), recvIx_recv hk]

/-- The rest of the barrier cell's round, no duty taken: the three rows the device will write. -/
theorem rest_bar : bigSep ((ringRd (F := F) m).duties (barCell c) 0 \ ∅) (fun d => (ringRd (F := F) m).payload (barCell c) 0 d)
    = iprop(barPay c 1 ∗ barPay c 2 ∗ barPay c 3) := by
  rw [Finset.sdiff_empty, duties_bar, bigSep_eq_bigSepL_of_eq [1, 2, 3] (by decide) (by decide), bigSepL_cons_cons, bigSepL_cons_cons, bigSepL_singleton,
    payload_bar, payload_bar, payload_bar]
  rfl
theorem rest_send {k : Fin 4} (hk : k ≠ 0) : bigSep ((ringRd (F := F) m).duties (sendCell c k) 0 \ ∅) (fun d => (ringRd (F := F) m).payload (sendCell c k) 0 d) = sendPay m c k := by
  rw [Finset.sdiff_empty, duties_send m c hk, bigSep_singleton, payload_send m c hk]
theorem rest_recv {k : Fin 4} (hk : k ≠ 0) : bigSep ((ringRd (F := F) m).duties (recvCell c k) 0 \ ∅) (fun d => (ringRd (F := F) m).payload (recvCell c k) 0 d) = recvPay m c k := by
  rw [Finset.sdiff_empty, duties_recv m c hk, bigSep_singleton, payload_recv m c hk]

end Sched

/-! ## What each core owes at launch; the levels -/

/-- The unit device `c` owes the barrier cell of the device `k` places after it; the row's credit it owes that device's receive cell `k`. -/
def Bt (c : Dev nD) (k : Fin 4) : CellTallies nD τ sig Unit := tallyAt (barCell (fwd c k)) () 1
def Rt (c : Dev nD) (k : Fin 4) : CellTallies nD τ sig Unit := tallyAt (recvCell (fwd c k) k) () N
/-- Owed at the barrier wait: the three copies; at launch: those and the three signals — summed so that each step peels the last summand. -/
def O₃ (c : Dev nD) : CellTallies nD τ sig Unit := 0 + Rt c 3 + Rt c 2 + Rt c 1
def O₀ (c : Dev nD) : CellTallies nD τ sig Unit := O₃ c + Bt c 3 + Bt c 2 + Bt c 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if (recvIx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem mem_L_tc (c : Dev nD) (sm : SemLoc sig) (u : Unit) : u ∈ L ((c : Thread nD τ), sm) := by rw [L_tc]; exact Finset.mem_singleton_self _

theorem lv_bar (c : Dev nD) : lv (barCell c) () = 1 := if_pos rfl
theorem lv_recv (c : Dev nD) {k : Fin 4} (hk : k ≠ 0) : lv (recvCell c k) () = 2 := by
  dsimp only [lv]; rw [if_neg (recv_ne_bar k), if_pos (by rw [recvIx_recv hk]; rfl)]
theorem lv_low (c : Dev nD) (q : DmaSem sig) (hq : recvIx (.dma q) = none) : lv ((c : Thread nD τ), .dma q) () = 0 := by
  dsimp only [lv]; rw [if_neg (fun h => by cases h), if_neg (by rw [hq]; exact Bool.false_ne_true)]

theorem zero_pos_false {g : GSem nD τ sig} {u : Unit} (h : 0 < (0 : CellTallies nD τ sig Unit) g u) : False := by
  rw [Pi.zero_apply, Finsupp.zero_apply] at h; exact Nat.lt_irrefl 0 h

theorem O₃_pos {c : Dev nD} {g : GSem nD τ sig} {u : Unit} (h : 0 < O₃ c g u) : u ∈ L g ∧ lv g u = 2 := by
  unfold O₃ Rt at h
  rcases Pipeline.add_pos_cases h with h | h
  · rcases Pipeline.add_pos_cases h with h | h
    · rcases Pipeline.add_pos_cases h with h | h
      · exact (zero_pos_false h).elim
      · obtain ⟨rfl, rfl⟩ := Pipeline.tallyAt_pos h; exact ⟨mem_L_tc _ _ _, lv_recv _ (by decide)⟩
    · obtain ⟨rfl, rfl⟩ := Pipeline.tallyAt_pos h; exact ⟨mem_L_tc _ _ _, lv_recv _ (by decide)⟩
  · obtain ⟨rfl, rfl⟩ := Pipeline.tallyAt_pos h; exact ⟨mem_L_tc _ _ _, lv_recv _ (by decide)⟩

theorem O₀_pos {c : Dev nD} {g : GSem nD τ sig} {u : Unit} (h : 0 < O₀ c g u) : u ∈ L g ∧ 1 ≤ lv g u := by
  unfold O₀ Bt at h
  rcases Pipeline.add_pos_cases h with h | h
  · rcases Pipeline.add_pos_cases h with h | h
    · rcases Pipeline.add_pos_cases h with h | h
      · have := O₃_pos h; exact ⟨this.1, by rw [this.2]; decide⟩
      · obtain ⟨rfl, rfl⟩ := Pipeline.tallyAt_pos h; exact ⟨mem_L_tc _ _ _, by rw [lv_bar]⟩
    · obtain ⟨rfl, rfl⟩ := Pipeline.tallyAt_pos h; exact ⟨mem_L_tc _ _ _, by rw [lv_bar]⟩
  · obtain ⟨rfl, rfl⟩ := Pipeline.tallyAt_pos h; exact ⟨mem_L_tc _ _ _, by rw [lv_bar]⟩

omit [FloatOps F] in
/-- A wait on a level-0 cell (a staging or a send semaphore) is allowed whatever of the launch dues is still owed. -/
theorem mayWait_low (c : Dev nD) (q : DmaSem sig) (hq : recvIx (.dma q) = none) (O : CellTallies nD τ sig Unit) (hO : O = O₀ c ∨ O = 0) :
    (levAts L lv : sProp 𝕄) ⊢ MayWait (c : Thread nD τ) (.dma q) () O := by
  rcases hO with rfl | rfl
  · exact Pipeline.mayWait_of_levAts (mem_L_tc _ _ _) fun g u hg => ⟨(O₀_pos hg).1, by rw [lv_low c q hq]; exact (O₀_pos hg).2⟩
  · rw [MayWait_zero]; iintro -; iempintro

omit [FloatOps F] in
/-- At its barrier wait a device owes the three copies only: receive cells, above its barrier cell. -/
theorem mayWait_bar (c : Dev nD) : (levAts L lv : sProp 𝕄) ⊢ MayWait (c : Thread nD τ) (.reg barS) () (O₃ c) :=
  Pipeline.mayWait_of_levAts (mem_L_tc _ _ _) fun g u hg => ⟨(O₃_pos hg).1, by rw [lv_bar, (O₃_pos hg).2]; decide⟩

end Cert.KernelIdeal.Sum4

end
-- ==== Proof.Data.lean ====
import proofs.«901091_g7700000000001092_dist_sum_ax0_shard0_i_m512_n256_v7x_i4_bf16_1_alg».proof.Proof.Coll
import proofs.«901091_g7700000000001092_dist_sum_ax0_shard0_i_m512_n256_v7x_i4_bf16_1_alg».proof.Proof.Gen.KernelIdeal
import proofs.«901091_g7700000000001092_dist_sum_ax0_shard0_i_m512_n256_v7x_i4_bf16_1_alg».proof.Proof.Gen.KernelIdeal.Skeleton
import proofs.«901091_g7700000000001092_dist_sum_ax0_shard0_i_m512_n256_v7x_i4_bf16_1_alg».proof.Proof.Gen.KernelIdeal.Launch
import proofs.«901091_g7700000000001092_dist_sum_ax0_shard0_i_m512_n256_v7x_i4_bf16_1_alg».proof.Proof.Gen.KernelIdeal.Points
import proofs.«901091_g7700000000001092_dist_sum_ax0_shard0_i_m512_n256_v7x_i4_bf16_1_alg».proof.Proof.Proto
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Sum4

open Cert.KernelIdeal Cert.KernelIdeal.Gen Cert.Coll
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The proof data of the one kernel launch: the ghost state a device's body starts from, and what it leaves -/

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The cells, as the launch indexes them -/

/-- The kernel's own (scoped) semaphores: the four send and the four receive semaphores (those of row 0 are never used); -/
abbrev osem : Fin 8 → SemLoc sig := fun
  | 0 => .dma (sendS 0) | 1 => .dma (sendS 1) | 2 => .dma (sendS 2) | 3 => .dma (sendS 3)
  | 4 => .dma (recvS 0) | 5 => .dma (recvS 1) | 6 => .dma (recvS 2) | 7 => .dma (recvS 3)
/-- the seven cells of the protocol: barrier, send 1–3, receive 1–3. -/
abbrev csem : Fin 7 → SemLoc sig := fun
  | 0 => .reg barS | 1 => .dma (sendS 1) | 2 => .dma (sendS 2) | 3 => .dma (sendS 3)
  | 4 => .dma (recvS 1) | 5 => .dma (recvS 2) | 6 => .dma (recvS 3)
abbrev kcell (ck : Dev nD × Fin 7) : GSem nD τ sig := ((ck.1 : Thread nD τ), csem ck.2)

def sIx (k : Fin 4) : Fin 7 := ⟨k.val, by omega⟩
def rIx (k : Fin 4) : Fin 7 := ⟨3 + k.val, by omega⟩

omit [FloatOps F] in
theorem csem_sIx {k : Fin 4} (hk : k ≠ 0) : csem (sIx k) = .dma (sendS k) := by revert k; decide
omit [FloatOps F] in
theorem csem_rIx {k : Fin 4} (hk : k ≠ 0) : csem (rIx k) = .dma (recvS k) := by revert k; decide
omit [FloatOps F] in
theorem kcell_send (c : Dev nD) {k : Fin 4} (hk : k ≠ 0) : kcell (c, sIx k) = sendCell c k := by unfold kcell; rw [csem_sIx hk]
omit [FloatOps F] in
theorem kcell_recv (c : Dev nD) {k : Fin 4} (hk : k ≠ 0) : kcell (c, rIx k) = recvCell c k := by unfold kcell; rw [csem_rIx hk]

/-- Every cell's invariant, under the names `K` the launch allocated them at, and that every cell is at round 0: persistent, held by every device. -/
def records (K : Dev nD × Fin 7 → ℕ) : sProp 𝕄 :=
  iprop((bigSep Finset.univ fun ck : Dev nD × Fin 7 => cellInv ER (ringRd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) : records m K ⊢ cellInv ER (ringRd m) (K ck) (kcell ck) := by
  unfold records; iintro ⟨H, -⟩
  iapply (show (bigSep Finset.univ fun ck : Dev nD × Fin 7 => (cellInv ER (ringRd m) (K ck) (kcell ck) : sProp 𝕄)) ⊢ cellInv ER (ringRd m) (K ck) (kcell ck) from
    bigSep_elim (Finset.mem_univ ck))
  iexact H
theorem reached_at (K : Dev nD × Fin 7 → ℕ) (ck : Dev nD × Fin 7) : records m K ⊢ reached ER (kcell ck) 0 := by
  unfold records; iintro ⟨-, H⟩
  iapply (show (bigSep Finset.univ fun ck : Dev nD × Fin 7 => (reached ER (kcell ck) 0 : sProp 𝕄)) ⊢ reached ER (kcell ck) 0 from
    bigSep_elim (Finset.mem_univ ck))
  iexact H

theorem inv_bar (K : Dev nD × Fin 7 → ℕ) (c : Dev nD) : records m K ⊢ cellInv ER (ringRd m) (K (c, 0)) (barCell c) := inv_at m K (c, 0)
theorem inv_send (K : Dev nD × Fin 7 → ℕ) (c : Dev nD) {k : Fin 4} (hk : k ≠ 0) : records m K ⊢ cellInv ER (ringRd m) (K (c, sIx k)) (sendCell c k) := by
  have h := inv_at m K (c, sIx k); rwa [kcell_send c hk] at h
theorem inv_recv (K : Dev nD × Fin 7 → ℕ) (c : Dev nD) {k : Fin 4} (hk : k ≠ 0) : records m K ⊢ cellInv ER (ringRd m) (K (c, rIx k)) (recvCell c k) := by
  have h := inv_at m K (c, rIx k); rwa [kcell_recv c hk] at h
theorem reached_bar (K : Dev nD × Fin 7 → ℕ) (c : Dev nD) : records m K ⊢ reached ER (barCell c) 0 := reached_at m K (c, 0)
theorem reached_send (K : Dev nD × Fin 7 → ℕ) (c : Dev nD) {k : Fin 4} (hk : k ≠ 0) : records m K ⊢ reached ER (sendCell c k) 0 := by
  have h := reached_at m K (c, sIx k); rwa [kcell_send c hk] at h
theorem reached_recv (K : Dev nD × Fin 7 → ℕ) (c : Dev nD) {k : Fin 4} (hk : k ≠ 0) : records m K ⊢ reached ER (recvCell c k) 0 := by
  have h := reached_at m K (c, rIx k); rwa [kcell_recv c hk] at h

/-! ## What a device's body starts from and ends with -/

/-- The device's positions at round 0 of its seven cells. -/
def positions (c : Dev nD) : sProp 𝕄 :=
  iprop(atPos ER (barCell c) 0 ∅ 0
    ∗ atPos ER (sendCell c 1) 0 ∅ 0 ∗ atPos ER (sendCell c 2) 0 ∅ 0 ∗ atPos ER (sendCell c 3) 0 ∅ 0
    ∗ atPos ER (recvCell c 1) 0 ∅ 0 ∗ atPos ER (recvCell c 2) 0 ∅ 0 ∗ atPos ER (recvCell c 3) 0 ∅ 0)

/-- The tokens of the nine duties the device pays: on the barrier cell of the device `k` places after it the duty named by the
    row that device will write here (3, 2, 1 for k = 1, 2, 3); on that device's receive cell `k`; on its own send cell `k`. -/
def payToks (c : Dev nD) : sProp 𝕄 :=
  iprop(dutyTok ER (barCell (fwd c 1)) 0 3 ∗ dutyTok ER (barCell (fwd c 2)) 0 2 ∗ dutyTok ER (barCell (fwd c 3)) 0 1
    ∗ dutyTok ER (recvCell (fwd c 1) 1) 0 0 ∗ dutyTok ER (recvCell (fwd c 2) 2) 0 0 ∗ dutyTok ER (recvCell (fwd c 3) 3) 0 0
    ∗ dutyTok ER (sendCell c 1) 0 0 ∗ dutyTok ER (sendCell c 2) 0 0 ∗ dutyTok ER (sendCell c 3) 0 0)

def ghost (K : Dev nD × Fin 7 → ℕ) (c : Dev nD) : sProp 𝕄 := iprop(records m K ∗ positions c ∗ payToks c)

/-- The credit the launch deals the device: its barrier's three units, its three receive cells' credit. -/
def creds (c : Dev nD) : sProp 𝕄 :=
  iprop(cred (tallyAt (barCell c) () 3) ∗ cred (tallyAt (recvCell c 1) () N) ∗ cred (tallyAt (recvCell c 2) () N) ∗ cred (tallyAt (recvCell c 3) () N))

/-- What device `c`'s body starts from: the ghost state at some names, its credit, the level facts, and the two semaphores it never uses. -/
def start (c : Dev nD) : sProp 𝕄 :=
  iprop((∃ K, ghost m K c) ∗ creds c ∗ levAts L lv ∗ semVal (sendCell c 0) 0 ∗ semVal (recvCell c 0) 0)

def Φ₀ (c : Dev nD) : sProp 𝕄 := iprop(start m c ∗ ∃ f, (((c : Thread nD τ).loc cc0_scratch0) ↦{fullShare} f))
/-- After the body: the scratch buffer whole at its final contents, the eight own semaphores at zero. -/
def Φ₁ (c : Dev nD) : sProp 𝕄 :=
  iprop((((c : Thread nD τ).loc cc0_scratch0) ↦{fullShare} (scr m c : Buf (Elt F) ((c : Thread nD τ).loc cc0_scratch0)))
    ∗ semVal (sendCell c 0) 0 ∗ semVal (sendCell c 1) 0 ∗ semVal (sendCell c 2) 0 ∗ semVal (sendCell c 3) 0
    ∗ semVal (recvCell c 0) 0 ∗ semVal (recvCell c 1) 0 ∗ semVal (recvCell c 2) 0 ∗ semVal (recvCell c 3) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-- The arrays after the run, as the proof data names them. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

end Cert.KernelIdeal.Sum4

end
-- ==== Proof.Body.lean ====
import proofs.«901091_g7700000000001092_dist_sum_ax0_shard0_i_m512_n256_v7x_i4_bf16_1_alg».proof.Proof.Coll
import proofs.«901091_g7700000000001092_dist_sum_ax0_shard0_i_m512_n256_v7x_i4_bf16_1_alg».proof.Proof.Gen.KernelIdeal
import proofs.«901091_g7700000000001092_dist_sum_ax0_shard0_i_m512_n256_v7x_i4_bf16_1_alg».proof.Proof.Gen.KernelIdeal.Skeleton
import proofs.«901091_g7700000000001092_dist_sum_ax0_shard0_i_m512_n256_v7x_i4_bf16_1_alg».proof.Proof.Gen.KernelIdeal.Launch
import proofs.«901091_g7700000000001092_dist_sum_ax0_shard0_i_m512_n256_v7x_i4_bf16_1_alg».proof.Proof.Gen.KernelIdeal.Points
import proofs.«901091_g7700000000001092_dist_sum_ax0_shard0_i_m512_n256_v7x_i4_bf16_1_alg».proof.Proof.Data
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Sum4

open Cert.KernelIdeal Cert.KernelIdeal.Gen Cert.Coll
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # One device's body -/

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem fwd_fwd_13 (c : Dev nD) : fwd (fwd c 1) 3 = c := by revert c; decide
omit [FloatOps F] in
theorem fwd_fwd_22 (c : Dev nD) : fwd (fwd c 2) 2 = c := by revert c; decide
omit [FloatOps F] in
theorem fwd_fwd_31 (c : Dev nD) : fwd (fwd c 3) 1 = c := by revert c; decide

omit [FloatOps F] in
/-- The scratch buffer whole is its four rows. -/
theorem scr_rows (c : Dev nD) (q : PosShare TreeShare) (f : S4x1x256.Idx → Elt F .f32) :
    ((((c : Thread nD τ).loc cc0_scratch0) ↦{q} (f : Buf (Elt F) ((c : Thread nD τ).loc cc0_scratch0))) : sProp 𝕄)
      = iprop(slotPts c 0 q f ∗ slotPts c 1 q f ∗ slotPts c 2 q f ∗ slotPts c 3 q f) := by
  unfold slotPts
  rw [show ((((c : Thread nD τ).loc cc0_scratch0) ↦{q} (f : Buf (Elt F) ((c : Thread nD τ).loc cc0_scratch0))) : sProp 𝕄)
      = (((c : Thread nD τ).loc cc0_scratch0) ↦[(Finset.univ : Finset (Fin 4)).biUnion slotSet]{q} f) from by rw [slotSet_cover],
    pointsTo_biUnion _ _ (fun t _ t' _ h => slotSet_disjoint h), bigSep_univ_eq_bigSepL [0, 1, 2, 3] (by decide) (by decide)]
  rfl

omit [FloatOps F] in
/-- Row 0 at the full share is the three lent shares and the kept one. -/
theorem slot0_split (c : Dev nD) (f : S4x1x256.Idx → Elt F .f32) :
    (slotPts c 0 fullShare f : sProp 𝕄) ⊢ iprop(slotPts c 0 (shr 1) f ∗ slotPts c 0 (shr 2) f ∗ slotPts c 0 (shr 3) f ∗ slotPts c 0 (shr 0) f) := by
  unfold slotPts shr
  have e1 : (((c : Thread nD τ).loc cc0_scratch0) ↦[slotSet 0]{fullShare} f : sProp 𝕄) ⊢ iprop((((c : Thread nD τ).loc cc0_scratch0) ↦[slotSet 0]{fullShare.left} f) ∗ (((c : Thread nD τ).loc cc0_scratch0) ↦[slotSet 0]{fullShare.right} f)) := (pointsTo_share (PosShare.mem_left_op_right fullShare)).1
  have e2 : (((c : Thread nD τ).loc cc0_scratch0) ↦[slotSet 0]{fullShare.right} f : sProp 𝕄) ⊢ iprop((((c : Thread nD τ).loc cc0_scratch0) ↦[slotSet 0]{fullShare.right.left} f) ∗ (((c : Thread nD τ).loc cc0_scratch0) ↦[slotSet 0]{fullShare.right.right} f)) := (pointsTo_share (PosShare.mem_left_op_right fullShare.right)).1
  have e3 : (((c : Thread nD τ).loc cc0_scratch0) ↦[slotSet 0]{fullShare.right.right} f : sProp 𝕄) ⊢ iprop((((c : Thread nD τ).loc cc0_scratch0) ↦[slotSet 0]{fullShare.right.right.left} f) ∗ (((c : Thread nD τ).loc cc0_scratch0) ↦[slotSet 0]{fullShare.right.right.right} f)) := (pointsTo_share (PosShare.mem_left_op_right fullShare.right.right)).1
  iintro H
  ihave H := e1 $$ H
  icases H with ⟨H1, H⟩
  ihave H := e2 $$ H
  icases H with ⟨H2, H⟩
  ihave H := e3 $$ H
  icases H with ⟨H3, H0⟩
  isplitl [H1]; · iexact H1
  isplitl [H2]; · iexact H2
  isplitl [H3]; · iexact H3
  iexact H0

omit [FloatOps F] in
theorem slot0_join (c : Dev nD) (f : S4x1x256.Idx → Elt F .f32) :
    iprop(slotPts c 0 (shr 1) f ∗ slotPts c 0 (shr 2) f ∗ slotPts c 0 (shr 3) f ∗ slotPts c 0 (shr 0) f) ⊢ (slotPts c 0 fullShare f : sProp 𝕄) := by
  unfold slotPts shr
  have e1 : iprop((((c : Thread nD τ).loc cc0_scratch0) ↦[slotSet 0]{fullShare.left} f) ∗ (((c : Thread nD τ).loc cc0_scratch0) ↦[slotSet 0]{fullShare.right} f)) ⊢ (((c : Thread nD τ).loc cc0_scratch0) ↦[slotSet 0]{fullShare} f : sProp 𝕄) := (pointsTo_share (PosShare.mem_left_op_right fullShare)).2
  have e2 : iprop((((c : Thread nD τ).loc cc0_scratch0) ↦[slotSet 0]{fullShare.right.left} f) ∗ (((c : Thread nD τ).loc cc0_scratch0) ↦[slotSet 0]{fullShare.right.right} f)) ⊢ (((c : Thread nD τ).loc cc0_scratch0) ↦[slotSet 0]{fullShare.right} f : sProp 𝕄) := (pointsTo_share (PosShare.mem_left_op_right fullShare.right)).2
  have e3 : iprop((((c : Thread nD τ).loc cc0_scratch0) ↦[slotSet 0]{fullShare.right.right.left} f) ∗ (((c : Thread nD τ).loc cc0_scratch0) ↦[slotSet 0]{fullShare.right.right.right} f)) ⊢ (((c : Thread nD τ).loc cc0_scratch0) ↦[slotSet 0]{fullShare.right.right} f : sProp 𝕄) := (pointsTo_share (PosShare.mem_left_op_right fullShare.right.right)).2
  iintro ⟨H1, H2, H3, H0⟩
  ihave H := e3 $$ [H3 H0]
  · isplitl [H3] <;> iassumption
  ihave H := e2 $$ [H2 H]
  · isplitl [H2] <;> iassumption
  iapply e1
  isplitl [H1] <;> iassumption

section Body

variable (K : Dev nD × Fin 7 → ℕ)

abbrev rx : Rect S512x256 := Rect.unit (s := S512x256) ![0, 0] S512x256.size inb_S512x256_S512x256_0_0
abbrev ro : Rect S1x256 := Rect.unit (s := S1x256) ![0, 0] S1x256.size inb_S1x256_S1x256_0_0

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x256 .f32).view.readAt (Elt F) rx.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1x256 .f32).access ro : View sig .tc _ _ _).write (Elt F) f w Finset.univ = w :=
  Memref.write_access_unit_zero_univ (Elt F) cc0_stg1_0 hz2 _ f w

set_option maxHeartbeats 1000000 in
/-- The copy of the device's own row into row `r` of the device `r` places after it, addressed to `n` (substituted, not rewritten):
    it pays the one duty of the sender's send cell `r` (the lent share of the source comes back with it) and the one duty of the
    receiver's receive cell `r` (the row at its final contents lands with it). -/
theorem wp_send_row (c n : Dev nD) (r : Fin 4) (hr : r ≠ 0) (hn : n = fwd c r)
    {hsc : (slotM r : Memref sig (Dev.tc n : Thread nD τ).2.kind .vmem S1x256 .f32).view.ref.isScScratch = false}
    {hsrc : (slotM 0 : Memref sig .tc .vmem S1x256 .f32).view.WordExact} {hdst : (slotM r : Memref sig .tc .vmem S1x256 .f32).view.WordExact}
    {hsem : DmaTarget.Typed .vmem (.dma (recvS r)) (.remote (Dev.tc n : Thread nD τ) (slotM r : Memref sig .tc .vmem S1x256 .f32) (.dma (sendS r)) hsc)}
    {α : Type} {Q : α → sProp 𝕄} {k : PUnit → Prog (TpuEff nD τ sig (Elt F) Λ₀ .tc) α}
    (fn : S4x1x256.Idx → Elt F .f32) (O : CellTallies nD τ sig Unit) (W : Waits sig Unit) :
    iprop(cellInv ER (ringRd m) (K (c, sIx r)) (sendCell c r) ∗ cellInv ER (ringRd m) (K (fwd c r, rIx r)) (recvCell (fwd c r) r)
        ∗ slotPts c 0 (shr r) (scr m c) ∗ slotPts (fwd c r) r fullShare fn
        ∗ owes (c : Thread nD τ) (O + Rt c r) W
        ∗ dutyTok ER (sendCell c r) 0 0 ∗ reached ER (sendCell c r) 0
        ∗ dutyTok ER (recvCell (fwd c r) r) 0 0 ∗ reached ER (recvCell (fwd c r) r) 0)
      ⊢ iprop(((cred (tallyAt (sendCell c r) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM r) (.dma (sendS r)) hsc) (.dma (recvS r)) hsrc hdst hsem) k) Q) := by
  subst hn
  unfold slotPts
  rw [← slotM_set 0, ← slotM_set r]
  exact Rounds.wp_send_pointsTo 𝒱₀ ER (ringRd m) (c : Thread nD τ) none (c' := (fwd c r : Thread nD τ)) (src := slotM 0) (dst := slotM r)
    (sS := .dma (sendS r)) (sem := .dma (recvS r)) (q := shr r) (fs := scr m c) (κ₁ := K (c, sIx r)) (κ₂ := K (fwd c r, rIx r))
    (r₁ := 0) (r₂ := 0) (d₁ := 0) (d₂ := 0) (fd := fn)
    (by rw [duties_send m c hr]; exact Finset.mem_singleton_self _) (by rw [duties_recv m (fwd c r) hr]; exact Finset.mem_singleton_self _)
    () () N rfl (amount_send m c r 0) (amount_recv m (fwd c r) r 0) O rfl (W := W)
    (by rw [payload_send m c hr]; unfold sendPay slotPts; rw [slotM_set])
    (by rw [payload_recv m (fwd c r) hr]; unfold recvPay slotPts; rw [slotM_set]
        exact Entails.of_eq (pointsTo_congr fun i hi => copy_val m c r fn i hi))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ creds c ∗ levAts L lv ∗ semVal (sendCell c 0) 0 ∗ semVal (recvCell c 0) 0
      ∗ ∃ f, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (xstg m c) ∗ stg c cc0_stg1_0 (outAt m c))

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost positions payToks creds
  iintro ⟨⟨⟨⟨#Hrec, ⟨HatB, HatS1, HatS2, HatS3, HatV1, HatV2, HatV3⟩, ⟨HtB1, HtB2, HtB3, HtV1, HtV2, HtV3, HtS1, HtS2, HtS3⟩⟩, ⟨HcB, HcV1, HcV2, HcV3⟩, #Hlev, Hz0, Hz0', ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the scratch buffer by rows
  ihave Hrows := (Entails.of_eq (scr_rows c fullShare f0)) $$ Hscr
  icases Hrows with ⟨Hs0, Hs1, Hs2, Hs3⟩
  -- the FIRST signal, to the device one place after: row 3 here is the row it will write
  iapply (Rounds.wp_signal 𝒱₀ ER (ringRd m) (c : Thread nD τ) none (dst := (fwd c 1 : Thread nD τ)) (κ := K (fwd c 1, 0))
      (d := 3) (by rw [duties_bar]; decide) ((amount_bar m (fwd c 1) 3).trans (by decide)) () (O₃ c + Bt c 3 + Bt c 2) rfl)
    $$ [HO HtB1 Hs3]
  · isplitr; · iapply (inv_bar m K (fwd c 1)); iexact Hrec
    isplitl [HO]; · iexact HO
    isplitl [HtB1]; · iexact HtB1
    isplitl [Hs3]
    · rw [payload_bar]; unfold barPay; rw [fwd_fwd_13]
      isplitl [Hs3]; · iexists f0; iexact Hs3
      iapply (reached_recv m K c (k := 3) (by decide)); iexact Hrec
    · iapply (reached_bar m K (fwd c 1)); iexact Hrec
  iintro HO
  -- the SECOND signal, to the device two places after: row 2
  iapply (Rounds.wp_signal 𝒱₀ ER (ringRd m) (c : Thread nD τ) none (dst := (fwd c 2 : Thread nD τ)) (κ := K (fwd c 2, 0))
      (d := 2) (by rw [duties_bar]; decide) ((amount_bar m (fwd c 2) 2).trans (by decide)) () (O₃ c + Bt c 3) rfl)
    $$ [HO HtB2 Hs2]
  · isplitr; · iapply (inv_bar m K (fwd c 2)); iexact Hrec
    isplitl [HO]; · iexact HO
    isplitl [HtB2]; · iexact HtB2
    isplitl [Hs2]
    · rw [payload_bar]; unfold barPay; rw [fwd_fwd_22]
      isplitl [Hs2]; · iexists f0; iexact Hs2
      iapply (reached_recv m K c (k := 2) (by decide)); iexact Hrec
    · iapply (reached_bar m K (fwd c 2)); iexact Hrec
  iintro HO
  -- the THIRD, to the device three places after: row 1
  iapply (Rounds.wp_signal 𝒱₀ ER (ringRd m) (c : Thread nD τ) none (dst := (fwd c 3 : Thread nD τ)) (κ := K (fwd c 3, 0))
      (d := 1) (by rw [duties_bar]; decide) ((amount_bar m (fwd c 3) 1).trans (by decide)) () (O₃ c) rfl)
    $$ [HO HtB3 Hs1]
  · isplitr; · iapply (inv_bar m K (fwd c 3)); iexact Hrec
    isplitl [HO]; · iexact HO
    isplitl [HtB3]; · iexact HtB3
    isplitl [Hs1]
    · rw [payload_bar]; unfold barPay; rw [fwd_fwd_31]
      isplitl [Hs1]; · iexists f0; iexact Hs1
      iapply (reached_recv m K c (k := 1) (by decide)); iexact Hrec
    · iapply (reached_bar m K (fwd c 3)); iexact Hrec
  iintro HO
  -- the device's block; its column sums stored into row 0
  iapply (wp_load 𝒱₀ (c : Thread nD τ) none Set.univ (m := xM) (Finset.subset_univ _)) $$ Hx; iintro Hx
  rw [read_x]
  unfold slotPts
  iapply (wp_load 𝒱₀ (c : Thread nD τ) none Set.univ (m := scrM) (r := (slotRect 0).toLoadRect) (load_sub 0)) $$ Hs0; iintro Hs0
  iapply (wp_store 𝒱₀ (c : Thread nD τ) none Set.univ (m := scrM) (r := slotRect 0) (Mk := Finset.univ) (store_sub 0)) $$ Hs0; iintro Hs0
  ihave Hs0 := (Entails.of_eq (pointsTo_congr fun i hi => write_slot0 m c f0 i hi)) $$ Hs0
  ihave Hs0 := (Entails.of_eq (show (View.loc (c : Thread nD τ) ((scrM : Memref sig .tc .vmem S4x1x256 .f32).access (slotRect 0)) ↦[slotSet 0]{fullShare} scr m c : sProp 𝕄)
      = slotPts c 0 fullShare (scr m c) from rfl)) $$ Hs0
  -- the WAIT for 3 on its own barrier, owing the three copies: the three rows it will write come with it
  iapply (Rounds.wp_wait_rest_token 𝒱₀ ER (ringRd m) (c : Thread nD τ) none (κ := K (c, 0))
      (wpE_semWait_eq 𝒱₀ (c : Thread nD τ) none Set.univ) (Set.mem_univ _) () (O := O₃ c) (W := W) (R := 0) (m := 0) (T := ∅)
      (by rw [expect_bar]; decide)) $$ [HcB HO HatB]
  · isplitr; · iapply (inv_bar m K c); iexact Hrec
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨⟨%fn1, Hn1⟩, #Hr1⟩, ⟨⟨%fn2, Hn2⟩, #Hr2⟩, ⟨%fn3, Hn3⟩, #Hr3⟩
  -- its own row lent in three shares, one kept
  ihave Hsh := (slot0_split c (scr m c)) $$ Hs0
  icases Hsh with ⟨Hq1, Hq2, Hq3, Hq0⟩
  -- the three COPIES
  unfold O₃
  iapply (wp_send_row m K c _ 1 (by decide) (dev4_eq c) fn1 (0 + Rt c 3 + Rt c 2) _) $$ [Hq1 Hn1 HO HtS1 HtV1]
  · isplitr; · iapply (inv_send m K c (k := 1) (by decide)); iexact Hrec
    isplitr; · iapply (inv_recv m K (fwd c 1) (k := 1) (by decide)); iexact Hrec
    isplitl [Hq1]; · iexact Hq1
    isplitl [Hn1]; · iexact Hn1
    isplitl [HO]; · iexact HO
    isplitl [HtS1]; · iexact HtS1
    isplitr; · iapply (reached_send m K c (k := 1) (by decide)); iexact Hrec
    isplitl [HtV1]; · iexact HtV1
    iexact Hr1
  iintro ⟨HcS1, HO⟩
  iapply (wp_send_row m K c _ 2 (by decide) (dev5_eq c) fn2 (0 + Rt c 3) _) $$ [Hq2 Hn2 HO HtS2 HtV2]
  · isplitr; · iapply (inv_send m K c (k := 2) (by decide)); iexact Hrec
    isplitr; · iapply (inv_recv m K (fwd c 2) (k := 2) (by decide)); iexact Hrec
    isplitl [Hq2]; · iexact Hq2
    isplitl [Hn2]; · iexact Hn2
    isplitl [HO]; · iexact HO
    isplitl [HtS2]; · iexact HtS2
    isplitr; · iapply (reached_send m K c (k := 2) (by decide)); iexact Hrec
    isplitl [HtV2]; · iexact HtV2
    iexact Hr2
  iintro ⟨HcS2, HO⟩
  iapply (wp_send_row m K c _ 3 (by decide) (dev6_eq c) fn3 (0) _) $$ [Hq3 Hn3 HO HtS3 HtV3]
  · isplitr; · iapply (inv_send m K c (k := 3) (by decide)); iexact Hrec
    isplitr; · iapply (inv_recv m K (fwd c 3) (k := 3) (by decide)); iexact Hrec
    isplitl [Hq3]; · iexact Hq3
    isplitl [Hn3]; · iexact Hn3
    isplitl [HO]; · iexact HO
    isplitl [HtS3]; · iexact HtS3
    isplitr; · iapply (reached_send m K c (k := 3) (by decide)); iexact Hrec
    isplitl [HtV3]; · iexact HtV3
    iexact Hr3
  iintro ⟨HcS3, HO⟩
  -- the three rows sent here
  iapply (Rounds.wp_wait_rest_token 𝒱₀ ER (ringRd m) (c : Thread nD τ) none (κ := K (c, rIx 1)) (sm := .dma (recvS 1))
      (wpE_waitDma2_eq 𝒱₀ (c : Thread nD τ) none Set.univ) (Set.mem_univ _) () (O := 0) (W := _) (R := 0) (m := 0) (T := ∅)
      (by rw [Nat.zero_add, expect_recv m c (k := 1) (by decide)] <;> rfl)) $$ [HcV1 HO HatV1]
  · isplitr; · iapply (inv_recv m K c (k := 1) (by decide)); iexact Hrec
    isplitl [HcV1]; · iexact HcV1
    isplitl [HO]; · iexact HO
    isplitr; · rw [MayWait_zero]; iempintro
    iexact HatV1
  iintro ⟨HO, HatV1, -, Hpay⟩
  ihave Hv1 := (Entails.of_eq (rest_recv m c (k := 1) (by decide))) $$ Hpay
  iapply (Rounds.wp_wait_rest_token 𝒱₀ ER (ringRd m) (c : Thread nD τ) none (κ := K (c, rIx 2)) (sm := .dma (recvS 2))
      (wpE_waitDma2_eq 𝒱₀ (c : Thread nD τ) none Set.univ) (Set.mem_univ _) () (O := 0) (W := _) (R := 0) (m := 0) (T := ∅)
      (by rw [Nat.zero_add, expect_recv m c (k := 2) (by decide)] <;> rfl)) $$ [HcV2 HO HatV2]
  · isplitr; · iapply (inv_recv m K c (k := 2) (by decide)); iexact Hrec
    isplitl [HcV2]; · iexact HcV2
    isplitl [HO]; · iexact HO
    isplitr; · rw [MayWait_zero]; iempintro
    iexact HatV2
  iintro ⟨HO, HatV2, -, Hpay⟩
  ihave Hv2 := (Entails.of_eq (rest_recv m c (k := 2) (by decide))) $$ Hpay
  iapply (Rounds.wp_wait_rest_token 𝒱₀ ER (ringRd m) (c : Thread nD τ) none (κ := K (c, rIx 3)) (sm := .dma (recvS 3))
      (wpE_waitDma2_eq 𝒱₀ (c : Thread nD τ) none Set.univ) (Set.mem_univ _) () (O := 0) (W := _) (R := 0) (m := 0) (T := ∅)
      (by rw [Nat.zero_add, expect_recv m c (k := 3) (by decide)] <;> rfl)) $$ [HcV3 HO HatV3]
  · isplitr; · iapply (inv_recv m K c (k := 3) (by decide)); iexact Hrec
    isplitl [HcV3]; · iexact HcV3
    isplitl [HO]; · iexact HO
    isplitr; · rw [MayWait_zero]; iempintro
    iexact HatV3
  iintro ⟨HO, HatV3, -, Hpay⟩
  ihave Hv3 := (Entails.of_eq (rest_recv m c (k := 3) (by decide))) $$ Hpay
  -- the four rows read and added, the sum stored
  unfold recvPay slotPts
  iapply (wp_load 𝒱₀ (c : Thread nD τ) none Set.univ (m := scrM) (r := (slotRect 0).toLoadRect) (load_sub 0)) $$ Hq0; iintro Hq0
  rw [read_slot]
  ihave Hq0 := (Entails.of_eq (show (View.loc (c : Thread nD τ) (scrM : Memref sig .tc .vmem S4x1x256 .f32).view ↦[slotSet 0]{shr 0} scr m c : sProp 𝕄)
      = slotPts c 0 (shr 0) (scr m c) from rfl)) $$ Hq0
  iapply (wp_load 𝒱₀ (c : Thread nD τ) none Set.univ (m := scrM) (r := (slotRect 1).toLoadRect) (load_sub 1)) $$ Hv1; iintro Hv1
  rw [read_slot]
  ihave Hv1 := (Entails.of_eq (show (View.loc (c : Thread nD τ) (scrM : Memref sig .tc .vmem S4x1x256 .f32).view ↦[slotSet 1]{fullShare} scr m c : sProp 𝕄)
      = slotPts c 1 (fullShare) (scr m c) from rfl)) $$ Hv1
  iapply (wp_load 𝒱₀ (c : Thread nD τ) none Set.univ (m := scrM) (r := (slotRect 2).toLoadRect) (load_sub 2)) $$ Hv2; iintro Hv2
  rw [read_slot]
  ihave Hv2 := (Entails.of_eq (show (View.loc (c : Thread nD τ) (scrM : Memref sig .tc .vmem S4x1x256 .f32).view ↦[slotSet 2]{fullShare} scr m c : sProp 𝕄)
      = slotPts c 2 (fullShare) (scr m c) from rfl)) $$ Hv2
  iapply (wp_load 𝒱₀ (c : Thread nD τ) none Set.univ (m := scrM) (r := (slotRect 3).toLoadRect) (load_sub 3)) $$ Hv3; iintro Hv3
  rw [read_slot]
  ihave Hv3 := (Entails.of_eq (show (View.loc (c : Thread nD τ) (scrM : Memref sig .tc .vmem S4x1x256 .f32).view ↦[slotSet 3]{fullShare} scr m c : sProp 𝕄)
      = slotPts c 3 (fullShare) (scr m c) from rfl)) $$ Hv3
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out]
  -- the three copies have read their source: the lent shares back
  iapply (Rounds.wp_wait_rest_token 𝒱₀ ER (ringRd m) (c : Thread nD τ) none (κ := K (c, sIx 1)) (sm := .dma (sendS 1))
      (wpE_waitDma2_eq 𝒱₀ (c : Thread nD τ) none Set.univ) (Set.mem_univ _) () (O := 0) (W := _) (R := 0) (m := 0) (T := ∅)
      (by rw [Nat.zero_add, expect_send m c (k := 1) (by decide)] <;> rfl)) $$ [HcS1 HO HatS1]
  · isplitr; · iapply (inv_send m K c (k := 1) (by decide)); iexact Hrec
    isplitl [HcS1]; · iexact HcS1
    isplitl [HO]; · iexact HO
    isplitr; · rw [MayWait_zero]; iempintro
    iexact HatS1
  iintro ⟨HO, HatS1, -, Hpay⟩
  ihave Hq1 := (Entails.of_eq (rest_send m c (k := 1) (by decide))) $$ Hpay
  iapply (Rounds.wp_wait_rest_token 𝒱₀ ER (ringRd m) (c : Thread nD τ) none (κ := K (c, sIx 2)) (sm := .dma (sendS 2))
      (wpE_waitDma2_eq 𝒱₀ (c : Thread nD τ) none Set.univ) (Set.mem_univ _) () (O := 0) (W := _) (R := 0) (m := 0) (T := ∅)
      (by rw [Nat.zero_add, expect_send m c (k := 2) (by decide)] <;> rfl)) $$ [HcS2 HO HatS2]
  · isplitr; · iapply (inv_send m K c (k := 2) (by decide)); iexact Hrec
    isplitl [HcS2]; · iexact HcS2
    isplitl [HO]; · iexact HO
    isplitr; · rw [MayWait_zero]; iempintro
    iexact HatS2
  iintro ⟨HO, HatS2, -, Hpay⟩
  ihave Hq2 := (Entails.of_eq (rest_send m c (k := 2) (by decide))) $$ Hpay
  iapply (Rounds.wp_wait_rest_token 𝒱₀ ER (ringRd m) (c : Thread nD τ) none (κ := K (c, sIx 3)) (sm := .dma (sendS 3))
      (wpE_waitDma2_eq 𝒱₀ (c : Thread nD τ) none Set.univ) (Set.mem_univ _) () (O := 0) (W := _) (R := 0) (m := 0) (T := ∅)
      (by rw [Nat.zero_add, expect_send m c (k := 3) (by decide)] <;> rfl)) $$ [HcS3 HO HatS3]
  · isplitr; · iapply (inv_send m K c (k := 3) (by decide)); iexact Hrec
    isplitl [HcS3]; · iexact HcS3
    isplitl [HO]; · iexact HO
    isplitr; · rw [MayWait_zero]; iempintro
    iexact HatS3
  iintro ⟨HO, HatS3, -, Hpay⟩
  ihave Hq3 := (Entails.of_eq (rest_send m c (k := 3) (by decide))) $$ Hpay
  unfold sendPay
  ihave Hs0 := (slot0_join c (scr m c)) $$ [Hq1 Hq2 Hq3 Hq0]
  · isplitl [Hq1]; · iexact Hq1
    isplitl [Hq2]; · iexact Hq2
    isplitl [Hq3]; · iexact Hq3
    iexact Hq0
  ihave Hscr := (Entails.of_eq (scr_rows c fullShare (scr m c)).symm) $$ [Hs0 Hv1 Hv2 Hv3]
  · isplitl [Hs0]; · iexact Hs0
    isplitl [Hv1]; · iexact Hv1
    isplitl [Hv2]; · iexact Hv2
    iexact Hv3
  -- the six own cells close: their counters at zero are the core's again
  imod (Rounds.cell_close ER (ringRd m) (Set.mem_univ (K (c, sIx 1))) (fun h => h) (R := 0 + 1) (duties_later m (sendCell c 1))) $$ [HatS1] with HzS1
  · isplitr; · iapply (inv_send m K c (k := 1) (by decide)); iexact Hrec
    iexact HatS1
  imod (Rounds.cell_close ER (ringRd m) (Set.mem_univ (K (c, sIx 2))) (fun h => h) (R := 0 + 1) (duties_later m (sendCell c 2))) $$ [HatS2] with HzS2
  · isplitr; · iapply (inv_send m K c (k := 2) (by decide)); iexact Hrec
    iexact HatS2
  imod (Rounds.cell_close ER (ringRd m) (Set.mem_univ (K (c, sIx 3))) (fun h => h) (R := 0 + 1) (duties_later m (sendCell c 3))) $$ [HatS3] with HzS3
  · isplitr; · iapply (inv_send m K c (k := 3) (by decide)); iexact Hrec
    iexact HatS3
  imod (Rounds.cell_close ER (ringRd m) (Set.mem_univ (K (c, rIx 1))) (fun h => h) (R := 0 + 1) (duties_later m (recvCell c 1))) $$ [HatV1] with HzV1
  · isplitr; · iapply (inv_recv m K c (k := 1) (by decide)); iexact Hrec
    iexact HatV1
  imod (Rounds.cell_close ER (ringRd m) (Set.mem_univ (K (c, rIx 2))) (fun h => h) (R := 0 + 1) (duties_later m (recvCell c 2))) $$ [HatV2] with HzV2
  · isplitr; · iapply (inv_recv m K c (k := 2) (by decide)); iexact Hrec
    iexact HatV2
  imod (Rounds.cell_close ER (ringRd m) (Set.mem_univ (K (c, rIx 3))) (fun h => h) (R := 0 + 1) (duties_later m (recvCell c 3))) $$ [HatV3] with HzV3
  · isplitr; · iapply (inv_recv m K c (k := 3) (by decide)); iexact Hrec
    iexact HatV3
  rw [wp_ret]; imodintro
  iapply Hk
  unfold bodyPost Φ₁ Dat.owesAt Pipeline.owesWithin
  rw [show (dats m ρ 0 c).owed t₀.succ = 0 from rfl]
  isplitl [Hscr Hz0 HzS1 HzS2 HzS3 Hz0' HzV1 HzV2 HzV3]
  · isplitl [Hscr]; · iexact Hscr
    isplitl [Hz0]; · iexact Hz0
    isplitl [HzS1]; · iexact HzS1
    isplitl [HzS2]; · iexact HzS2
    isplitl [HzS3]; · iexact HzS3
    isplitl [Hz0']; · iexact Hz0'
    isplitl [HzV1]; · iexact HzV1
    isplitl [HzV2]; · iexact HzV2
    iexact HzV3
  isplitl [HO]
  · iexists (insert (SemLoc.dma (sendS 3), ()) (insert (SemLoc.dma (sendS 2), ()) (insert (SemLoc.dma (sendS 1), ())
      (insert (SemLoc.dma (recvS 3), ()) (insert (SemLoc.dma (recvS 2), ()) (insert (SemLoc.dma (recvS 1), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

end Body

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

/-- info: 'Cert.KernelIdeal.Sum4.body_obligation' depends on axioms: [propext, Classical.choice, Quot.sound] -/
#guard_msgs in #print axioms body_obligation

end Cert.KernelIdeal.Sum4

end
-- ==== Proof.Launch.lean ====
import proofs.«901091_g7700000000001092_dist_sum_ax0_shard0_i_m512_n256_v7x_i4_bf16_1_alg».proof.Proof.Coll
import proofs.«901091_g7700000000001092_dist_sum_ax0_shard0_i_m512_n256_v7x_i4_bf16_1_alg».proof.Proof.Gen.KernelIdeal
import proofs.«901091_g7700000000001092_dist_sum_ax0_shard0_i_m512_n256_v7x_i4_bf16_1_alg».proof.Proof.Gen.KernelIdeal.Skeleton
import proofs.«901091_g7700000000001092_dist_sum_ax0_shard0_i_m512_n256_v7x_i4_bf16_1_alg».proof.Proof.Gen.KernelIdeal.Launch
import proofs.«901091_g7700000000001092_dist_sum_ax0_shard0_i_m512_n256_v7x_i4_bf16_1_alg».proof.Proof.Gen.KernelIdeal.Points
import proofs.«901091_g7700000000001092_dist_sum_ax0_shard0_i_m512_n256_v7x_i4_bf16_1_alg».proof.Proof.Proto
import proofs.«901091_g7700000000001092_dist_sum_ax0_shard0_i_m512_n256_v7x_i4_bf16_1_alg».proof.Proof.Data
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Sum4

open Cert.KernelIdeal Cert.KernelIdeal.Gen Cert.Coll
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The launch: funding the cells of the ring protocol, dealing tokens and credit, and the run of the whole mesh -/

local notation "𝕄" => MT nD τ sig Unit (Elt F) ℕ UU ℕ

variable (m : (ℓ : Loc nD τ sig) → Buf (Elt F) ℓ) (ρ : Dev nD → PrngReg)

/-! ## The cells and tokens the launch mints -/

theorem ownSemFacts : Pipeline.OwnSemFacts cfg0.spec osem := by decide

theorem share_eq (c : Dev nD) (w : Fin cfg0.W) : (dats m ρ 0 c).share w = fullShare := by unfold Dat.share; split <;> rfl

omit [FloatOps F] in
theorem csem_injective : Function.Injective csem := by decide
omit [FloatOps F] in
theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have : k = k' := csem_injective (congrArg Prod.snd h)
  subst this; rfl
def ringCells : Finset (GSem nD τ sig) := Finset.univ.map ⟨kcell, kcell_injective⟩

/-- A device's own cells' duty tokens as minted: (device, which of the nine) — its barrier's duties 1, 2, 3, its three send
    cells' duty 0, its three receive cells' duty 0. -/
def tokKey : Fin 9 → SemLoc sig × Fin 4 := fun
  | 0 => (.reg barS, 1) | 1 => (.reg barS, 2) | 2 => (.reg barS, 3)
  | 3 => (.dma (sendS 1), 0) | 4 => (.dma (sendS 2), 0) | 5 => (.dma (sendS 3), 0)
  | 6 => (.dma (recvS 1), 0) | 7 => (.dma (recvS 2), 0) | 8 => (.dma (recvS 3), 0)
omit [FloatOps F] in
theorem tokKey_injective : Function.Injective tokKey := by decide
abbrev tokOf (cj : Dev nD × Fin 9) : GSem nD τ sig × ℕ × Fin 4 := (((cj.1 : Thread nD τ), (tokKey cj.2).1), 0, (tokKey cj.2).2)
omit [FloatOps F] in
theorem tokOf_injective : Function.Injective (tokOf : Dev nD × Fin 9 → GSem nD τ sig × ℕ × Fin 4) := by
  rintro ⟨c, j⟩ ⟨c', j'⟩ h
  have h1 : c = c' := congrArg (fun x : GSem nD τ sig × ℕ × Fin 4 => x.1.1.1) h
  subst h1
  have : j = j' := tokKey_injective (Prod.ext (congrArg (fun x : GSem nD τ sig × ℕ × Fin 4 => x.1.2) h) (congrArg (fun x : GSem nD τ sig × ℕ × Fin 4 => x.2.2) h))
  subst this; rfl
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 1 ∗ dutyTok ER (barCell c) 0 2 ∗ dutyTok ER (barCell c) 0 3
    ∗ dutyTok ER (sendCell c 1) 0 0 ∗ dutyTok ER (sendCell c 2) 0 0 ∗ dutyTok ER (sendCell c 3) 0 0
    ∗ dutyTok ER (recvCell c 1) 0 0 ∗ dutyTok ER (recvCell c 2) 0 0 ∗ dutyTok ER (recvCell c 3) 0 0)

/-- What the launch element deals device `c`: its seven cells' round states at counter zero, its positions and the reached
    records, and its own cells' tokens. -/
def G (c : Dev nD) : sProp 𝕄 :=
  iprop((bigSep Finset.univ fun k : Fin 7 => roundState ER (ringRd m) (kcell (c, k)) 0)
    ∗ (bigSep Finset.univ fun k : Fin 7 => iprop(atPos ER (kcell (c, k)) 0 ∅ 0 ∗ reached ER (kcell (c, k)) 0)) ∗ toks c)

/-- What the global step makes of it: the ghost state at some names, and the two counters of row 0 that are no cells. -/
def G' (c : Dev nD) : sProp 𝕄 := iprop((∃ K, ghost m K c) ∗ semVal (sendCell c 0) 0 ∗ semVal (recvCell c 0) 0)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at launch -/

omit [FloatOps F] in
/-- The kernel's own eight semaphores at zero, one by one; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
      ∗ semVal (recvCell c 0) 0 ∗ semVal (recvCell c 1) 0 ∗ semVal (recvCell c 2) 0 ∗ semVal (recvCell c 3) 0) := by
  rw [Pipeline.ownSems0_eq_of_list c osem [0, 1, 2, 3, 4, 5, 6, 7] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The nine counters regrouped: the seven cells', and the two of row 0 that are carried along. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 7 => semVal (kcell (c, k)) 0 : sProp 𝕄) ∗ semVal (sendCell c 0) 0 ∗ semVal (recvCell c 0) 0) := by
  rw [ownSems0_eq, unscopedSems0_eq, bigSep_fin7]
  iintro ⟨⟨S0, S1, S2, S3, R0, R1, R2, R3⟩, HB⟩
  isplitr [S0 R0]
  · isplitl [HB]; · iexact HB
    isplitl [S1]; · iexact S1
    isplitl [S2]; · iexact S2
    isplitl [S3]; · iexact S3
    isplitl [R1]; · iexact R1
    isplitl [R2]; · iexact R2
    iexact R3
  · isplitl [S0] <;> iassumption

/-- Each cell's invariant allocated from its counter and its round state. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c
          ∗ semVal (sendCell c 0) 0 ∗ semVal (recvCell c 0) 0) := by
  unfold G
  iintro ⟨Hos, Hus, Hst, Hat, Htok⟩
  ihave Hv := (sems0_eq (F := F) c) $$ [Hos Hus]
  · isplitl [Hos] <;> iassumption
  icases Hv with ⟨Hv, HS0, HR0⟩
  imod (show iprop((bigSep Finset.univ fun k : Fin 7 => semVal (kcell (c, k)) 0) ∗ bigSep Finset.univ fun k : Fin 7 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [HS0] <;> iassumption

/-! ## From the minted state to each device's ghost state -/

omit [FloatOps F] in
theorem positions_eq (c : Dev nD) : (bigSep Finset.univ fun k : Fin 7 => (atPos ER (kcell (c, k)) 0 ∅ 0 : sProp 𝕄)) = positions c := by
  unfold positions; rw [bigSep_fin7]

theorem ghost_intro (K : Dev nD × Fin 7 → ℕ) (c : Dev nD) :
    iprop(records m K ∗ (positions c ∗ payToks c) ∗ semVal (sendCell c 0) 0 ∗ semVal (recvCell c 0) 0) ⊢ G' m c := by
  unfold G' ghost
  iintro ⟨HR, ⟨HP, HT⟩, HS, HV⟩
  isplitl [HR HP HT]
  · iexists K
    isplitl [HR]; · iexact HR
    isplitl [HP] <;> iassumption
  · isplitl [HS] <;> iassumption

omit [FloatOps F] in
/-- The tokens dealt around the ring: the token of duty `r` of a barrier cell goes `r` places forward, to the device that
    pays it (so a device gets duty 3 from one place on, duty 2 from two, duty 1 from three); the token of receive cell `k`
    goes `k` places back, to the device that copies into that row; the send cells' tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (fwdEquiv 1) (fun c : Dev nD => (dutyTok ER (barCell c) 0 3 : sProp 𝕄)),
    bigSep_univ_equiv (fwdEquiv 2) (fun c : Dev nD => (dutyTok ER (barCell c) 0 2 : sProp 𝕄)),
    bigSep_univ_equiv (fwdEquiv 3) (fun c : Dev nD => (dutyTok ER (barCell c) 0 1 : sProp 𝕄)),
    bigSep_univ_equiv (fwdEquiv 1) (fun c : Dev nD => (dutyTok ER (recvCell c 1) 0 0 : sProp 𝕄)),
    bigSep_univ_equiv (fwdEquiv 2) (fun c : Dev nD => (dutyTok ER (recvCell c 2) 0 0 : sProp 𝕄)),
    bigSep_univ_equiv (fwdEquiv 3) (fun c : Dev nD => (dutyTok ER (recvCell c 3) 0 0 : sProp 𝕄))]
  iintro ⟨B1, B2, B3, S1, S2, S3, R1, R2, R3⟩
  isplitl [B3]; · iexact B3
  isplitl [B2]; · iexact B2
  isplitl [B1]; · iexact B1
  isplitl [R1]; · iexact R1
  isplitl [R2]; · iexact R2
  isplitl [R3]; · iexact R3
  isplitl [S1]; · iexact S1
  isplitl [S2]; · iexact S2
  iexact S3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' allocated cells, positions and tokens, regrouped: the names chosen once for the whole mesh, the records
    shared, the tokens dealt to their payers. -/
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c
          ∗ semVal (sendCell c 0) 0 ∗ semVal (recvCell c 0) 0) : sProp 𝕄)
      ⊢ bigSep Finset.univ (G' m) := by
  rw [bigSep_sep', bigSep_sep', bigSep_sep', ← bigSep_univ_prod (fun ck : Dev nD × Fin 7 => iprop(∃ κ : ℕ, cellInv ER (ringRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄)),
    bigSep_congr (s := Finset.univ) (fun (c : Dev nD) _ => positions_eq (F := F) c)]
  iintro ⟨HI, ⟨Hat, #HR⟩, Htok, Hz⟩
  ihave HK := (BI.bigSep_exists_pi Finset.univ (fun (ck : Dev nD × Fin 7) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => iprop(positions c ∗ payToks c)) (fun c : Dev nD => iprop(semVal (sendCell c 0) 0 ∗ semVal (recvCell c 0) 0))).symm))
    isplitl [Hat Htk]
    · iapply ((Entails.of_eq (bigSep_sep' Finset.univ (fun c : Dev nD => (positions c : sProp 𝕄)) payToks).symm))
      isplitl [Hat]; · iexact Hat
      iexact Htk
    iexact Hz

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Every device owing one unit to the barrier cell of the device `k` places on, each device is dealt one unit on its own; -/
theorem cred_bar (k : Fin 4) (c : Dev nD) : (Pipeline.launchCred (fun d => Bt d k) c : sProp 𝕄) ⊢ cred (tallyAt (barCell c) () 1) :=
  Pipeline.launchCred_tallyAt (.reg barS) (fun d => fwd d k) (fun d => bwd d k) (fun d => fwd_bwd d k) (fun d => bwd_fwd d k) () 1 c
omit [FloatOps F] in
/-- every device owing a row's credit to receive cell `k` of the device `k` places on, each is dealt that credit on its own. -/
theorem cred_recv (k : Fin 4) (c : Dev nD) : (Pipeline.launchCred (fun d => Rt d k) c : sProp 𝕄) ⊢ cred (tallyAt (recvCell c k) () N) :=
  Pipeline.launchCred_tallyAt (.dma (recvS k)) (fun d => fwd d k) (fun d => bwd d k) (fun d => fwd_bwd d k) (fun d => bwd_fwd d k) () N c

omit [FloatOps F] in
theorem cred_three (g : GSem nD τ sig) :
    iprop(cred (tallyAt g () 1) ∗ cred (tallyAt g () 1) ∗ cred (tallyAt g () 1)) ⊢ (cred (tallyAt g () 3) : sProp 𝕄) := by
  have e : (tallyAt g () 3 : CellTallies nD τ sig Unit) = tallyAt g () 1 + (tallyAt g () 1 + tallyAt g () 1) := by rw [tallyAt_add, tallyAt_add]
  rw [e]
  exact (sep_mono_right (cred_add _ _).2).trans (cred_add _ _).2

omit [FloatOps F] in
/-- The launch credit of the dues `O₀`: three barrier units and the three rows' credit, on the device's own cells. -/
theorem launch_creds (c : Dev nD) : (Pipeline.launchCred O₀ c : sProp 𝕄) ⊢ creds c := by
  have h : (Pipeline.launchCred O₀ c : sProp 𝕄)
      = iprop((((((emp ∗ Pipeline.launchCred (fun d => Rt d 3) c) ∗ Pipeline.launchCred (fun d => Rt d 2) c) ∗ Pipeline.launchCred (fun d => Rt d 1) c)
          ∗ Pipeline.launchCred (fun d => Bt d 3) c) ∗ Pipeline.launchCred (fun d => Bt d 2) c) ∗ Pipeline.launchCred (fun d => Bt d 1) c) := by
    show (Pipeline.launchCred (fun d => (0 : CellTallies nD τ sig Unit) + Rt d 3 + Rt d 2 + Rt d 1 + Bt d 3 + Bt d 2 + Bt d 1) c : sProp 𝕄) = _
    rw [Pipeline.launchCred_add, Pipeline.launchCred_add, Pipeline.launchCred_add, Pipeline.launchCred_add, Pipeline.launchCred_add, Pipeline.launchCred_add,
      Pipeline.launchCred_zero]
  rw [h]
  unfold creds
  iintro ⟨⟨⟨⟨⟨⟨-, R3⟩, R2⟩, R1⟩, B3⟩, B2⟩, B1⟩
  ihave B3' := (cred_bar (F := F) 3 c) $$ B3
  ihave B2' := (cred_bar (F := F) 2 c) $$ B2
  ihave B1' := (cred_bar (F := F) 1 c) $$ B1
  ihave R3' := (cred_recv (F := F) 3 c) $$ R3
  ihave R2' := (cred_recv (F := F) 2 c) $$ R2
  ihave R1' := (cred_recv (F := F) 1 c) $$ R1
  isplitl [B1' B2' B3']
  · iapply (cred_three (F := F) (barCell c))
    isplitl [B1']; · iexact B1'
    isplitl [B2'] <;> iassumption
  isplitl [R1']; · iexact R1'
  isplitl [R2'] <;> iassumption

/-! ## The launch theorem's side conditions -/

/-- What a device's body starts from, out of what the launch hands it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, HG, HS, HV⟩
  ihave Hc := (launch_creds (F := F) c) $$ Hcr
  imodintro
  unfold start
  isplitl
  · isplitl [HG]; · iexact HG
    isplitl [Hc]; · iexact Hc
    isplitl [Hlev]; · iexact Hlev
    isplitl [HS] <;> iassumption
  · iempintro

/-- With the scratch buffer, whole at some contents, it is the first point's precondition. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; iexact Hr

/-- What the body leaves gives back the eight own semaphores at zero and the scratch buffer whole. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m c from rfl, scopedRest0_eq, ownSems0_eq]
  unfold Φ₁
  iintro ⟨Hr, S0, S1, S2, S3, R0, R1, R2, R3⟩
  isplitr; · iempintro
  isplitr [Hr]
  · isplitl [S0]; · iexact S0
    isplitl [S1]; · iexact S1
    isplitl [S2]; · iexact S2
    isplitl [S3]; · iexact S3
    isplitl [R0]; · iexact R0
    isplitl [R1]; · iexact R1
    isplitl [R2]; · iexact R2
    iexact R3
  iexists (scr m c); iexact Hr

/-- The staging semaphores are no receive cell: the pipeline's own waits sit below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

set_option maxRecDepth 8000 in
/-- At the compiled mesh of four devices, for any float values, from any memory with zero counters: given each device's body
    obligation, every weakly fair execution of @main terminates, and every final state has each device's arrays at the
    contents the proof data names. -/
theorem run_main_of (hbody : ∀ c : Dev nD, BodyObligation (dats (F := F) m ρ 0 c) (defs₀ (F := F)) 𝒱₀ () Set.univ) :
    θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = m ((c : Thread nD τ).loc main_arg0) :=
  (dats (F := F) m ρ 0 c).arrAt_in (0 : Fin 2) rfl _

/-- The result array after the run holds the sum of the four rows: the one write-back stores the staged result over the
    whole array. -/
theorem finalA_out (c : Dev nD) : finalA m ρ c (1 : Fin 2) = outAt m c := by
  unfold finalA
  have h := (dats (F := F) m ρ 0 c).arrAt_succ (1 : Fin 2) t₀
  rw [flush0_1 t₀, if_pos rfl] at h
  refine h.trans ?_
  have hr : ∀ f : Buf (Elt F) ((cfg0.win 1).arr.view.loc (c : Thread nD τ)), ((cfg0.win 1).blk t₀).view.read (Elt F) f = f := fun f =>
    Memref.read_access_unit_zero (Elt F) main_v1 (by funext a; fin_cases a <;> rfl) _ f
  exact (hr _).symm.trans (View.read_write_univ _ _)

/-- The run with the values named: each device's result array ends as the sum of the four devices' column sums, its argument
    array unchanged. -/
theorem run_val_of (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩) (run_main_of m ρ hbody)

/-- info: 'Cert.KernelIdeal.Sum4.run_val_of' depends on axioms: [propext, Classical.choice, Quot.sound] -/
#guard_msgs in #print axioms Cert.KernelIdeal.Sum4.run_val_of

end Cert.KernelIdeal.Sum4

end
-- ==== Proof.Bits.Slots.lean ====
import proofs.«901091_g7700000000001092_dist_sum_ax0_shard0_i_m512_n256_v7x_i4_bf16_1_alg».proof.Proof.Coll
import proofs.«901091_g7700000000001092_dist_sum_ax0_shard0_i_m512_n256_v7x_i4_bf16_1_alg».proof.Proof.Gen.Kernel
import proofs.«901091_g7700000000001092_dist_sum_ax0_shard0_i_m512_n256_v7x_i4_bf16_1_alg».proof.Proof.Gen.Kernel.Skeleton
import proofs.«901091_g7700000000001092_dist_sum_ax0_shard0_i_m512_n256_v7x_i4_bf16_1_alg».proof.Proof.Gen.Kernel.Launch
import proofs.«901091_g7700000000001092_dist_sum_ax0_shard0_i_m512_n256_v7x_i4_bf16_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Sum4

open Cert.Kernel Cert.Kernel.Gen Cert.Coll
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The scratch buffer's four rows: index sets, contents, and what a read or a copy of a row gives

Device `c`'s scratch buffer has four rows of 256 words. Row 0 is written by the device itself with the column sums of its own
block; row `k` (k = 1, 2, 3) is written by the device `k` places before it on the ring with that device's column sums. -/

variable (m : (ℓ : Loc nD τ sig) → Buf (Elt F) ℓ)

/-! ## The devices the body addresses -/

theorem dev1_eq (c : Dev nD) : (⟨k0_dev1 c, k0_dev1_lt c⟩ : Dev nD) = fwd c 1 := Fin.ext (by revert c; decide +kernel)
theorem dev2_eq (c : Dev nD) : (⟨k0_dev2 c, k0_dev2_lt c⟩ : Dev nD) = fwd c 2 := Fin.ext (by revert c; decide +kernel)
theorem dev3_eq (c : Dev nD) : (⟨k0_dev3 c, k0_dev3_lt c⟩ : Dev nD) = fwd c 3 := Fin.ext (by revert c; decide +kernel)
theorem dev4_eq (c : Dev nD) : (⟨k0_dev4 c, k0_dev4_lt c⟩ : Dev nD) = fwd c 1 := Fin.ext (by revert c; decide +kernel)
theorem dev5_eq (c : Dev nD) : (⟨k0_dev5 c, k0_dev5_lt c⟩ : Dev nD) = fwd c 2 := Fin.ext (by revert c; decide +kernel)
theorem dev6_eq (c : Dev nD) : (⟨k0_dev6 c, k0_dev6_lt c⟩ : Dev nD) = fwd c 3 := Fin.ext (by revert c; decide +kernel)

/-! ## Memrefs, rows and semaphores -/

abbrev xM : Memref sig .tc .vmem S512x256 .f32 := Memref.whole cc0_stg0_0
abbrev oM : Memref sig .tc .vmem S1x256 .f32 := Memref.whole cc0_stg1_0
abbrev scrM : Memref sig .tc .vmem S4x1x256 .f32 := Memref.whole cc0_scratch0

theorem slot_inb (k : Fin 4) : ∀ a, (![k.val, 0, 0] : Fin 3 → Nat) a + S1x1x256.size a ≤ S4x1x256.size a := by revert k; decide
theorem sem_inb (k : Fin 4) : ∀ a, (![k.val] : Fin 1 → Nat) a + S1.size a ≤ S4.size a := by revert k; decide

/-- Row `k` of the scratch buffer, as a rectangle of it; -/
abbrev slotRect (k : Fin 4) : Rect S4x1x256 := Rect.unit (s := S4x1x256) ![k.val, 0, 0] S1x1x256.size (slot_inb k)
/-- as the 1 × 256 memref a copy goes through; -/
abbrev slotM (k : Fin 4) : Memref sig .tc .vmem S1x256 .f32 :=
  (scrM.slice (slotRect k) (fun _ => rfl)).squeeze S1x256 squeezes_S1x1x256_S1x256
/-- and as a set of the buffer's indices. -/
def slotSet (k : Fin 4) : Finset S4x1x256.Idx := (slotRect k).set

/-- The send and the receive semaphore of the copy into row `k`. -/
abbrev sendS (k : Fin 4) : DmaSem sig := ((cc0_scratch1.slice (Rect.unit (s := S4) ![k.val] S1.size (sem_inb k))).squeeze S_ squeezes_S1_S_).sem
abbrev recvS (k : Fin 4) : DmaSem sig := ((cc0_scratch2.slice (Rect.unit (s := S4) ![k.val] S1.size (sem_inb k))).squeeze S_ squeezes_S1_S_).sem
abbrev barS : Sem sig := (SemArray.scalar (sig.barrier 0 rfl) : Sems sig S_).sem

theorem sendS_val (k : Fin 4) : (sendS k).val = 2 + k.val := by revert k; decide
theorem recvS_val (k : Fin 4) : (recvS k).val = 6 + k.val := by revert k; decide

theorem slotM_set (k : Fin 4) : (slotM k).view.set = slotSet k := by
  unfold slotSet
  exact (View.set_reshape _ _).trans (View.set_slice_whole cc0_scratch0 (slotRect k))

theorem slotSet_disjoint {k k' : Fin 4} (h : k ≠ k') : Disjoint (slotSet k) (slotSet k') := by
  unfold slotSet
  refine Rect.unit_disjoint (0 : Fin 3) ?_
  show k.val + 1 ≤ k'.val ∨ k'.val + 1 ≤ k.val
  have : k.val ≠ k'.val := fun e => h (Fin.ext e)
  omega

theorem mem_slotSet {k : Fin 4} {i : S4x1x256.Idx} : i ∈ slotSet k ↔ (i 0).val = k.val := by
  unfold slotSet
  rw [Rect.mem_set_unit]
  constructor
  · intro h; have := h 0; simp only [Matrix.cons_val_zero] at this; have h2 : S1x1x256.size 0 = 1 := rfl; omega
  · intro h a
    fin_cases a
    · simp only [Matrix.cons_val_zero]; have h2 : S1x1x256.size 0 = 1 := rfl; constructor <;> [exact le_of_eq h.symm; skip]; show (i 0).val < k.val + 1; omega
    · exact ⟨Nat.zero_le _, by have h3 : (i 1).val < 1 := (i 1).isLt; show (i 1).val < 0 + 1; omega⟩
    · exact ⟨Nat.zero_le _, by have h3 : (i 2).val < 256 := (i 2).isLt; show (i 2).val < 0 + 256; omega⟩

theorem slotSet_cover : (Finset.univ : Finset (Fin 4)).biUnion slotSet = Finset.univ := by
  ext i
  simp only [Finset.mem_biUnion, Finset.mem_univ, true_and, iff_true]
  exact ⟨⟨(i 0).val, (i 0).isLt⟩, mem_slotSet.mpr rfl⟩

/-! ## Contents -/

/-- The position inside a row of an index of the scratch buffer. -/
def col (i : S4x1x256.Idx) : S1x1x256.Idx := fun a => match a with
  | ⟨0, _⟩ => ⟨0, Nat.one_pos⟩
  | ⟨1, _⟩ => ⟨0, Nat.one_pos⟩
  | ⟨2, _⟩ => ⟨(i 2).val, (i 2).isLt⟩

/-- Device `c`'s block of the argument array, as its staging buffer holds it. -/
def xstg (c : Dev nD) : (cc0_stg0_0 : Ref sig .tc).ty.Contents (Elt F) :=
  (win0_0.blk (0 : Fin 1)).view.read (Elt F) (m ((c : Thread nD τ).loc main_arg0))
/-- The column sums of device `d`'s block: the row it computes and sends around. -/
def part (d : Dev nD) : Vec F S1x1x256 .f32 := k0_pay1 (xstg m d)
/-- The scratch buffer of device `c` once every row has arrived: row `k` holds the column sums of the device `k` places before `c`. -/
def scr (c : Dev nD) : S4x1x256.Idx → Elt F .f32 := fun i => part m (bwd c ⟨(i 0).val, (i 0).isLt⟩) (col i)
/-- The result on device `c`: the four rows added up. -/
def outAt (c : Dev nD) : Vec F S1x256 .f32 := k0_pay2 (part m (bwd c 0)) (part m (bwd c 1)) (part m (bwd c 2)) (part m (bwd c 3))

omit [FloatOps F] in
theorem xstg_eq (c : Dev nD) : xstg m c = m ((c : Thread nD τ).loc main_arg0) := by
  unfold xstg
  funext x
  rw [View.read_apply, cast_eq]
  refine congrArg _ (funext fun a => Fin.ext ?_)
  show (win0_0.index (0 : Fin 1) a * win0_0.size a + 1 * (x a : Nat)) = (x a : Nat)
  have h0 : win0_0.index (0 : Fin 1) a = 0 := rfl
  rw [h0]; omega

/-- Row `k` of the final scratch contents is the row of the device `k` places before. -/
theorem scr_emb (c : Dev nD) (k : Fin 4) (j : S1x1x256.Idx) : scr m c ((slotRect k).emb j) = part m (bwd c k) j := by
  unfold scr
  have h0 : (⟨((slotRect k).emb j 0).val, ((slotRect k).emb j 0).isLt⟩ : Fin 4) = k := Fin.ext (by
    show ((slotRect k).emb j 0 : Nat) = k.val
    rw [Rect.emb_apply]; have : (j 0).val < 1 := (j 0).isLt; show k.val + 1 * (j 0).val = k.val; omega)
  have h1 : col ((slotRect k).emb j) = j := funext fun a => by
    match a with
    | ⟨0, _⟩ => exact Fin.ext (by have : (j 0).val < 1 := (j 0).isLt; show 0 = (j 0).val; omega)
    | ⟨1, _⟩ => exact Fin.ext (by have : (j 1).val < 1 := (j 1).isLt; show 0 = (j 1).val; omega)
    | ⟨2, _⟩ => exact Fin.ext (by show ((slotRect k).emb j 2 : Nat) = (j 2).val; rw [Rect.emb_apply]; show 0 + 1 * (j 2).val = (j 2).val; omega)
  rw [h0, h1]

/-- A load of row `k` of the final contents reads that row. -/
theorem read_slot (c : Dev nD) (k : Fin 4) :
    (scrM : Memref sig .tc .vmem S4x1x256 .f32).view.readAt (Elt F) (slotRect k).toLoadRect (scr m c) = part m (bwd c k) :=
  funext fun j => scr_emb m c k j

omit [FloatOps F] in
theorem load_sub (k : Fin 4) : (scrM : Memref sig .tc .vmem S4x1x256 .f32).view.setOn (slotRect k).toLoadRect.set ⊆ slotSet k := by
  intro i hi
  obtain ⟨x, hx, rfl⟩ := Finset.mem_map.mp hi
  exact hx

omit [FloatOps F] in
theorem access_set (k : Fin 4) : ((scrM : Memref sig .tc .vmem S4x1x256 .f32).access (slotRect k) : View sig .tc _ _ _).set = slotSet k :=
  View.set_slice_whole cc0_scratch0 (slotRect k)

omit [FloatOps F] in
theorem store_sub (k : Fin 4) : ((scrM : Memref sig .tc .vmem S4x1x256 .f32).access (slotRect k) : View sig .tc _ _ _).setOn Finset.univ ⊆ slotSet k :=
  le_of_eq (access_set k)

/-- The device's own row, stored whole, is row 0 of the final contents. -/
theorem write_slot0 (c : Dev nD) (f : S4x1x256.Idx → Elt F .f32) (i : S4x1x256.Idx) (hi : i ∈ slotSet 0) :
    ((scrM : Memref sig .tc .vmem S4x1x256 .f32).access (slotRect 0) : View sig .tc _ _ _).write (Elt F) f (part m c) Finset.univ i = scr m c i := by
  obtain ⟨y, rfl⟩ := View.exists_emb_of_mem_set ((scrM : Memref sig .tc .vmem S4x1x256 .f32).access (slotRect 0) : View sig .tc _ _ _) (by rw [access_set]; exact hi)
  rw [View.write_emb_of_mem _ _ (Finset.mem_univ y)]
  show _root_.cast _ (part m c y) = scr m c ((slotRect 0).emb y)
  rw [scr_emb, bwd_zero, cast_eq]

/-- What a copy of row 0 of device `c` leaves in row `r` of the device `r` places after it is that row of that device's final contents. -/
theorem copy_val (c : Dev nD) (r : Fin 4) (fd : S4x1x256.Idx → Elt F .f32) (i : S4x1x256.Idx) (hi : i ∈ slotSet r) :
    (slotM r).view.write (Elt F) fd ((slotM 0).view.read (Elt F) (scr m c)) Finset.univ i = scr m (fwd c r) i := by
  obtain ⟨y, rfl⟩ := View.exists_emb_of_mem_set (slotM r).view (by rw [slotM_set]; exact hi)
  rw [View.write_emb_of_mem _ _ (Finset.mem_univ y), View.read_apply]
  show _root_.cast _ (_root_.cast _ (scr m c ((slotRect 0).emb (Shape.reshapeEquiv _ y)))) = scr m (fwd c r) ((slotRect r).emb (Shape.reshapeEquiv _ y))
  rw [scr_emb, scr_emb, bwd_zero, bwd_fwd, cast_cast, cast_eq]

end Cert.Kernel.Sum4

end
-- ==== Proof.Bits.Proto.lean ====
import proofs.«901091_g7700000000001092_dist_sum_ax0_shard0_i_m512_n256_v7x_i4_bf16_1_alg».proof.Proof.Coll
import proofs.«901091_g7700000000001092_dist_sum_ax0_shard0_i_m512_n256_v7x_i4_bf16_1_alg».proof.Proof.Gen.Kernel
import proofs.«901091_g7700000000001092_dist_sum_ax0_shard0_i_m512_n256_v7x_i4_bf16_1_alg».proof.Proof.Gen.Kernel.Skeleton
import proofs.«901091_g7700000000001092_dist_sum_ax0_shard0_i_m512_n256_v7x_i4_bf16_1_alg».proof.Proof.Gen.Kernel.Launch
import proofs.«901091_g7700000000001092_dist_sum_ax0_shard0_i_m512_n256_v7x_i4_bf16_1_alg».proof.Proof.Gen.Kernel.Points
import proofs.«901091_g7700000000001092_dist_sum_ax0_shard0_i_m512_n256_v7x_i4_bf16_1_alg».proof.Proof.Bits.Slots
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Sum4

open Cert.Kernel Cert.Kernel.Gen Cert.Coll
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The protocol: cells, the one round of each, who pays what, and what each payment hands over

Every device signals the barrier semaphore of each of the three others, waits for its own three signals, then copies its row of
column sums into a row of each of the others' scratch buffers, waits for the three rows sent to it, adds the four rows, and
waits for its three copies to have been read. Per device there are seven cells: the barrier semaphore, three send semaphores
and three receive semaphores. A duty of the barrier cell of device `t` is named by the row `r` that `t` will write on the
device `r` places after it: that device pays it, handing over the row. -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st₀ : MemSt nD τ sig (Elt F) := ⟨m, fun _ => 0, ρ⟩

/-! ## Cells -/

abbrev barCell (c : Dev nD) : GSem nD τ sig := ((c : Thread nD τ), .reg barS)
abbrev sendCell (c : Dev nD) (k : Fin 4) : GSem nD τ sig := ((c : Thread nD τ), .dma (sendS k))
abbrev recvCell (c : Dev nD) (k : Fin 4) : GSem nD τ sig := ((c : Thread nD τ), .dma (recvS k))

abbrev N : ℕ := (slotM 0).view.dmaCredit
theorem N_pos : 0 < N := View.dmaCredit_pos _ (by decide)

/-- The share of its own row a device lends the copy into row `k`; the last eighth it keeps to read the row itself. -/
def shr : Fin 4 → PosShare TreeShare
  | 0 => fullShare.right.right.right
  | 1 => fullShare.left
  | 2 => fullShare.right.left
  | 3 => fullShare.right.right.left

/-- Row `k` of device `c`'s scratch buffer at share `q`, the buffer's contents `f`. -/
def slotPts (c : Dev nD) (k : Fin 4) (q : PosShare TreeShare) (f : S4x1x256.Idx → Elt F .f32) : sProp 𝕄 :=
  ((c : Thread nD τ).loc cc0_scratch0) ↦[slotSet k]{q} f

omit [FloatOps F] in
instance slotPts_storable (c : Dev nD) (k : Fin 4) (q) (f) : BI.Storable (upEmb : UEmb _ 𝕄) (slotPts (F := F) c k q f) := by unfold slotPts; infer_instance

/-! ## The schedule -/

/-- What the device `r` places after `t` hands `t` with its barrier signal: its row `r`, and that its receive cell for that row is at round 0. -/
def barPay (t : Dev nD) (r : Fin 4) : sProp 𝕄 := iprop((∃ f, slotPts (fwd t r) r fullShare f) ∗ reached ER (recvCell (fwd t r) r) 0)
/-- What lands with the copy into row `k` of device `c`: the row at its final contents. -/
def recvPay (c : Dev nD) (k : Fin 4) : sProp 𝕄 := slotPts c k fullShare (scr m c)
/-- What comes back when the copy into row `k` has read its source: the lent share of the device's own row. -/
def sendPay (c : Dev nD) (k : Fin 4) : sProp 𝕄 := slotPts c 0 (shr k) (scr m c)

/-- Which row's send (receive) cell a DMA semaphore is, if any. -/
def sendIx (s : SemLoc sig) : Option (Fin 4) := if s = .dma (sendS 1) then some 1 else if s = .dma (sendS 2) then some 2 else if s = .dma (sendS 3) then some 3 else none
def recvIx (s : SemLoc sig) : Option (Fin 4) := if s = .dma (recvS 1) then some 1 else if s = .dma (recvS 2) then some 2 else if s = .dma (recvS 3) then some 3 else none

/-- One round, round 0: a barrier cell has the three duties 1, 2, 3 of one unit each; a send or receive cell the duty 0 of the row's credit. -/
def ringRd : Rounds.Schedule (GSem nD τ sig) (Fin 4) 𝕄 where
  duties g r :=
    if r = 0 ∧ g.1.2 = .tc then
      (if g.2 = .reg barS then {1, 2, 3} else if (sendIx g.2).isSome ∨ (recvIx g.2).isSome then {0} else ∅)
    else ∅
  unitless _ := False
  amount g _ _ := if g.2 = .reg barS then 1 else N
  payload g _ d :=
    if g.2 = .reg barS then barPay g.1.1 d
    else match recvIx g.2 with
      | some k => recvPay m g.1.1 k
      | none => match sendIx g.2 with
        | some k => sendPay m g.1.1 k
        | none => iprop(emp)
  amount_pos g _ _ _ := by
    by_cases h : g.2 = .reg barS
    · rw [if_pos h]; exact Nat.one_pos
    · rw [if_neg h]; exact N_pos

instance ringRd_payload_storable (g : GSem nD τ sig) (r : ℕ) (d : Fin 4) :
    BI.Storable (upEmb : UEmb _ 𝕄) ((ringRd (F := F) m).payload g r d) := by
  show BI.Storable upEmb (if g.2 = .reg barS then barPay g.1.1 d
    else match recvIx g.2 with
      | some k => recvPay m g.1.1 k
      | none => match sendIx g.2 with
        | some k => sendPay m g.1.1 k
        | none => iprop(emp))
  unfold barPay recvPay sendPay
  (repeat' split) <;> infer_instance

section Sched
variable (c : Dev nD)

omit [FloatOps F] in
theorem send_ne_bar (k : Fin 4) : (SemLoc.dma (sendS k) : SemLoc sig) ≠ .reg barS := fun h => by cases h
omit [FloatOps F] in
theorem recv_ne_bar (k : Fin 4) : (SemLoc.dma (recvS k) : SemLoc sig) ≠ .reg barS := fun h => by cases h

omit [FloatOps F] in
theorem sendIx_send {k : Fin 4} (hk : k ≠ 0) : sendIx (.dma (sendS k)) = some k := by revert k; decide
omit [FloatOps F] in
theorem recvIx_recv {k : Fin 4} (hk : k ≠ 0) : recvIx (.dma (recvS k)) = some k := by revert k; decide
omit [FloatOps F] in
theorem recvIx_send (k : Fin 4) : recvIx (.dma (sendS k)) = none := by revert k; decide
omit [FloatOps F] in
theorem sendIx_bar : sendIx (.reg barS) = none := by decide
omit [FloatOps F] in
theorem recvIx_bar : recvIx (.reg barS) = none := by decide

theorem duties_bar : (ringRd (F := F) m).duties (barCell c) 0 = {1, 2, 3} := by
  dsimp only [ringRd]; rw [if_pos ⟨rfl, rfl⟩, if_pos rfl]
theorem duties_send {k : Fin 4} (hk : k ≠ 0) : (ringRd (F := F) m).duties (sendCell c k) 0 = {0} := by
  dsimp only [ringRd]; rw [if_pos ⟨rfl, rfl⟩, if_neg (send_ne_bar k), if_pos (Or.inl (by rw [sendIx_send hk]; rfl))]
theorem duties_recv {k : Fin 4} (hk : k ≠ 0) : (ringRd (F := F) m).duties (recvCell c k) 0 = {0} := by
  dsimp only [ringRd]; rw [if_pos ⟨rfl, rfl⟩, if_neg (recv_ne_bar k), if_pos (Or.inr (by rw [recvIx_recv hk]; rfl))]
theorem duties_later (g : GSem nD τ sig) : ∀ r, 1 ≤ r → (ringRd (F := F) m).duties g r = ∅ :=
  fun r hr => by dsimp only [ringRd]; rw [if_neg fun h => by omega]

theorem amount_bar (d : Fin 4) : (ringRd (F := F) m).amount (barCell c) 0 d = 1 := by dsimp only [ringRd]; exact if_pos rfl
theorem amount_send (k d : Fin 4) : (ringRd (F := F) m).amount (sendCell c k) 0 d = N := by dsimp only [ringRd]; exact if_neg (send_ne_bar k)
theorem amount_recv (k d : Fin 4) : (ringRd (F := F) m).amount (recvCell c k) 0 d = N := by dsimp only [ringRd]; exact if_neg (recv_ne_bar k)

theorem expect_bar : (ringRd (F := F) m).expect (barCell c) 0 = 3 := by
  unfold Schedule.expect Schedule.amountOf
  rw [duties_bar, Finset.sum_congr rfl fun d _ => amount_bar m c d, Finset.sum_const, smul_eq_mul]; rfl
theorem expect_send {k : Fin 4} (hk : k ≠ 0) : (ringRd (F := F) m).expect (sendCell c k) 0 = N := by
  unfold Schedule.expect Schedule.amountOf; rw [duties_send m c hk, Finset.sum_singleton, amount_send]
theorem expect_recv {k : Fin 4} (hk : k ≠ 0) : (ringRd (F := F) m).expect (recvCell c k) 0 = N := by
  unfold Schedule.expect Schedule.amountOf; rw [duties_recv m c hk, Finset.sum_singleton, amount_recv]

theorem payload_bar (d : Fin 4) : (ringRd (F := F) m).payload (barCell c) 0 d = barPay c d := by dsimp only [ringRd]; rw [if_pos rfl]
theorem payload_send {k : Fin 4} (hk : k ≠ 0) (d : Fin 4) : (ringRd (F := F) m).payload (sendCell c k) 0 d = sendPay m c k := by
  dsimp only [ringRd]; rw [if_neg (send_ne_bar k), recvIx_send, sendIx_send hk]
theorem payload_recv {k : Fin 4} (hk : k ≠ 0) (d : Fin 4) : (ringRd (F := F) m).payload (recvCell c k) 0 d = recvPay m c k := by
  dsimp only [ringRd]; rw [if_neg (recv_ne_bar k), recvIx_recv hk]

/-- The rest of the barrier cell's round, no duty taken: the three rows the device will write. -/
theorem rest_bar : bigSep ((ringRd (F := F) m).duties (barCell c) 0 \ ∅) (fun d => (ringRd (F := F) m).payload (barCell c) 0 d)
    = iprop(barPay c 1 ∗ barPay c 2 ∗ barPay c 3) := by
  rw [Finset.sdiff_empty, duties_bar, bigSep_eq_bigSepL_of_eq [1, 2, 3] (by decide) (by decide), bigSepL_cons_cons, bigSepL_cons_cons, bigSepL_singleton,
    payload_bar, payload_bar, payload_bar]
  rfl
theorem rest_send {k : Fin 4} (hk : k ≠ 0) : bigSep ((ringRd (F := F) m).duties (sendCell c k) 0 \ ∅) (fun d => (ringRd (F := F) m).payload (sendCell c k) 0 d) = sendPay m c k := by
  rw [Finset.sdiff_empty, duties_send m c hk, bigSep_singleton, payload_send m c hk]
theorem rest_recv {k : Fin 4} (hk : k ≠ 0) : bigSep ((ringRd (F := F) m).duties (recvCell c k) 0 \ ∅) (fun d => (ringRd (F := F) m).payload (recvCell c k) 0 d) = recvPay m c k := by
  rw [Finset.sdiff_empty, duties_recv m c hk, bigSep_singleton, payload_recv m c hk]

end Sched

/-! ## What each core owes at launch; the levels -/

/-- The unit device `c` owes the barrier cell of the device `k` places after it; the row's credit it owes that device's receive cell `k`. -/
def Bt (c : Dev nD) (k : Fin 4) : CellTallies nD τ sig Unit := tallyAt (barCell (fwd c k)) () 1
def Rt (c : Dev nD) (k : Fin 4) : CellTallies nD τ sig Unit := tallyAt (recvCell (fwd c k) k) () N
/-- Owed at the barrier wait: the three copies; at launch: those and the three signals — summed so that each step peels the last summand. -/
def O₃ (c : Dev nD) : CellTallies nD τ sig Unit := 0 + Rt c 3 + Rt c 2 + Rt c 1
def O₀ (c : Dev nD) : CellTallies nD τ sig Unit := O₃ c + Bt c 3 + Bt c 2 + Bt c 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if (recvIx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem mem_L_tc (c : Dev nD) (sm : SemLoc sig) (u : Unit) : u ∈ L ((c : Thread nD τ), sm) := by rw [L_tc]; exact Finset.mem_singleton_self _

theorem lv_bar (c : Dev nD) : lv (barCell c) () = 1 := if_pos rfl
theorem lv_recv (c : Dev nD) {k : Fin 4} (hk : k ≠ 0) : lv (recvCell c k) () = 2 := by
  dsimp only [lv]; rw [if_neg (recv_ne_bar k), if_pos (by rw [recvIx_recv hk]; rfl)]
theorem lv_low (c : Dev nD) (q : DmaSem sig) (hq : recvIx (.dma q) = none) : lv ((c : Thread nD τ), .dma q) () = 0 := by
  dsimp only [lv]; rw [if_neg (fun h => by cases h), if_neg (by rw [hq]; exact Bool.false_ne_true)]

theorem zero_pos_false {g : GSem nD τ sig} {u : Unit} (h : 0 < (0 : CellTallies nD τ sig Unit) g u) : False := by
  rw [Pi.zero_apply, Finsupp.zero_apply] at h; exact Nat.lt_irrefl 0 h

theorem O₃_pos {c : Dev nD} {g : GSem nD τ sig} {u : Unit} (h : 0 < O₃ c g u) : u ∈ L g ∧ lv g u = 2 := by
  unfold O₃ Rt at h
  rcases Pipeline.add_pos_cases h with h | h
  · rcases Pipeline.add_pos_cases h with h | h
    · rcases Pipeline.add_pos_cases h with h | h
      · exact (zero_pos_false h).elim
      · obtain ⟨rfl, rfl⟩ := Pipeline.tallyAt_pos h; exact ⟨mem_L_tc _ _ _, lv_recv _ (by decide)⟩
    · obtain ⟨rfl, rfl⟩ := Pipeline.tallyAt_pos h; exact ⟨mem_L_tc _ _ _, lv_recv _ (by decide)⟩
  · obtain ⟨rfl, rfl⟩ := Pipeline.tallyAt_pos h; exact ⟨mem_L_tc _ _ _, lv_recv _ (by decide)⟩

theorem O₀_pos {c : Dev nD} {g : GSem nD τ sig} {u : Unit} (h : 0 < O₀ c g u) : u ∈ L g ∧ 1 ≤ lv g u := by
  unfold O₀ Bt at h
  rcases Pipeline.add_pos_cases h with h | h
  · rcases Pipeline.add_pos_cases h with h | h
    · rcases Pipeline.add_pos_cases h with h | h
      · have := O₃_pos h; exact ⟨this.1, by rw [this.2]; decide⟩
      · obtain ⟨rfl, rfl⟩ := Pipeline.tallyAt_pos h; exact ⟨mem_L_tc _ _ _, by rw [lv_bar]⟩
    · obtain ⟨rfl, rfl⟩ := Pipeline.tallyAt_pos h; exact ⟨mem_L_tc _ _ _, by rw [lv_bar]⟩
  · obtain ⟨rfl, rfl⟩ := Pipeline.tallyAt_pos h; exact ⟨mem_L_tc _ _ _, by rw [lv_bar]⟩

omit [FloatOps F] in
/-- A wait on a level-0 cell (a staging or a send semaphore) is allowed whatever of the launch dues is still owed. -/
theorem mayWait_low (c : Dev nD) (q : DmaSem sig) (hq : recvIx (.dma q) = none) (O : CellTallies nD τ sig Unit) (hO : O = O₀ c ∨ O = 0) :
    (levAts L lv : sProp 𝕄) ⊢ MayWait (c : Thread nD τ) (.dma q) () O := by
  rcases hO with rfl | rfl
  · exact Pipeline.mayWait_of_levAts (mem_L_tc _ _ _) fun g u hg => ⟨(O₀_pos hg).1, by rw [lv_low c q hq]; exact (O₀_pos hg).2⟩
  · rw [MayWait_zero]; iintro -; iempintro

omit [FloatOps F] in
/-- At its barrier wait a device owes the three copies only: receive cells, above its barrier cell. -/
theorem mayWait_bar (c : Dev nD) : (levAts L lv : sProp 𝕄) ⊢ MayWait (c : Thread nD τ) (.reg barS) () (O₃ c) :=
  Pipeline.mayWait_of_levAts (mem_L_tc _ _ _) fun g u hg => ⟨(O₃_pos hg).1, by rw [lv_bar, (O₃_pos hg).2]; decide⟩

end Cert.Kernel.Sum4

end
-- ==== Proof.Bits.Data.lean ====
import proofs.«901091_g7700000000001092_dist_sum_ax0_shard0_i_m512_n256_v7x_i4_bf16_1_alg».proof.Proof.Coll
import proofs.«901091_g7700000000001092_dist_sum_ax0_shard0_i_m512_n256_v7x_i4_bf16_1_alg».proof.Proof.Gen.Kernel
import proofs.«901091_g7700000000001092_dist_sum_ax0_shard0_i_m512_n256_v7x_i4_bf16_1_alg».proof.Proof.Gen.Kernel.Skeleton
import proofs.«901091_g7700000000001092_dist_sum_ax0_shard0_i_m512_n256_v7x_i4_bf16_1_alg».proof.Proof.Gen.Kernel.Launch
import proofs.«901091_g7700000000001092_dist_sum_ax0_shard0_i_m512_n256_v7x_i4_bf16_1_alg».proof.Proof.Gen.Kernel.Points
import proofs.«901091_g7700000000001092_dist_sum_ax0_shard0_i_m512_n256_v7x_i4_bf16_1_alg».proof.Proof.Bits.Proto
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Sum4

open Cert.Kernel Cert.Kernel.Gen Cert.Coll
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The proof data of the one kernel launch: the ghost state a device's body starts from, and what it leaves -/

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The cells, as the launch indexes them -/

/-- The kernel's own (scoped) semaphores: the four send and the four receive semaphores (those of row 0 are never used); -/
abbrev osem : Fin 8 → SemLoc sig := fun
  | 0 => .dma (sendS 0) | 1 => .dma (sendS 1) | 2 => .dma (sendS 2) | 3 => .dma (sendS 3)
  | 4 => .dma (recvS 0) | 5 => .dma (recvS 1) | 6 => .dma (recvS 2) | 7 => .dma (recvS 3)
/-- the seven cells of the protocol: barrier, send 1–3, receive 1–3. -/
abbrev csem : Fin 7 → SemLoc sig := fun
  | 0 => .reg barS | 1 => .dma (sendS 1) | 2 => .dma (sendS 2) | 3 => .dma (sendS 3)
  | 4 => .dma (recvS 1) | 5 => .dma (recvS 2) | 6 => .dma (recvS 3)
abbrev kcell (ck : Dev nD × Fin 7) : GSem nD τ sig := ((ck.1 : Thread nD τ), csem ck.2)

def sIx (k : Fin 4) : Fin 7 := ⟨k.val, by omega⟩
def rIx (k : Fin 4) : Fin 7 := ⟨3 + k.val, by omega⟩

omit [FloatOps F] in
theorem csem_sIx {k : Fin 4} (hk : k ≠ 0) : csem (sIx k) = .dma (sendS k) := by revert k; decide
omit [FloatOps F] in
theorem csem_rIx {k : Fin 4} (hk : k ≠ 0) : csem (rIx k) = .dma (recvS k) := by revert k; decide
omit [FloatOps F] in
theorem kcell_send (c : Dev nD) {k : Fin 4} (hk : k ≠ 0) : kcell (c, sIx k) = sendCell c k := by unfold kcell; rw [csem_sIx hk]
omit [FloatOps F] in
theorem kcell_recv (c : Dev nD) {k : Fin 4} (hk : k ≠ 0) : kcell (c, rIx k) = recvCell c k := by unfold kcell; rw [csem_rIx hk]

/-- Every cell's invariant, under the names `K` the launch allocated them at, and that every cell is at round 0: persistent, held by every device. -/
def records (K : Dev nD × Fin 7 → ℕ) : sProp 𝕄 :=
  iprop((bigSep Finset.univ fun ck : Dev nD × Fin 7 => cellInv ER (ringRd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) : records m K ⊢ cellInv ER (ringRd m) (K ck) (kcell ck) := by
  unfold records; iintro ⟨H, -⟩
  iapply (show (bigSep Finset.univ fun ck : Dev nD × Fin 7 => (cellInv ER (ringRd m) (K ck) (kcell ck) : sProp 𝕄)) ⊢ cellInv ER (ringRd m) (K ck) (kcell ck) from
    bigSep_elim (Finset.mem_univ ck))
  iexact H
theorem reached_at (K : Dev nD × Fin 7 → ℕ) (ck : Dev nD × Fin 7) : records m K ⊢ reached ER (kcell ck) 0 := by
  unfold records; iintro ⟨-, H⟩
  iapply (show (bigSep Finset.univ fun ck : Dev nD × Fin 7 => (reached ER (kcell ck) 0 : sProp 𝕄)) ⊢ reached ER (kcell ck) 0 from
    bigSep_elim (Finset.mem_univ ck))
  iexact H

theorem inv_bar (K : Dev nD × Fin 7 → ℕ) (c : Dev nD) : records m K ⊢ cellInv ER (ringRd m) (K (c, 0)) (barCell c) := inv_at m K (c, 0)
theorem inv_send (K : Dev nD × Fin 7 → ℕ) (c : Dev nD) {k : Fin 4} (hk : k ≠ 0) : records m K ⊢ cellInv ER (ringRd m) (K (c, sIx k)) (sendCell c k) := by
  have h := inv_at m K (c, sIx k); rwa [kcell_send c hk] at h
theorem inv_recv (K : Dev nD × Fin 7 → ℕ) (c : Dev nD) {k : Fin 4} (hk : k ≠ 0) : records m K ⊢ cellInv ER (ringRd m) (K (c, rIx k)) (recvCell c k) := by
  have h := inv_at m K (c, rIx k); rwa [kcell_recv c hk] at h
theorem reached_bar (K : Dev nD × Fin 7 → ℕ) (c : Dev nD) : records m K ⊢ reached ER (barCell c) 0 := reached_at m K (c, 0)
theorem reached_send (K : Dev nD × Fin 7 → ℕ) (c : Dev nD) {k : Fin 4} (hk : k ≠ 0) : records m K ⊢ reached ER (sendCell c k) 0 := by
  have h := reached_at m K (c, sIx k); rwa [kcell_send c hk] at h
theorem reached_recv (K : Dev nD × Fin 7 → ℕ) (c : Dev nD) {k : Fin 4} (hk : k ≠ 0) : records m K ⊢ reached ER (recvCell c k) 0 := by
  have h := reached_at m K (c, rIx k); rwa [kcell_recv c hk] at h

/-! ## What a device's body starts from and ends with -/

/-- The device's positions at round 0 of its seven cells. -/
def positions (c : Dev nD) : sProp 𝕄 :=
  iprop(atPos ER (barCell c) 0 ∅ 0
    ∗ atPos ER (sendCell c 1) 0 ∅ 0 ∗ atPos ER (sendCell c 2) 0 ∅ 0 ∗ atPos ER (sendCell c 3) 0 ∅ 0
    ∗ atPos ER (recvCell c 1) 0 ∅ 0 ∗ atPos ER (recvCell c 2) 0 ∅ 0 ∗ atPos ER (recvCell c 3) 0 ∅ 0)

/-- The tokens of the nine duties the device pays: on the barrier cell of the device `k` places after it the duty named by the
    row that device will write here (3, 2, 1 for k = 1, 2, 3); on that device's receive cell `k`; on its own send cell `k`. -/
def payToks (c : Dev nD) : sProp 𝕄 :=
  iprop(dutyTok ER (barCell (fwd c 1)) 0 3 ∗ dutyTok ER (barCell (fwd c 2)) 0 2 ∗ dutyTok ER (barCell (fwd c 3)) 0 1
    ∗ dutyTok ER (recvCell (fwd c 1) 1) 0 0 ∗ dutyTok ER (recvCell (fwd c 2) 2) 0 0 ∗ dutyTok ER (recvCell (fwd c 3) 3) 0 0
    ∗ dutyTok ER (sendCell c 1) 0 0 ∗ dutyTok ER (sendCell c 2) 0 0 ∗ dutyTok ER (sendCell c 3) 0 0)

def ghost (K : Dev nD × Fin 7 → ℕ) (c : Dev nD) : sProp 𝕄 := iprop(records m K ∗ positions c ∗ payToks c)

/-- The credit the launch deals the device: its barrier's three units, its three receive cells' credit. -/
def creds (c : Dev nD) : sProp 𝕄 :=
  iprop(cred (tallyAt (barCell c) () 3) ∗ cred (tallyAt (recvCell c 1) () N) ∗ cred (tallyAt (recvCell c 2) () N) ∗ cred (tallyAt (recvCell c 3) () N))

/-- What device `c`'s body starts from: the ghost state at some names, its credit, the level facts, and the two semaphores it never uses. -/
def start (c : Dev nD) : sProp 𝕄 :=
  iprop((∃ K, ghost m K c) ∗ creds c ∗ levAts L lv ∗ semVal (sendCell c 0) 0 ∗ semVal (recvCell c 0) 0)

def Φ₀ (c : Dev nD) : sProp 𝕄 := iprop(start m c ∗ ∃ f, (((c : Thread nD τ).loc cc0_scratch0) ↦{fullShare} f))
/-- After the body: the scratch buffer whole at its final contents, the eight own semaphores at zero. -/
def Φ₁ (c : Dev nD) : sProp 𝕄 :=
  iprop((((c : Thread nD τ).loc cc0_scratch0) ↦{fullShare} (scr m c : Buf (Elt F) ((c : Thread nD τ).loc cc0_scratch0)))
    ∗ semVal (sendCell c 0) 0 ∗ semVal (sendCell c 1) 0 ∗ semVal (sendCell c 2) 0 ∗ semVal (sendCell c 3) 0
    ∗ semVal (recvCell c 0) 0 ∗ semVal (recvCell c 1) 0 ∗ semVal (recvCell c 2) 0 ∗ semVal (recvCell c 3) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-- The arrays after the run, as the proof data names them. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

end Cert.Kernel.Sum4

end
-- ==== Proof.Bits.Body.lean ====
import proofs.«901091_g7700000000001092_dist_sum_ax0_shard0_i_m512_n256_v7x_i4_bf16_1_alg».proof.Proof.Coll
import proofs.«901091_g7700000000001092_dist_sum_ax0_shard0_i_m512_n256_v7x_i4_bf16_1_alg».proof.Proof.Gen.Kernel
import proofs.«901091_g7700000000001092_dist_sum_ax0_shard0_i_m512_n256_v7x_i4_bf16_1_alg».proof.Proof.Gen.Kernel.Skeleton
import proofs.«901091_g7700000000001092_dist_sum_ax0_shard0_i_m512_n256_v7x_i4_bf16_1_alg».proof.Proof.Gen.Kernel.Launch
import proofs.«901091_g7700000000001092_dist_sum_ax0_shard0_i_m512_n256_v7x_i4_bf16_1_alg».proof.Proof.Gen.Kernel.Points
import proofs.«901091_g7700000000001092_dist_sum_ax0_shard0_i_m512_n256_v7x_i4_bf16_1_alg».proof.Proof.Bits.Data
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Sum4

open Cert.Kernel Cert.Kernel.Gen Cert.Coll
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # One device's body -/

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem fwd_fwd_13 (c : Dev nD) : fwd (fwd c 1) 3 = c := by revert c; decide
omit [FloatOps F] in
theorem fwd_fwd_22 (c : Dev nD) : fwd (fwd c 2) 2 = c := by revert c; decide
omit [FloatOps F] in
theorem fwd_fwd_31 (c : Dev nD) : fwd (fwd c 3) 1 = c := by revert c; decide

omit [FloatOps F] in
/-- The scratch buffer whole is its four rows. -/
theorem scr_rows (c : Dev nD) (q : PosShare TreeShare) (f : S4x1x256.Idx → Elt F .f32) :
    ((((c : Thread nD τ).loc cc0_scratch0) ↦{q} (f : Buf (Elt F) ((c : Thread nD τ).loc cc0_scratch0))) : sProp 𝕄)
      = iprop(slotPts c 0 q f ∗ slotPts c 1 q f ∗ slotPts c 2 q f ∗ slotPts c 3 q f) := by
  unfold slotPts
  rw [show ((((c : Thread nD τ).loc cc0_scratch0) ↦{q} (f : Buf (Elt F) ((c : Thread nD τ).loc cc0_scratch0))) : sProp 𝕄)
      = (((c : Thread nD τ).loc cc0_scratch0) ↦[(Finset.univ : Finset (Fin 4)).biUnion slotSet]{q} f) from by rw [slotSet_cover],
    pointsTo_biUnion _ _ (fun t _ t' _ h => slotSet_disjoint h), bigSep_univ_eq_bigSepL [0, 1, 2, 3] (by decide) (by decide)]
  rfl

omit [FloatOps F] in
/-- Row 0 at the full share is the three lent shares and the kept one. -/
theorem slot0_split (c : Dev nD) (f : S4x1x256.Idx → Elt F .f32) :
    (slotPts c 0 fullShare f : sProp 𝕄) ⊢ iprop(slotPts c 0 (shr 1) f ∗ slotPts c 0 (shr 2) f ∗ slotPts c 0 (shr 3) f ∗ slotPts c 0 (shr 0) f) := by
  unfold slotPts shr
  have e1 : (((c : Thread nD τ).loc cc0_scratch0) ↦[slotSet 0]{fullShare} f : sProp 𝕄) ⊢ iprop((((c : Thread nD τ).loc cc0_scratch0) ↦[slotSet 0]{fullShare.left} f) ∗ (((c : Thread nD τ).loc cc0_scratch0) ↦[slotSet 0]{fullShare.right} f)) := (pointsTo_share (PosShare.mem_left_op_right fullShare)).1
  have e2 : (((c : Thread nD τ).loc cc0_scratch0) ↦[slotSet 0]{fullShare.right} f : sProp 𝕄) ⊢ iprop((((c : Thread nD τ).loc cc0_scratch0) ↦[slotSet 0]{fullShare.right.left} f) ∗ (((c : Thread nD τ).loc cc0_scratch0) ↦[slotSet 0]{fullShare.right.right} f)) := (pointsTo_share (PosShare.mem_left_op_right fullShare.right)).1
  have e3 : (((c : Thread nD τ).loc cc0_scratch0) ↦[slotSet 0]{fullShare.right.right} f : sProp 𝕄) ⊢ iprop((((c : Thread nD τ).loc cc0_scratch0) ↦[slotSet 0]{fullShare.right.right.left} f) ∗ (((c : Thread nD τ).loc cc0_scratch0) ↦[slotSet 0]{fullShare.right.right.right} f)) := (pointsTo_share (PosShare.mem_left_op_right fullShare.right.right)).1
  iintro H
  ihave H := e1 $$ H
  icases H with ⟨H1, H⟩
  ihave H := e2 $$ H
  icases H with ⟨H2, H⟩
  ihave H := e3 $$ H
  icases H with ⟨H3, H0⟩
  isplitl [H1]; · iexact H1
  isplitl [H2]; · iexact H2
  isplitl [H3]; · iexact H3
  iexact H0

omit [FloatOps F] in
theorem slot0_join (c : Dev nD) (f : S4x1x256.Idx → Elt F .f32) :
    iprop(slotPts c 0 (shr 1) f ∗ slotPts c 0 (shr 2) f ∗ slotPts c 0 (shr 3) f ∗ slotPts c 0 (shr 0) f) ⊢ (slotPts c 0 fullShare f : sProp 𝕄) := by
  unfold slotPts shr
  have e1 : iprop((((c : Thread nD τ).loc cc0_scratch0) ↦[slotSet 0]{fullShare.left} f) ∗ (((c : Thread nD τ).loc cc0_scratch0) ↦[slotSet 0]{fullShare.right} f)) ⊢ (((c : Thread nD τ).loc cc0_scratch0) ↦[slotSet 0]{fullShare} f : sProp 𝕄) := (pointsTo_share (PosShare.mem_left_op_right fullShare)).2
  have e2 : iprop((((c : Thread nD τ).loc cc0_scratch0) ↦[slotSet 0]{fullShare.right.left} f) ∗ (((c : Thread nD τ).loc cc0_scratch0) ↦[slotSet 0]{fullShare.right.right} f)) ⊢ (((c : Thread nD τ).loc cc0_scratch0) ↦[slotSet 0]{fullShare.right} f : sProp 𝕄) := (pointsTo_share (PosShare.mem_left_op_right fullShare.right)).2
  have e3 : iprop((((c : Thread nD τ).loc cc0_scratch0) ↦[slotSet 0]{fullShare.right.right.left} f) ∗ (((c : Thread nD τ).loc cc0_scratch0) ↦[slotSet 0]{fullShare.right.right.right} f)) ⊢ (((c : Thread nD τ).loc cc0_scratch0) ↦[slotSet 0]{fullShare.right.right} f : sProp 𝕄) := (pointsTo_share (PosShare.mem_left_op_right fullShare.right.right)).2
  iintro ⟨H1, H2, H3, H0⟩
  ihave H := e3 $$ [H3 H0]
  · isplitl [H3] <;> iassumption
  ihave H := e2 $$ [H2 H]
  · isplitl [H2] <;> iassumption
  iapply e1
  isplitl [H1] <;> iassumption

section Body

variable (K : Dev nD × Fin 7 → ℕ)

abbrev rx : Rect S512x256 := Rect.unit (s := S512x256) ![0, 0] S512x256.size inb_S512x256_S512x256_0_0
abbrev ro : Rect S1x256 := Rect.unit (s := S1x256) ![0, 0] S1x256.size inb_S1x256_S1x256_0_0

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x256 .f32).view.readAt (Elt F) rx.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1x256 .f32).access ro : View sig .tc _ _ _).write (Elt F) f w Finset.univ = w :=
  Memref.write_access_unit_zero_univ (Elt F) cc0_stg1_0 hz2 _ f w

set_option maxHeartbeats 1000000 in
/-- The copy of the device's own row into row `r` of the device `r` places after it, addressed to `n` (substituted, not rewritten):
    it pays the one duty of the sender's send cell `r` (the lent share of the source comes back with it) and the one duty of the
    receiver's receive cell `r` (the row at its final contents lands with it). -/
theorem wp_send_row (c n : Dev nD) (r : Fin 4) (hr : r ≠ 0) (hn : n = fwd c r)
    {hsc : (slotM r : Memref sig (Dev.tc n : Thread nD τ).2.kind .vmem S1x256 .f32).view.ref.isScScratch = false}
    {hsrc : (slotM 0 : Memref sig .tc .vmem S1x256 .f32).view.WordExact} {hdst : (slotM r : Memref sig .tc .vmem S1x256 .f32).view.WordExact}
    {hsem : DmaTarget.Typed .vmem (.dma (recvS r)) (.remote (Dev.tc n : Thread nD τ) (slotM r : Memref sig .tc .vmem S1x256 .f32) (.dma (sendS r)) hsc)}
    {α : Type} {Q : α → sProp 𝕄} {k : PUnit → Prog (TpuEff nD τ sig (Elt F) Λ₀ .tc) α}
    (fn : S4x1x256.Idx → Elt F .f32) (O : CellTallies nD τ sig Unit) (W : Waits sig Unit) :
    iprop(cellInv ER (ringRd m) (K (c, sIx r)) (sendCell c r) ∗ cellInv ER (ringRd m) (K (fwd c r, rIx r)) (recvCell (fwd c r) r)
        ∗ slotPts c 0 (shr r) (scr m c) ∗ slotPts (fwd c r) r fullShare fn
        ∗ owes (c : Thread nD τ) (O + Rt c r) W
        ∗ dutyTok ER (sendCell c r) 0 0 ∗ reached ER (sendCell c r) 0
        ∗ dutyTok ER (recvCell (fwd c r) r) 0 0 ∗ reached ER (recvCell (fwd c r) r) 0)
      ⊢ iprop(((cred (tallyAt (sendCell c r) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM r) (.dma (sendS r)) hsc) (.dma (recvS r)) hsrc hdst hsem) k) Q) := by
  subst hn
  unfold slotPts
  rw [← slotM_set 0, ← slotM_set r]
  exact Rounds.wp_send_pointsTo 𝒱₀ ER (ringRd m) (c : Thread nD τ) none (c' := (fwd c r : Thread nD τ)) (src := slotM 0) (dst := slotM r)
    (sS := .dma (sendS r)) (sem := .dma (recvS r)) (q := shr r) (fs := scr m c) (κ₁ := K (c, sIx r)) (κ₂ := K (fwd c r, rIx r))
    (r₁ := 0) (r₂ := 0) (d₁ := 0) (d₂ := 0) (fd := fn)
    (by rw [duties_send m c hr]; exact Finset.mem_singleton_self _) (by rw [duties_recv m (fwd c r) hr]; exact Finset.mem_singleton_self _)
    () () N rfl (amount_send m c r 0) (amount_recv m (fwd c r) r 0) O rfl (W := W)
    (by rw [payload_send m c hr]; unfold sendPay slotPts; rw [slotM_set])
    (by rw [payload_recv m (fwd c r) hr]; unfold recvPay slotPts; rw [slotM_set]
        exact Entails.of_eq (pointsTo_congr fun i hi => copy_val m c r fn i hi))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ creds c ∗ levAts L lv ∗ semVal (sendCell c 0) 0 ∗ semVal (recvCell c 0) 0
      ∗ ∃ f, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (xstg m c) ∗ stg c cc0_stg1_0 (outAt m c))

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost positions payToks creds
  iintro ⟨⟨⟨⟨#Hrec, ⟨HatB, HatS1, HatS2, HatS3, HatV1, HatV2, HatV3⟩, ⟨HtB1, HtB2, HtB3, HtV1, HtV2, HtV3, HtS1, HtS2, HtS3⟩⟩, ⟨HcB, HcV1, HcV2, HcV3⟩, #Hlev, Hz0, Hz0', ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the scratch buffer by rows
  ihave Hrows := (Entails.of_eq (scr_rows c fullShare f0)) $$ Hscr
  icases Hrows with ⟨Hs0, Hs1, Hs2, Hs3⟩
  -- the FIRST signal, to the device one place after: row 3 here is the row it will write
  iapply (Rounds.wp_signal 𝒱₀ ER (ringRd m) (c : Thread nD τ) none (dst := (fwd c 1 : Thread nD τ)) (κ := K (fwd c 1, 0))
      (d := 3) (by rw [duties_bar]; decide) ((amount_bar m (fwd c 1) 3).trans (by decide)) () (O₃ c + Bt c 3 + Bt c 2) rfl)
    $$ [HO HtB1 Hs3]
  · isplitr; · iapply (inv_bar m K (fwd c 1)); iexact Hrec
    isplitl [HO]; · iexact HO
    isplitl [HtB1]; · iexact HtB1
    isplitl [Hs3]
    · rw [payload_bar]; unfold barPay; rw [fwd_fwd_13]
      isplitl [Hs3]; · iexists f0; iexact Hs3
      iapply (reached_recv m K c (k := 3) (by decide)); iexact Hrec
    · iapply (reached_bar m K (fwd c 1)); iexact Hrec
  iintro HO
  -- the SECOND signal, to the device two places after: row 2
  iapply (Rounds.wp_signal 𝒱₀ ER (ringRd m) (c : Thread nD τ) none (dst := (fwd c 2 : Thread nD τ)) (κ := K (fwd c 2, 0))
      (d := 2) (by rw [duties_bar]; decide) ((amount_bar m (fwd c 2) 2).trans (by decide)) () (O₃ c + Bt c 3) rfl)
    $$ [HO HtB2 Hs2]
  · isplitr; · iapply (inv_bar m K (fwd c 2)); iexact Hrec
    isplitl [HO]; · iexact HO
    isplitl [HtB2]; · iexact HtB2
    isplitl [Hs2]
    · rw [payload_bar]; unfold barPay; rw [fwd_fwd_22]
      isplitl [Hs2]; · iexists f0; iexact Hs2
      iapply (reached_recv m K c (k := 2) (by decide)); iexact Hrec
    · iapply (reached_bar m K (fwd c 2)); iexact Hrec
  iintro HO
  -- the THIRD, to the device three places after: row 1
  iapply (Rounds.wp_signal 𝒱₀ ER (ringRd m) (c : Thread nD τ) none (dst := (fwd c 3 : Thread nD τ)) (κ := K (fwd c 3, 0))
      (d := 1) (by rw [duties_bar]; decide) ((amount_bar m (fwd c 3) 1).trans (by decide)) () (O₃ c) rfl)
    $$ [HO HtB3 Hs1]
  · isplitr; · iapply (inv_bar m K (fwd c 3)); iexact Hrec
    isplitl [HO]; · iexact HO
    isplitl [HtB3]; · iexact HtB3
    isplitl [Hs1]
    · rw [payload_bar]; unfold barPay; rw [fwd_fwd_31]
      isplitl [Hs1]; · iexists f0; iexact Hs1
      iapply (reached_recv m K c (k := 1) (by decide)); iexact Hrec
    · iapply (reached_bar m K (fwd c 3)); iexact Hrec
  iintro HO
  -- the device's block; its column sums stored into row 0
  iapply (wp_load 𝒱₀ (c : Thread nD τ) none Set.univ (m := xM) (Finset.subset_univ _)) $$ Hx; iintro Hx
  rw [read_x]
  unfold slotPts
  iapply (wp_load 𝒱₀ (c : Thread nD τ) none Set.univ (m := scrM) (r := (slotRect 0).toLoadRect) (load_sub 0)) $$ Hs0; iintro Hs0
  iapply (wp_store 𝒱₀ (c : Thread nD τ) none Set.univ (m := scrM) (r := slotRect 0) (Mk := Finset.univ) (store_sub 0)) $$ Hs0; iintro Hs0
  ihave Hs0 := (Entails.of_eq (pointsTo_congr fun i hi => write_slot0 m c f0 i hi)) $$ Hs0
  ihave Hs0 := (Entails.of_eq (show (View.loc (c : Thread nD τ) ((scrM : Memref sig .tc .vmem S4x1x256 .f32).access (slotRect 0)) ↦[slotSet 0]{fullShare} scr m c : sProp 𝕄)
      = slotPts c 0 fullShare (scr m c) from rfl)) $$ Hs0
  -- the WAIT for 3 on its own barrier, owing the three copies: the three rows it will write come with it
  iapply (Rounds.wp_wait_rest_token 𝒱₀ ER (ringRd m) (c : Thread nD τ) none (κ := K (c, 0))
      (wpE_semWait_eq 𝒱₀ (c : Thread nD τ) none Set.univ) (Set.mem_univ _) () (O := O₃ c) (W := W) (R := 0) (m := 0) (T := ∅)
      (by rw [expect_bar]; decide)) $$ [HcB HO HatB]
  · isplitr; · iapply (inv_bar m K c); iexact Hrec
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨⟨%fn1, Hn1⟩, #Hr1⟩, ⟨⟨%fn2, Hn2⟩, #Hr2⟩, ⟨%fn3, Hn3⟩, #Hr3⟩
  -- its own row lent in three shares, one kept
  ihave Hsh := (slot0_split c (scr m c)) $$ Hs0
  icases Hsh with ⟨Hq1, Hq2, Hq3, Hq0⟩
  -- the three COPIES
  unfold O₃
  iapply (wp_send_row m K c _ 1 (by decide) (dev4_eq c) fn1 (0 + Rt c 3 + Rt c 2) _) $$ [Hq1 Hn1 HO HtS1 HtV1]
  · isplitr; · iapply (inv_send m K c (k := 1) (by decide)); iexact Hrec
    isplitr; · iapply (inv_recv m K (fwd c 1) (k := 1) (by decide)); iexact Hrec
    isplitl [Hq1]; · iexact Hq1
    isplitl [Hn1]; · iexact Hn1
    isplitl [HO]; · iexact HO
    isplitl [HtS1]; · iexact HtS1
    isplitr; · iapply (reached_send m K c (k := 1) (by decide)); iexact Hrec
    isplitl [HtV1]; · iexact HtV1
    iexact Hr1
  iintro ⟨HcS1, HO⟩
  iapply (wp_send_row m K c _ 2 (by decide) (dev5_eq c) fn2 (0 + Rt c 3) _) $$ [Hq2 Hn2 HO HtS2 HtV2]
  · isplitr; · iapply (inv_send m K c (k := 2) (by decide)); iexact Hrec
    isplitr; · iapply (inv_recv m K (fwd c 2) (k := 2) (by decide)); iexact Hrec
    isplitl [Hq2]; · iexact Hq2
    isplitl [Hn2]; · iexact Hn2
    isplitl [HO]; · iexact HO
    isplitl [HtS2]; · iexact HtS2
    isplitr; · iapply (reached_send m K c (k := 2) (by decide)); iexact Hrec
    isplitl [HtV2]; · iexact HtV2
    iexact Hr2
  iintro ⟨HcS2, HO⟩
  iapply (wp_send_row m K c _ 3 (by decide) (dev6_eq c) fn3 (0) _) $$ [Hq3 Hn3 HO HtS3 HtV3]
  · isplitr; · iapply (inv_send m K c (k := 3) (by decide)); iexact Hrec
    isplitr; · iapply (inv_recv m K (fwd c 3) (k := 3) (by decide)); iexact Hrec
    isplitl [Hq3]; · iexact Hq3
    isplitl [Hn3]; · iexact Hn3
    isplitl [HO]; · iexact HO
    isplitl [HtS3]; · iexact HtS3
    isplitr; · iapply (reached_send m K c (k := 3) (by decide)); iexact Hrec
    isplitl [HtV3]; · iexact HtV3
    iexact Hr3
  iintro ⟨HcS3, HO⟩
  -- the three rows sent here
  iapply (Rounds.wp_wait_rest_token 𝒱₀ ER (ringRd m) (c : Thread nD τ) none (κ := K (c, rIx 1)) (sm := .dma (recvS 1))
      (wpE_waitDma2_eq 𝒱₀ (c : Thread nD τ) none Set.univ) (Set.mem_univ _) () (O := 0) (W := _) (R := 0) (m := 0) (T := ∅)
      (by rw [Nat.zero_add, expect_recv m c (k := 1) (by decide)] <;> rfl)) $$ [HcV1 HO HatV1]
  · isplitr; · iapply (inv_recv m K c (k := 1) (by decide)); iexact Hrec
    isplitl [HcV1]; · iexact HcV1
    isplitl [HO]; · iexact HO
    isplitr; · rw [MayWait_zero]; iempintro
    iexact HatV1
  iintro ⟨HO, HatV1, -, Hpay⟩
  ihave Hv1 := (Entails.of_eq (rest_recv m c (k := 1) (by decide))) $$ Hpay
  iapply (Rounds.wp_wait_rest_token 𝒱₀ ER (ringRd m) (c : Thread nD τ) none (κ := K (c, rIx 2)) (sm := .dma (recvS 2))
      (wpE_waitDma2_eq 𝒱₀ (c : Thread nD τ) none Set.univ) (Set.mem_univ _) () (O := 0) (W := _) (R := 0) (m := 0) (T := ∅)
      (by rw [Nat.zero_add, expect_recv m c (k := 2) (by decide)] <;> rfl)) $$ [HcV2 HO HatV2]
  · isplitr; · iapply (inv_recv m K c (k := 2) (by decide)); iexact Hrec
    isplitl [HcV2]; · iexact HcV2
    isplitl [HO]; · iexact HO
    isplitr; · rw [MayWait_zero]; iempintro
    iexact HatV2
  iintro ⟨HO, HatV2, -, Hpay⟩
  ihave Hv2 := (Entails.of_eq (rest_recv m c (k := 2) (by decide))) $$ Hpay
  iapply (Rounds.wp_wait_rest_token 𝒱₀ ER (ringRd m) (c : Thread nD τ) none (κ := K (c, rIx 3)) (sm := .dma (recvS 3))
      (wpE_waitDma2_eq 𝒱₀ (c : Thread nD τ) none Set.univ) (Set.mem_univ _) () (O := 0) (W := _) (R := 0) (m := 0) (T := ∅)
      (by rw [Nat.zero_add, expect_recv m c (k := 3) (by decide)] <;> rfl)) $$ [HcV3 HO HatV3]
  · isplitr; · iapply (inv_recv m K c (k := 3) (by decide)); iexact Hrec
    isplitl [HcV3]; · iexact HcV3
    isplitl [HO]; · iexact HO
    isplitr; · rw [MayWait_zero]; iempintro
    iexact HatV3
  iintro ⟨HO, HatV3, -, Hpay⟩
  ihave Hv3 := (Entails.of_eq (rest_recv m c (k := 3) (by decide))) $$ Hpay
  -- the four rows read and added, the sum stored
  unfold recvPay slotPts
  iapply (wp_load 𝒱₀ (c : Thread nD τ) none Set.univ (m := scrM) (r := (slotRect 0).toLoadRect) (load_sub 0)) $$ Hq0; iintro Hq0
  rw [read_slot]
  ihave Hq0 := (Entails.of_eq (show (View.loc (c : Thread nD τ) (scrM : Memref sig .tc .vmem S4x1x256 .f32).view ↦[slotSet 0]{shr 0} scr m c : sProp 𝕄)
      = slotPts c 0 (shr 0) (scr m c) from rfl)) $$ Hq0
  iapply (wp_load 𝒱₀ (c : Thread nD τ) none Set.univ (m := scrM) (r := (slotRect 1).toLoadRect) (load_sub 1)) $$ Hv1; iintro Hv1
  rw [read_slot]
  ihave Hv1 := (Entails.of_eq (show (View.loc (c : Thread nD τ) (scrM : Memref sig .tc .vmem S4x1x256 .f32).view ↦[slotSet 1]{fullShare} scr m c : sProp 𝕄)
      = slotPts c 1 (fullShare) (scr m c) from rfl)) $$ Hv1
  iapply (wp_load 𝒱₀ (c : Thread nD τ) none Set.univ (m := scrM) (r := (slotRect 2).toLoadRect) (load_sub 2)) $$ Hv2; iintro Hv2
  rw [read_slot]
  ihave Hv2 := (Entails.of_eq (show (View.loc (c : Thread nD τ) (scrM : Memref sig .tc .vmem S4x1x256 .f32).view ↦[slotSet 2]{fullShare} scr m c : sProp 𝕄)
      = slotPts c 2 (fullShare) (scr m c) from rfl)) $$ Hv2
  iapply (wp_load 𝒱₀ (c : Thread nD τ) none Set.univ (m := scrM) (r := (slotRect 3).toLoadRect) (load_sub 3)) $$ Hv3; iintro Hv3
  rw [read_slot]
  ihave Hv3 := (Entails.of_eq (show (View.loc (c : Thread nD τ) (scrM : Memref sig .tc .vmem S4x1x256 .f32).view ↦[slotSet 3]{fullShare} scr m c : sProp 𝕄)
      = slotPts c 3 (fullShare) (scr m c) from rfl)) $$ Hv3
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out]
  -- the three copies have read their source: the lent shares back
  iapply (Rounds.wp_wait_rest_token 𝒱₀ ER (ringRd m) (c : Thread nD τ) none (κ := K (c, sIx 1)) (sm := .dma (sendS 1))
      (wpE_waitDma2_eq 𝒱₀ (c : Thread nD τ) none Set.univ) (Set.mem_univ _) () (O := 0) (W := _) (R := 0) (m := 0) (T := ∅)
      (by rw [Nat.zero_add, expect_send m c (k := 1) (by decide)] <;> rfl)) $$ [HcS1 HO HatS1]
  · isplitr; · iapply (inv_send m K c (k := 1) (by decide)); iexact Hrec
    isplitl [HcS1]; · iexact HcS1
    isplitl [HO]; · iexact HO
    isplitr; · rw [MayWait_zero]; iempintro
    iexact HatS1
  iintro ⟨HO, HatS1, -, Hpay⟩
  ihave Hq1 := (Entails.of_eq (rest_send m c (k := 1) (by decide))) $$ Hpay
  iapply (Rounds.wp_wait_rest_token 𝒱₀ ER (ringRd m) (c : Thread nD τ) none (κ := K (c, sIx 2)) (sm := .dma (sendS 2))
      (wpE_waitDma2_eq 𝒱₀ (c : Thread nD τ) none Set.univ) (Set.mem_univ _) () (O := 0) (W := _) (R := 0) (m := 0) (T := ∅)
      (by rw [Nat.zero_add, expect_send m c (k := 2) (by decide)] <;> rfl)) $$ [HcS2 HO HatS2]
  · isplitr; · iapply (inv_send m K c (k := 2) (by decide)); iexact Hrec
    isplitl [HcS2]; · iexact HcS2
    isplitl [HO]; · iexact HO
    isplitr; · rw [MayWait_zero]; iempintro
    iexact HatS2
  iintro ⟨HO, HatS2, -, Hpay⟩
  ihave Hq2 := (Entails.of_eq (rest_send m c (k := 2) (by decide))) $$ Hpay
  iapply (Rounds.wp_wait_rest_token 𝒱₀ ER (ringRd m) (c : Thread nD τ) none (κ := K (c, sIx 3)) (sm := .dma (sendS 3))
      (wpE_waitDma2_eq 𝒱₀ (c : Thread nD τ) none Set.univ) (Set.mem_univ _) () (O := 0) (W := _) (R := 0) (m := 0) (T := ∅)
      (by rw [Nat.zero_add, expect_send m c (k := 3) (by decide)] <;> rfl)) $$ [HcS3 HO HatS3]
  · isplitr; · iapply (inv_send m K c (k := 3) (by decide)); iexact Hrec
    isplitl [HcS3]; · iexact HcS3
    isplitl [HO]; · iexact HO
    isplitr; · rw [MayWait_zero]; iempintro
    iexact HatS3
  iintro ⟨HO, HatS3, -, Hpay⟩
  ihave Hq3 := (Entails.of_eq (rest_send m c (k := 3) (by decide))) $$ Hpay
  unfold sendPay
  ihave Hs0 := (slot0_join c (scr m c)) $$ [Hq1 Hq2 Hq3 Hq0]
  · isplitl [Hq1]; · iexact Hq1
    isplitl [Hq2]; · iexact Hq2
    isplitl [Hq3]; · iexact Hq3
    iexact Hq0
  ihave Hscr := (Entails.of_eq (scr_rows c fullShare (scr m c)).symm) $$ [Hs0 Hv1 Hv2 Hv3]
  · isplitl [Hs0]; · iexact Hs0
    isplitl [Hv1]; · iexact Hv1
    isplitl [Hv2]; · iexact Hv2
    iexact Hv3
  -- the six own cells close: their counters at zero are the core's again
  imod (Rounds.cell_close ER (ringRd m) (Set.mem_univ (K (c, sIx 1))) (fun h => h) (R := 0 + 1) (duties_later m (sendCell c 1))) $$ [HatS1] with HzS1
  · isplitr; · iapply (inv_send m K c (k := 1) (by decide)); iexact Hrec
    iexact HatS1
  imod (Rounds.cell_close ER (ringRd m) (Set.mem_univ (K (c, sIx 2))) (fun h => h) (R := 0 + 1) (duties_later m (sendCell c 2))) $$ [HatS2] with HzS2
  · isplitr; · iapply (inv_send m K c (k := 2) (by decide)); iexact Hrec
    iexact HatS2
  imod (Rounds.cell_close ER (ringRd m) (Set.mem_univ (K (c, sIx 3))) (fun h => h) (R := 0 + 1) (duties_later m (sendCell c 3))) $$ [HatS3] with HzS3
  · isplitr; · iapply (inv_send m K c (k := 3) (by decide)); iexact Hrec
    iexact HatS3
  imod (Rounds.cell_close ER (ringRd m) (Set.mem_univ (K (c, rIx 1))) (fun h => h) (R := 0 + 1) (duties_later m (recvCell c 1))) $$ [HatV1] with HzV1
  · isplitr; · iapply (inv_recv m K c (k := 1) (by decide)); iexact Hrec
    iexact HatV1
  imod (Rounds.cell_close ER (ringRd m) (Set.mem_univ (K (c, rIx 2))) (fun h => h) (R := 0 + 1) (duties_later m (recvCell c 2))) $$ [HatV2] with HzV2
  · isplitr; · iapply (inv_recv m K c (k := 2) (by decide)); iexact Hrec
    iexact HatV2
  imod (Rounds.cell_close ER (ringRd m) (Set.mem_univ (K (c, rIx 3))) (fun h => h) (R := 0 + 1) (duties_later m (recvCell c 3))) $$ [HatV3] with HzV3
  · isplitr; · iapply (inv_recv m K c (k := 3) (by decide)); iexact Hrec
    iexact HatV3
  rw [wp_ret]; imodintro
  iapply Hk
  unfold bodyPost Φ₁ Dat.owesAt Pipeline.owesWithin
  rw [show (dats m ρ 0 c).owed t₀.succ = 0 from rfl]
  isplitl [Hscr Hz0 HzS1 HzS2 HzS3 Hz0' HzV1 HzV2 HzV3]
  · isplitl [Hscr]; · iexact Hscr
    isplitl [Hz0]; · iexact Hz0
    isplitl [HzS1]; · iexact HzS1
    isplitl [HzS2]; · iexact HzS2
    isplitl [HzS3]; · iexact HzS3
    isplitl [Hz0']; · iexact Hz0'
    isplitl [HzV1]; · iexact HzV1
    isplitl [HzV2]; · iexact HzV2
    iexact HzV3
  isplitl [HO]
  · iexists (insert (SemLoc.dma (sendS 3), ()) (insert (SemLoc.dma (sendS 2), ()) (insert (SemLoc.dma (sendS 1), ())
      (insert (SemLoc.dma (recvS 3), ()) (insert (SemLoc.dma (recvS 2), ()) (insert (SemLoc.dma (recvS 1), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

end Body

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

/-- info: 'Cert.Kernel.Sum4.body_obligation' depends on axioms: [propext, Classical.choice, Quot.sound] -/
#guard_msgs in #print axioms body_obligation

end Cert.Kernel.Sum4

end
-- ==== Proof.Bits.Launch.lean ====
import proofs.«901091_g7700000000001092_dist_sum_ax0_shard0_i_m512_n256_v7x_i4_bf16_1_alg».proof.Proof.Coll
import proofs.«901091_g7700000000001092_dist_sum_ax0_shard0_i_m512_n256_v7x_i4_bf16_1_alg».proof.Proof.Gen.Kernel
import proofs.«901091_g7700000000001092_dist_sum_ax0_shard0_i_m512_n256_v7x_i4_bf16_1_alg».proof.Proof.Gen.Kernel.Skeleton
import proofs.«901091_g7700000000001092_dist_sum_ax0_shard0_i_m512_n256_v7x_i4_bf16_1_alg».proof.Proof.Gen.Kernel.Launch
import proofs.«901091_g7700000000001092_dist_sum_ax0_shard0_i_m512_n256_v7x_i4_bf16_1_alg».proof.Proof.Gen.Kernel.Points
import proofs.«901091_g7700000000001092_dist_sum_ax0_shard0_i_m512_n256_v7x_i4_bf16_1_alg».proof.Proof.Bits.Proto
import proofs.«901091_g7700000000001092_dist_sum_ax0_shard0_i_m512_n256_v7x_i4_bf16_1_alg».proof.Proof.Bits.Data
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Sum4

open Cert.Kernel Cert.Kernel.Gen Cert.Coll
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The launch: funding the cells of the ring protocol, dealing tokens and credit, and the run of the whole mesh -/

local notation "𝕄" => MT nD τ sig Unit (Elt F) ℕ UU ℕ

variable (m : (ℓ : Loc nD τ sig) → Buf (Elt F) ℓ) (ρ : Dev nD → PrngReg)

/-! ## The cells and tokens the launch mints -/

theorem ownSemFacts : Pipeline.OwnSemFacts cfg0.spec osem := by decide

theorem share_eq (c : Dev nD) (w : Fin cfg0.W) : (dats m ρ 0 c).share w = fullShare := by unfold Dat.share; split <;> rfl

omit [FloatOps F] in
theorem csem_injective : Function.Injective csem := by decide
omit [FloatOps F] in
theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have : k = k' := csem_injective (congrArg Prod.snd h)
  subst this; rfl
def ringCells : Finset (GSem nD τ sig) := Finset.univ.map ⟨kcell, kcell_injective⟩

/-- A device's own cells' duty tokens as minted: (device, which of the nine) — its barrier's duties 1, 2, 3, its three send
    cells' duty 0, its three receive cells' duty 0. -/
def tokKey : Fin 9 → SemLoc sig × Fin 4 := fun
  | 0 => (.reg barS, 1) | 1 => (.reg barS, 2) | 2 => (.reg barS, 3)
  | 3 => (.dma (sendS 1), 0) | 4 => (.dma (sendS 2), 0) | 5 => (.dma (sendS 3), 0)
  | 6 => (.dma (recvS 1), 0) | 7 => (.dma (recvS 2), 0) | 8 => (.dma (recvS 3), 0)
omit [FloatOps F] in
theorem tokKey_injective : Function.Injective tokKey := by decide
abbrev tokOf (cj : Dev nD × Fin 9) : GSem nD τ sig × ℕ × Fin 4 := (((cj.1 : Thread nD τ), (tokKey cj.2).1), 0, (tokKey cj.2).2)
omit [FloatOps F] in
theorem tokOf_injective : Function.Injective (tokOf : Dev nD × Fin 9 → GSem nD τ sig × ℕ × Fin 4) := by
  rintro ⟨c, j⟩ ⟨c', j'⟩ h
  have h1 : c = c' := congrArg (fun x : GSem nD τ sig × ℕ × Fin 4 => x.1.1.1) h
  subst h1
  have : j = j' := tokKey_injective (Prod.ext (congrArg (fun x : GSem nD τ sig × ℕ × Fin 4 => x.1.2) h) (congrArg (fun x : GSem nD τ sig × ℕ × Fin 4 => x.2.2) h))
  subst this; rfl
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 1 ∗ dutyTok ER (barCell c) 0 2 ∗ dutyTok ER (barCell c) 0 3
    ∗ dutyTok ER (sendCell c 1) 0 0 ∗ dutyTok ER (sendCell c 2) 0 0 ∗ dutyTok ER (sendCell c 3) 0 0
    ∗ dutyTok ER (recvCell c 1) 0 0 ∗ dutyTok ER (recvCell c 2) 0 0 ∗ dutyTok ER (recvCell c 3) 0 0)

/-- What the launch element deals device `c`: its seven cells' round states at counter zero, its positions and the reached
    records, and its own cells' tokens. -/
def G (c : Dev nD) : sProp 𝕄 :=
  iprop((bigSep Finset.univ fun k : Fin 7 => roundState ER (ringRd m) (kcell (c, k)) 0)
    ∗ (bigSep Finset.univ fun k : Fin 7 => iprop(atPos ER (kcell (c, k)) 0 ∅ 0 ∗ reached ER (kcell (c, k)) 0)) ∗ toks c)

/-- What the global step makes of it: the ghost state at some names, and the two counters of row 0 that are no cells. -/
def G' (c : Dev nD) : sProp 𝕄 := iprop((∃ K, ghost m K c) ∗ semVal (sendCell c 0) 0 ∗ semVal (recvCell c 0) 0)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at launch -/

omit [FloatOps F] in
/-- The kernel's own eight semaphores at zero, one by one; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
      ∗ semVal (recvCell c 0) 0 ∗ semVal (recvCell c 1) 0 ∗ semVal (recvCell c 2) 0 ∗ semVal (recvCell c 3) 0) := by
  rw [Pipeline.ownSems0_eq_of_list c osem [0, 1, 2, 3, 4, 5, 6, 7] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The nine counters regrouped: the seven cells', and the two of row 0 that are carried along. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 7 => semVal (kcell (c, k)) 0 : sProp 𝕄) ∗ semVal (sendCell c 0) 0 ∗ semVal (recvCell c 0) 0) := by
  rw [ownSems0_eq, unscopedSems0_eq, bigSep_fin7]
  iintro ⟨⟨S0, S1, S2, S3, R0, R1, R2, R3⟩, HB⟩
  isplitr [S0 R0]
  · isplitl [HB]; · iexact HB
    isplitl [S1]; · iexact S1
    isplitl [S2]; · iexact S2
    isplitl [S3]; · iexact S3
    isplitl [R1]; · iexact R1
    isplitl [R2]; · iexact R2
    iexact R3
  · isplitl [S0] <;> iassumption

/-- Each cell's invariant allocated from its counter and its round state. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c
          ∗ semVal (sendCell c 0) 0 ∗ semVal (recvCell c 0) 0) := by
  unfold G
  iintro ⟨Hos, Hus, Hst, Hat, Htok⟩
  ihave Hv := (sems0_eq (F := F) c) $$ [Hos Hus]
  · isplitl [Hos] <;> iassumption
  icases Hv with ⟨Hv, HS0, HR0⟩
  imod (show iprop((bigSep Finset.univ fun k : Fin 7 => semVal (kcell (c, k)) 0) ∗ bigSep Finset.univ fun k : Fin 7 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [HS0] <;> iassumption

/-! ## From the minted state to each device's ghost state -/

omit [FloatOps F] in
theorem positions_eq (c : Dev nD) : (bigSep Finset.univ fun k : Fin 7 => (atPos ER (kcell (c, k)) 0 ∅ 0 : sProp 𝕄)) = positions c := by
  unfold positions; rw [bigSep_fin7]

theorem ghost_intro (K : Dev nD × Fin 7 → ℕ) (c : Dev nD) :
    iprop(records m K ∗ (positions c ∗ payToks c) ∗ semVal (sendCell c 0) 0 ∗ semVal (recvCell c 0) 0) ⊢ G' m c := by
  unfold G' ghost
  iintro ⟨HR, ⟨HP, HT⟩, HS, HV⟩
  isplitl [HR HP HT]
  · iexists K
    isplitl [HR]; · iexact HR
    isplitl [HP] <;> iassumption
  · isplitl [HS] <;> iassumption

omit [FloatOps F] in
/-- The tokens dealt around the ring: the token of duty `r` of a barrier cell goes `r` places forward, to the device that
    pays it (so a device gets duty 3 from one place on, duty 2 from two, duty 1 from three); the token of receive cell `k`
    goes `k` places back, to the device that copies into that row; the send cells' tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (fwdEquiv 1) (fun c : Dev nD => (dutyTok ER (barCell c) 0 3 : sProp 𝕄)),
    bigSep_univ_equiv (fwdEquiv 2) (fun c : Dev nD => (dutyTok ER (barCell c) 0 2 : sProp 𝕄)),
    bigSep_univ_equiv (fwdEquiv 3) (fun c : Dev nD => (dutyTok ER (barCell c) 0 1 : sProp 𝕄)),
    bigSep_univ_equiv (fwdEquiv 1) (fun c : Dev nD => (dutyTok ER (recvCell c 1) 0 0 : sProp 𝕄)),
    bigSep_univ_equiv (fwdEquiv 2) (fun c : Dev nD => (dutyTok ER (recvCell c 2) 0 0 : sProp 𝕄)),
    bigSep_univ_equiv (fwdEquiv 3) (fun c : Dev nD => (dutyTok ER (recvCell c 3) 0 0 : sProp 𝕄))]
  iintro ⟨B1, B2, B3, S1, S2, S3, R1, R2, R3⟩
  isplitl [B3]; · iexact B3
  isplitl [B2]; · iexact B2
  isplitl [B1]; · iexact B1
  isplitl [R1]; · iexact R1
  isplitl [R2]; · iexact R2
  isplitl [R3]; · iexact R3
  isplitl [S1]; · iexact S1
  isplitl [S2]; · iexact S2
  iexact S3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' allocated cells, positions and tokens, regrouped: the names chosen once for the whole mesh, the records
    shared, the tokens dealt to their payers. -/
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c
          ∗ semVal (sendCell c 0) 0 ∗ semVal (recvCell c 0) 0) : sProp 𝕄)
      ⊢ bigSep Finset.univ (G' m) := by
  rw [bigSep_sep', bigSep_sep', bigSep_sep', ← bigSep_univ_prod (fun ck : Dev nD × Fin 7 => iprop(∃ κ : ℕ, cellInv ER (ringRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄)),
    bigSep_congr (s := Finset.univ) (fun (c : Dev nD) _ => positions_eq (F := F) c)]
  iintro ⟨HI, ⟨Hat, #HR⟩, Htok, Hz⟩
  ihave HK := (BI.bigSep_exists_pi Finset.univ (fun (ck : Dev nD × Fin 7) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => iprop(positions c ∗ payToks c)) (fun c : Dev nD => iprop(semVal (sendCell c 0) 0 ∗ semVal (recvCell c 0) 0))).symm))
    isplitl [Hat Htk]
    · iapply ((Entails.of_eq (bigSep_sep' Finset.univ (fun c : Dev nD => (positions c : sProp 𝕄)) payToks).symm))
      isplitl [Hat]; · iexact Hat
      iexact Htk
    iexact Hz

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Every device owing one unit to the barrier cell of the device `k` places on, each device is dealt one unit on its own; -/
theorem cred_bar (k : Fin 4) (c : Dev nD) : (Pipeline.launchCred (fun d => Bt d k) c : sProp 𝕄) ⊢ cred (tallyAt (barCell c) () 1) :=
  Pipeline.launchCred_tallyAt (.reg barS) (fun d => fwd d k) (fun d => bwd d k) (fun d => fwd_bwd d k) (fun d => bwd_fwd d k) () 1 c
omit [FloatOps F] in
/-- every device owing a row's credit to receive cell `k` of the device `k` places on, each is dealt that credit on its own. -/
theorem cred_recv (k : Fin 4) (c : Dev nD) : (Pipeline.launchCred (fun d => Rt d k) c : sProp 𝕄) ⊢ cred (tallyAt (recvCell c k) () N) :=
  Pipeline.launchCred_tallyAt (.dma (recvS k)) (fun d => fwd d k) (fun d => bwd d k) (fun d => fwd_bwd d k) (fun d => bwd_fwd d k) () N c

omit [FloatOps F] in
theorem cred_three (g : GSem nD τ sig) :
    iprop(cred (tallyAt g () 1) ∗ cred (tallyAt g () 1) ∗ cred (tallyAt g () 1)) ⊢ (cred (tallyAt g () 3) : sProp 𝕄) := by
  have e : (tallyAt g () 3 : CellTallies nD τ sig Unit) = tallyAt g () 1 + (tallyAt g () 1 + tallyAt g () 1) := by rw [tallyAt_add, tallyAt_add]
  rw [e]
  exact (sep_mono_right (cred_add _ _).2).trans (cred_add _ _).2

omit [FloatOps F] in
/-- The launch credit of the dues `O₀`: three barrier units and the three rows' credit, on the device's own cells. -/
theorem launch_creds (c : Dev nD) : (Pipeline.launchCred O₀ c : sProp 𝕄) ⊢ creds c := by
  have h : (Pipeline.launchCred O₀ c : sProp 𝕄)
      = iprop((((((emp ∗ Pipeline.launchCred (fun d => Rt d 3) c) ∗ Pipeline.launchCred (fun d => Rt d 2) c) ∗ Pipeline.launchCred (fun d => Rt d 1) c)
          ∗ Pipeline.launchCred (fun d => Bt d 3) c) ∗ Pipeline.launchCred (fun d => Bt d 2) c) ∗ Pipeline.launchCred (fun d => Bt d 1) c) := by
    show (Pipeline.launchCred (fun d => (0 : CellTallies nD τ sig Unit) + Rt d 3 + Rt d 2 + Rt d 1 + Bt d 3 + Bt d 2 + Bt d 1) c : sProp 𝕄) = _
    rw [Pipeline.launchCred_add, Pipeline.launchCred_add, Pipeline.launchCred_add, Pipeline.launchCred_add, Pipeline.launchCred_add, Pipeline.launchCred_add,
      Pipeline.launchCred_zero]
  rw [h]
  unfold creds
  iintro ⟨⟨⟨⟨⟨⟨-, R3⟩, R2⟩, R1⟩, B3⟩, B2⟩, B1⟩
  ihave B3' := (cred_bar (F := F) 3 c) $$ B3
  ihave B2' := (cred_bar (F := F) 2 c) $$ B2
  ihave B1' := (cred_bar (F := F) 1 c) $$ B1
  ihave R3' := (cred_recv (F := F) 3 c) $$ R3
  ihave R2' := (cred_recv (F := F) 2 c) $$ R2
  ihave R1' := (cred_recv (F := F) 1 c) $$ R1
  isplitl [B1' B2' B3']
  · iapply (cred_three (F := F) (barCell c))
    isplitl [B1']; · iexact B1'
    isplitl [B2'] <;> iassumption
  isplitl [R1']; · iexact R1'
  isplitl [R2'] <;> iassumption

/-! ## The launch theorem's side conditions -/

/-- What a device's body starts from, out of what the launch hands it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, HG, HS, HV⟩
  ihave Hc := (launch_creds (F := F) c) $$ Hcr
  imodintro
  unfold start
  isplitl
  · isplitl [HG]; · iexact HG
    isplitl [Hc]; · iexact Hc
    isplitl [Hlev]; · iexact Hlev
    isplitl [HS] <;> iassumption
  · iempintro

/-- With the scratch buffer, whole at some contents, it is the first point's precondition. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; iexact Hr

/-- What the body leaves gives back the eight own semaphores at zero and the scratch buffer whole. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m c from rfl, scopedRest0_eq, ownSems0_eq]
  unfold Φ₁
  iintro ⟨Hr, S0, S1, S2, S3, R0, R1, R2, R3⟩
  isplitr; · iempintro
  isplitr [Hr]
  · isplitl [S0]; · iexact S0
    isplitl [S1]; · iexact S1
    isplitl [S2]; · iexact S2
    isplitl [S3]; · iexact S3
    isplitl [R0]; · iexact R0
    isplitl [R1]; · iexact R1
    isplitl [R2]; · iexact R2
    iexact R3
  iexists (scr m c); iexact Hr

/-- The staging semaphores are no receive cell: the pipeline's own waits sit below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

set_option maxRecDepth 8000 in
/-- At the compiled mesh of four devices, for any float values, from any memory with zero counters: given each device's body
    obligation, every weakly fair execution of @main terminates, and every final state has each device's arrays at the
    contents the proof data names. -/
theorem run_main_of (hbody : ∀ c : Dev nD, BodyObligation (dats (F := F) m ρ 0 c) (defs₀ (F := F)) 𝒱₀ () Set.univ) :
    θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = m ((c : Thread nD τ).loc main_arg0) :=
  (dats (F := F) m ρ 0 c).arrAt_in (0 : Fin 2) rfl _

/-- The result array after the run holds the sum of the four rows: the one write-back stores the staged result over the
    whole array. -/
theorem finalA_out (c : Dev nD) : finalA m ρ c (1 : Fin 2) = outAt m c := by
  unfold finalA
  have h := (dats (F := F) m ρ 0 c).arrAt_succ (1 : Fin 2) t₀
  rw [flush0_1 t₀, if_pos rfl] at h
  refine h.trans ?_
  have hr : ∀ f : Buf (Elt F) ((cfg0.win 1).arr.view.loc (c : Thread nD τ)), ((cfg0.win 1).blk t₀).view.read (Elt F) f = f := fun f =>
    Memref.read_access_unit_zero (Elt F) main_v1 (by funext a; fin_cases a <;> rfl) _ f
  exact (hr _).symm.trans (View.read_write_univ _ _)

/-- The run with the values named: each device's result array ends as the sum of the four devices' column sums, its argument
    array unchanged. -/
theorem run_val_of (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩) (run_main_of m ρ hbody)

/-- info: 'Cert.Kernel.Sum4.run_val_of' depends on axioms: [propext, Classical.choice, Quot.sound] -/
#guard_msgs in #print axioms Cert.Kernel.Sum4.run_val_of

end Cert.Kernel.Sum4

end
-- ==== Proof.ValueBridge.lean ====
import proofs.«901091_g7700000000001092_dist_sum_ax0_shard0_i_m512_n256_v7x_i4_bf16_1_alg».proof.Defs
import proofs.«901091_g7700000000001092_dist_sum_ax0_shard0_i_m512_n256_v7x_i4_bf16_1_alg».proof.Proof.Coll
import proofs.«901091_g7700000000001092_dist_sum_ax0_shard0_i_m512_n256_v7x_i4_bf16_1_alg».proof.Proof.Gen.KernelIdeal.Skeleton
import proofs.«901091_g7700000000001092_dist_sum_ax0_shard0_i_m512_n256_v7x_i4_bf16_1_alg».proof.Proof.Gen.ReferenceIdeal.Read
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Layout
import Mathlib.Algebra.BigOperators.Fin
import Mathlib.Logic.Equiv.Fin.Basic

/-! # The four devices' column sums, added, are the column sums of the whole array

Device `d` of four holds rows `512 d … 512 d + 511` of a 2048 × 256 array `W`. Each device sums its block's
columns; a device then adds the four rows of column sums it has gathered, its own first and then those of the devices
one, two and three places before it on the ring. Over the extended reals addition is commutative and associative, so
the order does not matter, and the sum over 2048 rows is the sum over the four blocks of 512 rows: the result is the
column sums of `W`, which is what the reference computes (with an initial zero in front). -/

noncomputable section

namespace Cert.ValueBridge

open Idealize.ShloMosaic Idealize.ShloMosaic.ValueIdx

/-- device c's block of the whole array -/
abbrev blk (W : (⟨Cert.ReferenceIdeal.S2048x256, .f32⟩ : BufTy).Contents (Elt Ideal)) (d : Dev 4) : Vec Ideal Cert.KernelIdeal.S512x256 .f32 :=
  Layout.block ⟨2, ![512, 256]⟩ ⟨2, ![2048, 256]⟩ 0 4 d W

/-! ## Sums -/

/-- Four terms taken in the order of any enumeration of the four devices add up to the sum over the devices. -/
theorem sum_enum4 (σ : Fin 4 ≃ Dev 4) (f : Dev 4 → EReal) :
    f (σ 0) + f (σ 1) + f (σ 2) + f (σ 3) = ∑ d : Dev 4, f d := by
  rw [← Equiv.sum_comp σ f, Fin.sum_univ_four]

/-- Row `k` of 2048 is row `r` of block `d` for exactly one pair `(d, r)`, `k = 512 d + r`: the sum over the 2048 rows is
the sum over the four blocks of the sums over their 512 rows. -/
theorem sum_rows_split (g : Fin 2048 → EReal) :
    ∑ k : Fin 2048, g k
      = ∑ d : Fin 4, ∑ r : Fin 512, g ⟨d.val * 512 + r.val, by have := d.isLt; have := r.isLt; omega⟩ := by
  rw [← Equiv.sum_comp (finProdFinEquiv : Fin 4 × Fin 512 ≃ Fin 2048) g, Fintype.sum_prod_type]
  refine Finset.sum_congr rfl fun d _ => Finset.sum_congr rfl fun r _ => congrArg g (Fin.ext ?_)
  show r.val + 512 * d.val = d.val * 512 + r.val
  omega

/-! ## The kernel's two values read at an index -/

/-- A device's row of column sums, read at column `q`: the sum of that column over the 512 rows of its block. The
block passes through an identity cast, is summed along the rows from the zero word, and the 256 sums are given two
leading unit axes. -/
theorem pay1_apply (v : FVec Ideal Cert.KernelIdeal.S512x256 .f32) (u u' : Fin 1) (q : Fin 256) :
    Cert.KernelIdeal.Gen.k0_pay1 (F := Ideal) v (ix3 u u' q) = ∑ r : Fin 512, v (ix2 r q) := by
  unfold Cert.KernelIdeal.Gen.k0_pay1
  refine (shapeCast_ab_1ab_apply _ Cert.KernelIdeal.Gen.shapeCasts_S1x256_S1x1x256 u u' q).trans ?_
  refine (shapeCast_a_1a_apply _ Cert.KernelIdeal.Gen.shapeCasts_S256_S1x256 u' q).trans ?_
  refine (Ideal.multiReduction_add_single _ 0x00000000#32 Cert.KernelIdeal.Gen.reduces_S512x256_S256 (.inl rfl) rfl (ix1 q)).trans ?_
  rw [shapeCast_self]
  refine Finset.sum_congr rfl fun r _ => congrArg v ?_
  funext a; match a with | ⟨0, _⟩ => rfl | ⟨1, _⟩ => rfl

/-- The sum of four gathered rows, read at column `q`: each row loses its leading unit axis and the four are added
from the left. -/
theorem pay2_apply (a b c d : FVec Ideal Cert.KernelIdeal.S1x1x256 .f32) (u : Fin 1) (q : Fin 256) :
    Cert.KernelIdeal.Gen.k0_pay2 (F := Ideal) a b c d (ix2 u q)
      = a (ix3 0 u q) + b (ix3 0 u q) + c (ix3 0 u q) + d (ix3 0 u q) := by
  unfold Cert.KernelIdeal.Gen.k0_pay2
  rw [addf_apply, addf_apply, addf_apply,
    shapeCast_1ab_ab_apply a, shapeCast_1ab_ab_apply b, shapeCast_1ab_ab_apply c, shapeCast_1ab_ab_apply d]

/-! ## The block and the reference read at an index -/

/-- Row `r`, column `q` of device `d`'s block is row `512 d + r`, column `q` of the whole array. -/
theorem blk_apply (W : (⟨Cert.ReferenceIdeal.S2048x256, .f32⟩ : BufTy).Contents (Elt Ideal)) (d : Dev 4)
    (r : Fin 512) (q : Fin 256) :
    blk W d (ix2 r q) = W (ix2 (⟨d.val * 512 + r.val, by have := d.isLt; have := r.isLt; omega⟩ : Fin 2048) q) := by
  show W _ = W _
  refine congrArg W ?_
  funext a; match a with | ⟨0, _⟩ => rfl | ⟨1, _⟩ => rfl

/-- The reference, read at column `q`: zero plus the sum of that column over all 2048 rows, broadcast along a leading
unit axis. -/
theorem ref_apply (W : (⟨Cert.ReferenceIdeal.S2048x256, .f32⟩ : BufTy).Contents (Elt Ideal)) (u : Fin 1) (q : Fin 256) :
    Cert.ReferenceIdeal.Read.val_main_v1 (F := Ideal) W (ix2 u q) = ∑ k : Fin 2048, W (ix2 k q) := by
  rw [Cert.ReferenceIdeal.Read.val_main_v1_apply, Cert.ReferenceIdeal.Read.val_main_v0_apply,
    Cert.ReferenceIdeal.Read.val_main_cst_apply]
  refine (congrArg (· + _) Ideal.ofBits_zero_f32).trans ((zero_add _).trans ?_)
  refine Finset.sum_congr rfl fun k _ => congrArg W ?_
  funext a; match a with | ⟨0, _⟩ => rfl | ⟨1, _⟩ => rfl

/-! ## The bridge -/

theorem result_eq (W : (⟨Cert.ReferenceIdeal.S2048x256, .f32⟩ : BufTy).Contents (Elt Ideal)) (c : Dev 4) :
    Cert.KernelIdeal.Gen.k0_pay2 (F := Ideal)
        (Cert.KernelIdeal.Gen.k0_pay1 (F := Ideal) (blk W (Cert.Coll.bwd c 0)))
        (Cert.KernelIdeal.Gen.k0_pay1 (F := Ideal) (blk W (Cert.Coll.bwd c 1)))
        (Cert.KernelIdeal.Gen.k0_pay1 (F := Ideal) (blk W (Cert.Coll.bwd c 2)))
        (Cert.KernelIdeal.Gen.k0_pay1 (F := Ideal) (blk W (Cert.Coll.bwd c 3)))
      = Cert.ReferenceIdeal.Read.val_main_v1 (F := Ideal) W := by
  funext j
  obtain ⟨u, q, rfl⟩ : ∃ (u : Fin 1) (q : Fin 256), j = ix2 u q := ⟨j 0, j 1, eq_ix2 j⟩
  -- both sides at column `q`: four block sums in ring order on the left, the sum over all rows on the right
  rw [pay2_apply, pay1_apply, pay1_apply, pay1_apply, pay1_apply, ref_apply, sum_rows_split]
  -- the devices 0, 1, 2, 3 places before `c` are all four devices, each once
  refine (sum_enum4 (Cert.Coll.bwdAt c) (fun d => ∑ r : Fin 512, blk W d (ix2 r q))).trans ?_
  -- and block `d`'s row `r` is row `512 d + r` of the whole
  exact Finset.sum_congr rfl fun d _ => Finset.sum_congr rfl fun r _ => blk_apply W d r q

/-- info: 'Cert.ValueBridge.result_eq' depends on axioms: [propext, Classical.choice, Quot.sound] -/
#guard_msgs in #print axioms Cert.ValueBridge.result_eq

end Cert.ValueBridge

end
-- ==== Proof.lean ====
/- The column sums of a 2048 × 256 array held in four blocks of 512 rows, one per device of a ring of four.
   Each device adds up the columns of its own block into one row of 256 numbers, tells the three others it has entered (a unit on
   each one's barrier semaphore), waits for their three units, copies its row into a row of each of the others' scratch
   buffers, waits for the three rows sent to it, and adds the four rows: every device ends with the column sums of the whole
   array, which is what the one-device reference computes as a single sum over the 2048 rows. Over the extended reals addition is
   commutative and associative, so the sum over 2048 rows is the sum of the four blocks' sums in whatever order the rows
   arrive; no finiteness of the inputs is needed. The protocol is deadlock-free because a device waits on its barrier (level 1)
   owing only copies into receive cells (level 2), and waits on receive and send cells owing nothing. -/
import proofs.«901091_g7700000000001092_dist_sum_ax0_shard0_i_m512_n256_v7x_i4_bf16_1_alg».proof.Defs
import proofs.«901091_g7700000000001092_dist_sum_ax0_shard0_i_m512_n256_v7x_i4_bf16_1_alg».proof.Proof.Gen.Kernel
import proofs.«901091_g7700000000001092_dist_sum_ax0_shard0_i_m512_n256_v7x_i4_bf16_1_alg».proof.Proof.Gen.KernelIdeal
import proofs.«901091_g7700000000001092_dist_sum_ax0_shard0_i_m512_n256_v7x_i4_bf16_1_alg».proof.Proof.Gen.ReferenceIdeal
import proofs.«901091_g7700000000001092_dist_sum_ax0_shard0_i_m512_n256_v7x_i4_bf16_1_alg».proof.Proof.Gen.ReferenceIdeal.Run
import proofs.«901091_g7700000000001092_dist_sum_ax0_shard0_i_m512_n256_v7x_i4_bf16_1_alg».proof.Proof.Gen.ReferenceIdeal.Read
import proofs.«901091_g7700000000001092_dist_sum_ax0_shard0_i_m512_n256_v7x_i4_bf16_1_alg».proof.Proof.Gen.Pre_finite_inputs_Kernel
import proofs.«901091_g7700000000001092_dist_sum_ax0_shard0_i_m512_n256_v7x_i4_bf16_1_alg».proof.Proof.Gen.Pre_finite_inputs_ReferenceIdeal
import proofs.«901091_g7700000000001092_dist_sum_ax0_shard0_i_m512_n256_v7x_i4_bf16_1_alg».proof.Proof.Body
import proofs.«901091_g7700000000001092_dist_sum_ax0_shard0_i_m512_n256_v7x_i4_bf16_1_alg».proof.Proof.Launch
import proofs.«901091_g7700000000001092_dist_sum_ax0_shard0_i_m512_n256_v7x_i4_bf16_1_alg».proof.Proof.Bits.Body
import proofs.«901091_g7700000000001092_dist_sum_ax0_shard0_i_m512_n256_v7x_i4_bf16_1_alg».proof.Proof.Bits.Launch
import proofs.«901091_g7700000000001092_dist_sum_ax0_shard0_i_m512_n256_v7x_i4_bf16_1_alg».proof.Proof.ValueBridge
import Idealize.ShloMosaic.Adequacy
import Idealize.ShloMosaic.Init

noncomputable section

namespace Cert.Proof

open Idealize.ShloMosaic Idealize.SL.Sem

/-- The word-level program runs, and every device's block of the argument ends unchanged. -/
theorem frame_p : @Cert.frame_Kernel Cert.Kernel.Gen.facts Cert.Pre_finite_inputs_Kernel.Gen.facts := fun m ρ _ =>
  (θ_run (Cert.Kernel.defs (F := Bits)) _ _).mono (fun _ h c => (h c).2)
    (Cert.Kernel.Sum4.run_val_of (F := Bits) m ρ (Cert.Kernel.Sum4.body_obligation m ρ))

/-- So does the idealized program. -/
theorem frame_pi : @Cert.frame_KernelIdeal Cert.KernelIdeal.Gen.facts Cert.Pre_finite_inputs_Kernel.Gen.facts := fun m ρ _ =>
  (θ_run (Cert.KernelIdeal.defs (F := Ideal)) _ _).mono (fun _ h c => (h c).2)
    (Cert.KernelIdeal.Sum4.run_val_of (F := Ideal) m ρ (Cert.KernelIdeal.Sum4.body_obligation m ρ))

/-- The reference is three host operations: its run, with the result dropped. -/
theorem frame_ri : @Cert.frame_ReferenceIdeal Cert.ReferenceIdeal.Gen.facts Cert.Pre_finite_inputs_ReferenceIdeal.Gen.facts := fun m ρ _ =>
  (θ_run Cert.ReferenceIdeal.defs _ _).mono (fun _ h c => (h c).2) (Cert.ReferenceIdeal.Value.run (F := Ideal) m ρ)

/-- When every device holds its block of the whole array `W`, the sum of the four rows on device `c` is the reference's
    column sums of `W`: each row is the column sums of a block, and the four blocks are the whole array. -/
theorem out_eq (m : (ℓ : Loc Cert.KernelIdeal.nD Cert.KernelIdeal.τ Cert.KernelIdeal.sig) → Buf (Elt Ideal) ℓ)
    (W : (⟨Cert.ReferenceIdeal.S2048x256, .f32⟩ : BufTy).Contents (Elt Ideal))
    (hW : ∀ d : Dev Cert.KernelIdeal.nD, m ((d.tc : Thread Cert.KernelIdeal.nD Cert.KernelIdeal.τ).loc Cert.KernelIdeal.main_arg0)
      = Layout.block ⟨2, ![512, 256]⟩ ⟨2, ![2048, 256]⟩ 0 4 d W) (c : Dev Cert.KernelIdeal.nD) :
    Cert.KernelIdeal.Sum4.outAt (F := Ideal) m c = Cert.ReferenceIdeal.Read.val_main_v1 (F := Ideal) W := by
  unfold Cert.KernelIdeal.Sum4.outAt Cert.KernelIdeal.Sum4.part
  rw [Cert.KernelIdeal.Sum4.xstg_eq, Cert.KernelIdeal.Sum4.xstg_eq, Cert.KernelIdeal.Sum4.xstg_eq, Cert.KernelIdeal.Sum4.xstg_eq, hW, hW, hW, hW]
  exact Cert.ValueBridge.result_eq W c

theorem algebraic : @Cert.algebraic_KernelIdeal_ReferenceIdeal Cert.KernelIdeal.Gen.facts Cert.ReferenceIdeal.Gen.facts Cert.Pre_finite_inputs_Kernel.Gen.facts := by
  intro m ρ m' ρ' _ hagree
  refine ⟨Cert.ReferenceIdeal.Read.val_main_v1 (F := Ideal)
      (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨(h c).1.trans ?_, (h c).2⟩)
      (Cert.KernelIdeal.Sum4.run_val_of (F := Ideal) m ρ (Cert.KernelIdeal.Sum4.body_obligation m ρ))
    exact out_eq m _ hagree c
  · refine (θ_run Cert.ReferenceIdeal.defs _ _).mono (fun _ h => ⟨(h 0).1.trans (Cert.ReferenceIdeal.Read.val_main_v1_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, frame_ri, trivial, algebraic⟩

end Cert.Proof

end
